-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S51x51 : Shape := ⟨2, ![51, 51]⟩
abbrev S1 : Shape := ⟨1, ![1]⟩
abbrev S51 : Shape := ⟨1, ![51]⟩
abbrev S_ : Shape := ⟨0, ![]⟩
abbrev S32x1023 : Shape := ⟨2, ![32, 1023]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S51x51 : S_.BroadcastsInDim S51x51 (![] : Fin 0 → Fin S51x51.rank)
  reducesTo_S51x51_S_d0_1 : S51x51.ReducesTo [0, 1] S_
  bcast_S_S1 : S_.BroadcastsInDim S1 (![] : Fin 0 → Fin S1.rank)
  reducesTo_S1_S_d0 : S1.ReducesTo [0] S_
  bcast_S_S51 : S_.BroadcastsInDim S51 (![] : Fin 0 → Fin S51.rank)
  reducesTo_S51_S_d0 : S51.ReducesTo [0] S_
  slices_S32x1024_S32x1023_0_1 : S32x1024.Slices ![0, 1] S32x1023
  slices_S32x1024_S32x1023_0_0 : S32x1024.Slices ![0, 0] S32x1023
  reducesTo_S32x1023_S_d0_1 : S32x1023.ReducesTo [0, 1] S_

variable [Facts]

def fn_part1 {F : FTy → Type} [FloatOps F] (main_arg0 : IVec S32x1024 32) (main_arg1 : FVec F S32x1024 .f32) (main_v13 : IVec S_ 1) (main_v16 : IVec S51 1) : IVec S_ 1 :=
  let main_c_5 : IVec S_ 1 := constantI S_ 1 1#1
  let main_v17 : IVec S_ 1 := (fun x v => Host.reduce IntOp.andi x v reducesTo_S51_S_d0 h_S_) main_v16 main_c_5
  let main_v18 : IVec S_ 1 := andi main_v13 main_v17
  let main_c_6 : IVec S_ 32 := constantI S_ 32 0#32
  let main_v19 : IVec S32x1024 32 := broadcastInDim S32x1024 ![] bcast_S_S32x1024 main_c_6
  let main_v20 : IVec S32x1024 1 := cmpi .sge main_arg0 main_v19
  let main_c_7 : IVec S_ 1 := constantI S_ 1 1#1
  let main_v21 : IVec S_ 1 := (fun x v => Host.reduce IntOp.andi x v reducesTo_S32x1024_S_d0_1 h_S_) main_v20 main_c_7
  let main_v22 : IVec S_ 1 := andi main_v18 main_v21
  let main_c_8 : IVec S_ 32 := constantI S_ 32 51#32
  let main_v23 : IVec S32x1024 32 := broadcastInDim S32x1024 ![] bcast_S_S32x1024 main_c_8
  let main_v24 : IVec S32x1024 1 := cmpi .slt main_arg0 main_v23
  let main_c_9 : IVec S_ 1 := constantI S_ 1 1#1
  let main_v25 : IVec S_ 1 := (fun x v => Host.reduce IntOp.andi x v reducesTo_S32x1024_S_d0_1 h_S_) main_v24 main_c_9
  let main_v26 : IVec S_ 1 := andi main_v22 main_v25
  let main_v27 : FVec F S32x1023 .f32 := (extractStridedSlice S32x1023 ![0, 1] · slices_S32x1024_S32x1023_0_1) main_arg1
  let main_v28 : FVec F S32x1023 .f32 := (extractStridedSlice S32x1023 ![0, 0] · slices_S32x1024_S32x1023_0_0) main_arg1
  let main_v29 : IVec S32x1023 1 := cmpf .oge main_v27 main_v28
  let main_c_10 : IVec S_ 1 := constantI S_ 1 1#1
  let main_v30 : IVec S_ 1 := (fun x v => Host.reduce IntOp.andi x v reducesTo_S32x1023_S_d0_1 h_S_) main_v29 main_c_10
  let main_v31 : IVec S_ 1 := andi main_v26 main_v30
  main_v31

def fn {F : FTy → Type} [FloatOps F] (main_arg0 : IVec S32x1024 32) (main_arg1 : FVec F S32x1024 .f32) (main_arg2 : FVec F S51x51 .f32) (main_arg3 : FVec F S1 .f32) (main_arg4 : FVec F S51 .f32) : IVec S_ 1 :=
  let main_v0 : FVec F S32x1024 .f32 := Host.absf main_arg1
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S51x51 .f32 := Host.absf main_arg2
  let main_cst_0 : FVec F S_ .f32 := constant S_ .f32 0x7F800000#32
  let main_v5 : FVec F S51x51 .f32 := broadcastInDim S51x51 ![] bcast_S_S51x51 main_cst_0
  let main_v6 : IVec S51x51 1 := cmpf .olt main_v4 main_v5
  let main_c_1 : IVec S_ 1 := constantI S_ 1 1#1
  let main_v7 : IVec S_ 1 := (fun x v => Host.reduce IntOp.andi x v reducesTo_S51x51_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S51 .f32 := Host.absf main_arg4
  let main_cst_4 : FVec F S_ .f32 := constant S_ .f32 0x7F800000#32
  let main_v15 : FVec F S51 .f32 := broadcastInDim S51 ![] bcast_S_S51 main_cst_4
  let main_v16 : IVec S51 1 := cmpf .olt main_v14 main_v15
  fn_part1 (F := F) main_arg0 main_arg1 main_v13 main_v16
-- ==== Kernel.lean ====
abbrev S32x1024 : Shape := ⟨2, ![32, 1024]⟩
abbrev S51x51 : Shape := ⟨2, ![51, 51]⟩
abbrev S1 : Shape := ⟨1, ![1]⟩
abbrev S51 : Shape := ⟨1, ![51]⟩
abbrev S_ : Shape := ⟨0, ![]⟩
abbrev S128x128 : Shape := ⟨2, ![128, 128]⟩
abbrev S128 : Shape := ⟨1, ![128]⟩
abbrev S32x1024x1 : Shape := ⟨3, ![32, 1024, 1]⟩
abbrev S32x1x1024 : Shape := ⟨3, ![32, 1, 1024]⟩
abbrev S1x1024x1 : Shape := ⟨3, ![1, 1024, 1]⟩
abbrev S1x1x1024 : Shape := ⟨3, ![1, 1, 1024]⟩
abbrev S1024x1 : Shape := ⟨2, ![1024, 1]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S32x1x1023 : Shape := ⟨3, ![32, 1, 1023]⟩
abbrev S32x1023 : Shape := ⟨2, ![32, 1023]⟩
abbrev S32x1023x1 : Shape := ⟨3, ![32, 1023, 1]⟩
abbrev S32 : Shape := ⟨1, ![32]⟩
abbrev S50 : Shape := ⟨1, ![50]⟩
abbrev S32x1 : Shape := ⟨2, ![32, 1]⟩
abbrev S50x51 : Shape := ⟨2, ![50, 51]⟩

abbrev nBuf : Space → Nat
  | .hbm => 136
  | .vmem => 9
  | .smem => 0
  | _ => 0

abbrev hbmTy0_0 (i : Nat) : BufTy := match i % 128 with
  | 0 => ⟨S32x1024, .i32⟩
  | 1 => ⟨S32x1024, .f32⟩
  | 2 => ⟨S51x51, .f32⟩
  | 3 => ⟨S1, .f32⟩
  | 4 => ⟨S51, .f32⟩
  | 5 => ⟨S_, .f32⟩
  | 6 => ⟨S51, .f32⟩
  | 7 => ⟨S51, .f32⟩
  | 8 => ⟨S51, .f32⟩
  | 9 => ⟨S51, .f32⟩
  | 10 => ⟨S51, .i1⟩
  | 11 => ⟨S51, .f32⟩
  | 12 => ⟨S51, .f32⟩
  | 13 => ⟨S51, .f32⟩
  | 14 => ⟨S51, .f32⟩
  | 15 => ⟨S51, .f32⟩
  | 16 => ⟨S51, .f32⟩
  | 17 => ⟨S51, .f32⟩
  | 18 => ⟨S51, .f32⟩
  | 19 => ⟨S_, .f32⟩
  | 20 => ⟨S51x51, .f32⟩
  | 21 => ⟨S51x51, .f32⟩
  | 22 => ⟨S51x51, .f32⟩
  | 23 => ⟨S51x51, .f32⟩
  | 24 => ⟨S51x51, .i1⟩
  | 25 => ⟨S51x51, .f32⟩
  | 26 => ⟨S51x51, .f32⟩
  | 27 => ⟨S51x51, .f32⟩
  | 28 => ⟨S51x51, .f32⟩
  | 29 => ⟨S51x51, .f32⟩
  | 30 => ⟨S51x51, .f32⟩
  | 31 => ⟨S51x51, .f32⟩
  | 32 => ⟨S51x51, .f32⟩
  | 33 => ⟨S_, .f32⟩
  | 34 => ⟨S1, .f32⟩
  | 35 => ⟨S1, .f32⟩
  | 36 => ⟨S1, .f32⟩
  | 37 => ⟨S1, .f32⟩
  | 38 => ⟨S1, .i1⟩
  | 39 => ⟨S1, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S_, .f32⟩
  | 48 => ⟨S_, .i32⟩
  | 49 => ⟨S_, .f32⟩
  | 50 => ⟨S128x128, .f32⟩
  | 51 => ⟨S_, .i32⟩
  | 52 => ⟨S1, .i32⟩
  | 53 => ⟨S_, .f32⟩
  | 54 => ⟨S128, .f32⟩
  | 55 => ⟨S128x128, .f32⟩
  | 56 => ⟨S_, .i32⟩
  | 57 => ⟨S1, .i32⟩
  | 58 => ⟨S_, .f32⟩
  | 59 => ⟨S128, .f32⟩
  | 60 => ⟨S128x128, .f32⟩
  | 61 => ⟨S128x128, .f32⟩
  | 62 => ⟨S128x128, .f32⟩
  | 63 => ⟨S32x1024, .f32⟩
  | 64 => ⟨S32x1024, .f32⟩
  | 65 => ⟨S32x1024x1, .f32⟩
  | 66 => ⟨S32x1x1024, .f32⟩
  | 67 => ⟨S32x1024x1, .i32⟩
  | 68 => ⟨S32x1x1024, .f32⟩
  | 69 => ⟨S32x1x1023, .f32⟩
  | 70 => ⟨S32x1023, .f32⟩
  | 71 => ⟨S_, .i32⟩
  | 72 => ⟨S32x1024, .i32⟩
  | 73 => ⟨S32x1024, .i1⟩
  | 74 => ⟨S32x1023, .i32⟩
  | 75 => ⟨S_, .i32⟩
  | 76 => ⟨S32x1023, .i32⟩
  | 77 => ⟨S32x1023, .i1⟩
  | 78 => ⟨S_, .i32⟩
  | 79 => ⟨S32x1023, .i32⟩
  | 80 => ⟨S32x1023, .i32⟩
  | 81 => ⟨S32x1023, .i32⟩
  | 82 => ⟨S32x1023x1, .i32⟩
  | 83 => ⟨S32x1023, .f32⟩
  | 84 => ⟨S32x1023, .f32⟩
  | 85 => ⟨S32x1023, .i1⟩
  | 86 => ⟨S_, .f32⟩
  | 87 => ⟨S_, .f32⟩
  | 88 => ⟨S32x1023, .f32⟩
  | 89 => ⟨S32x1023, .f32⟩
  | 90 => ⟨S_, .f32⟩
  | 91 => ⟨S32x1023, .f32⟩
  | 92 => ⟨S32x1023, .f32⟩
  | 93 => ⟨S_, .f32⟩
  | 94 => ⟨S32, .f32⟩
  | 95 => ⟨S50, .f32⟩
  | 96 => ⟨S_, .f32⟩
  | 97 => ⟨S_, .f32⟩
  | 98 => ⟨S32, .f32⟩
  | 99 => ⟨S32, .f32⟩
  | 100 => ⟨S_, .f32⟩
  | 101 => ⟨S32x1, .f32⟩
  | 102 => ⟨S32x1024, .f32⟩
  | 103 => ⟨S32x1024, .f32⟩
  | 104 => ⟨S32x1024, .f32⟩
  | 105 => ⟨S32x1024, .f32⟩
  | 106 => ⟨S32x1024, .f32⟩
  | 107 => ⟨S_, .f32⟩
  | 108 => ⟨S32x1024, .f32⟩
  | 109 => ⟨S32x1024, .f32⟩
  | 110 => ⟨S50x51, .f32⟩
  | 111 => ⟨S_, .f32⟩
  | 112 => ⟨S51, .f32⟩
  | 113 => ⟨S_, .i32⟩
  | 114 => ⟨S32x1024, .i32⟩
  | 115 => ⟨S32x1024, .i1⟩
  | 116 => ⟨S_, .i32⟩
  | 117 => ⟨S32x1024, .i32⟩
  | 118 => ⟨S32x1024, .i32⟩
  | 119 => ⟨S32x1024, .i32⟩
  | 120 => ⟨S32x1024x1, .i32⟩
  | 121 => ⟨S32x1024, .f32⟩
  | 122 => ⟨S32x1024, .f32⟩
  | 123 => ⟨S_, .f32⟩
  | 124 => ⟨S_, .f32⟩
  | 125 => ⟨S32x1024, .f32⟩
  | 126 => ⟨S32x1024, .f32⟩
  | 127 => ⟨S_, .f32⟩
  | _ => ⟨S32x1024, .i32⟩

abbrev hbmTy0_1 (i : Nat) : BufTy := match i % 128 with
  | 0 => ⟨S32, .f32⟩
  | 1 => ⟨S32, .f32⟩
  | 2 => ⟨S_, .f32⟩
  | 3 => ⟨S_, .f32⟩
  | 4 => ⟨S32x1023, .f32⟩
  | 5 => ⟨S_, .f32⟩
  | 6 => ⟨S_, .f32⟩
  | 7 => ⟨S_, .f32⟩
  | _ => ⟨S32x1024, .i32⟩

abbrev hbmTy (i : Nat) : BufTy := match i / 128 with
  | 0 => hbmTy0_0 i
  | 1 => hbmTy0_1 i
  | _ => ⟨S32x1024, .i32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S1x1024x1, .f32⟩
  | .local _ .vmem, ⟨2, _⟩ => ⟨S1x1024x1, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x1, .i32⟩
  | .local _ .vmem, ⟨6, _⟩ => ⟨S1x1024x1, .i32⟩
  | .local _ .vmem, ⟨7, _⟩ => ⟨S1x1x1024, .f32⟩
  | .local _ .vmem, ⟨8, _⟩ => ⟨S1x1x1024, .f32⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_call1_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_v1 : Ref sig .tc := ⟨.hbm, 32, rfl⟩
abbrev main_call2_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_v2 : Ref sig .tc := ⟨.hbm, 46, rfl⟩
abbrev main_v3 : Ref sig .tc := ⟨.hbm, 47, rfl⟩
abbrev main_c : Ref sig .tc := ⟨.hbm, 48, rfl⟩
abbrev main_call3_v0 : Ref sig .tc := ⟨.hbm, 49, rfl⟩
abbrev main_v4 : Ref sig .tc := ⟨.hbm, 50, rfl⟩
abbrev main_c_0 : Ref sig .tc := ⟨.hbm, 51, rfl⟩
abbrev main_v5 : Ref sig .tc := ⟨.hbm, 52, rfl⟩
abbrev main_cst : Ref sig .tc := ⟨.hbm, 53, rfl⟩
abbrev main_v6 : Ref sig .tc := ⟨.hbm, 54, rfl⟩
abbrev main_v7 : Ref sig .tc := ⟨.hbm, 55, rfl⟩
abbrev main_c_1 : Ref sig .tc := ⟨.hbm, 56, rfl⟩
abbrev main_v8 : Ref sig .tc := ⟨.hbm, 57, rfl⟩
abbrev main_cst_2 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_c_4 : Ref sig .tc := ⟨.hbm, 75, rfl⟩
abbrev main_v24 : Ref sig .tc := ⟨.hbm, 76, rfl⟩
abbrev main_v25 : Ref sig .tc := ⟨.hbm, 77, rfl⟩
abbrev main_c_5 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_6 : Ref sig .tc := ⟨.hbm, 86, rfl⟩
abbrev main_call4_v0 : Ref sig .tc := ⟨.hbm, 87, rfl⟩
abbrev main_call4_v1 : Ref sig .tc := ⟨.hbm, 88, rfl⟩
abbrev main_v33 : Ref sig .tc := ⟨.hbm, 89, rfl⟩
abbrev main_cst_7 : Ref sig .tc := ⟨.hbm, 90, rfl⟩
abbrev main_v34 : Ref sig .tc := ⟨.hbm, 91, rfl⟩
abbrev main_v35 : Ref sig .tc := ⟨.hbm, 92, rfl⟩
abbrev main_cst_8 : Ref sig .tc := ⟨.hbm, 93, rfl⟩
abbrev main_v36 : Ref sig .tc := ⟨.hbm, 94, rfl⟩
abbrev main_v37 : Ref sig .tc := ⟨.hbm, 95, rfl⟩
abbrev main_cst_9 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_10 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_11 : Ref sig .tc := ⟨.hbm, 111, rfl⟩
abbrev main_v51 : Ref sig .tc := ⟨.hbm, 112, rfl⟩
abbrev main_c_12 : Ref sig .tc := ⟨.hbm, 113, rfl⟩
abbrev main_v52 : Ref sig .tc := ⟨.hbm, 114, rfl⟩
abbrev main_v53 : Ref sig .tc := ⟨.hbm, 115, rfl⟩
abbrev main_c_13 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_cst_14 : Ref sig .tc := ⟨.hbm, 123, rfl⟩
abbrev main_call5_v0 : Ref sig .tc := ⟨.hbm, 124, rfl⟩
abbrev main_call5_v1 : Ref sig .tc := ⟨.hbm, 125, rfl⟩
abbrev main_v60 : Ref sig .tc := ⟨.hbm, 126, rfl⟩
abbrev main_cst_15 : Ref sig .tc := ⟨.hbm, 127, rfl⟩
abbrev main_v61 : Ref sig .tc := ⟨.hbm, 128, rfl⟩
abbrev main_v62 : Ref sig .tc := ⟨.hbm, 129, rfl⟩
abbrev main_cst_16 : Ref sig .tc := ⟨.hbm, 130, rfl⟩
abbrev main_v63 : Ref sig .tc := ⟨.hbm, 131, rfl⟩
abbrev main_v64 : Ref sig .tc := ⟨.hbm, 132, rfl⟩
abbrev main_cst_17 : Ref sig .tc := ⟨.hbm, 133, rfl⟩
abbrev main_v65 : Ref sig .tc := ⟨.hbm, 134, rfl⟩
abbrev main_v66 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S51 : S_.BroadcastsInDim S51 (![] : Fin 0 → Fin S51.rank)
  bcast_S_S51x51 : S_.BroadcastsInDim S51x51 (![] : Fin 0 → Fin S51x51.rank)
  bcast_S_S1 : S_.BroadcastsInDim S1 (![] : Fin 0 → Fin S1.rank)
  shapeCasts_S1_S_ : S1.ShapeCasts S_
  pads_S51x51_S128x128_0770_0770 : S51x51.Pads (![0, 0] : Fin 2 → Nat) ![77, 77] ![0, 0] S128x128
  h_S_ : 0 < S_.numel
  bcast_S_S128 : S_.BroadcastsInDim S128 (![] : Fin 0 → Fin S128.rank)
  bcast_S_S128x128 : S_.BroadcastsInDim S128x128 (![] : Fin 0 → Fin S128x128.rank)
  bcast_S_S32x1024 : S_.BroadcastsInDim S32x1024 (![] : Fin 0 → Fin S32x1024.rank)
  shapeCasts_S32x1024_S32x1024x1 : S32x1024.ShapeCasts S32x1024x1
  shapeCasts_S32x1024_S32x1x1024 : S32x1024.ShapeCasts S32x1x1024
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  iota_S1024x128_d1_w32 : S1024x128.Iotas .tc 32 [1]
  broadcasts_S1024x1_S1024x128 : S1024x1.Broadcasts S1024x128
  natLt_1_32 : 1 < 32
  iota_S1024x1_d0_w32 : S1024x1.Iotas .tc 32 [0]
  iota_S1x1024_d1_w32 : S1x1024.Iotas .tc 32 [1]
  broadcasts_S1x1024_S1024x1024 : S1x1024.Broadcasts S1024x1024
  broadcasts_S1024x1_S1024x1024 : S1024x1.Broadcasts S1024x1024
  reduces_S1024x128_S1024 : S1024x128.Reduces [1] S1024
  shapeCasts_S1024_S1024x1 : S1024.ShapeCasts S1024x1
  transposes_S1024x1_p1_0_S1x1024 : S1024x1.Transposes [1, 0] S1x1024
  shapeCasts_S1x1024_S1x1x1024 : S1x1024.ShapeCasts S1x1x1024
  slices_S32x1x1024_S32x1x1023_0_0_1 : S32x1x1024.Slices ![0, 0, 1] S32x1x1023
  shapeCasts_S32x1x1023_S32x1023 : S32x1x1023.ShapeCasts S32x1023
  slices_S32x1024_S32x1023_0_1 : S32x1024.Slices ![0, 1] S32x1023
  bcast_S_S32x1023 : S_.BroadcastsInDim S32x1023 (![] : Fin 0 → Fin S32x1023.rank)
  bcast_S32x1023_S32x1023x1_0_1 : S32x1023.BroadcastsInDim S32x1023x1 (![0, 1] : Fin 2 → Fin S32x1023x1.rank)
  reducesTo_S32x1024_S32_d1 : S32x1024.ReducesTo [1] S32
  slices_S51_S50_1 : S51.Slices ![1] S50
  reducesTo_S50_S_d0 : S50.ReducesTo [0] S_
  bcast_S_S32 : S_.BroadcastsInDim S32 (![] : Fin 0 → Fin S32.rank)
  bcast_S32_S32x1_0 : S32.BroadcastsInDim S32x1 (![0] : Fin 1 → Fin S32x1.rank)
  bcast_S32x1_S32x1024_0_1 : S32x1.BroadcastsInDim S32x1024 (![0, 1] : Fin 2 → Fin S32x1024.rank)
  slices_S51x51_S50x51_1_0 : S51x51.Slices ![1, 0] S50x51
  reducesTo_S50x51_S51_d0 : S50x51.ReducesTo [0] S51
  bcast_S32x1024_S32x1024x1_0_1 : S32x1024.BroadcastsInDim S32x1024x1 (![0, 1] : Fin 2 → Fin S32x1024x1.rank)
  reducesTo_S32_S_d0 : S32.ReducesTo [0] S_
  reducesTo_S32x1023_S_d0_1 : S32x1023.ReducesTo [0, 1] S_
  scatter_S128x128_S1_S128_0_0_0_0_wf : ScatterDims.WF S128x128 S1 S128 [0] [0] [0] 0
  scatter_S128x128_S1_S128_0_1_1_0_wf : ScatterDims.WF S128x128 S1 S128 [0] [1] [1] 0
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  gather_S51_S32x1023x1_S32x1023_n_0_n_n_0_2_1_wf : GatherDims.WF S51 S32x1023x1 S32x1023 [] [0] [] [0] [] 2 ![1]
  gather_S51_S32x1024x1_S32x1024_n_0_n_n_0_2_1_wf : GatherDims.WF S51 S32x1024x1 S32x1024 [] [0] [] [0] [] 2 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S32x1024x1.size a
  hwx0_1 : ∀ i : grid0.Coords, EltTy.bits .f32 = 32 ∨ (Rect.block (s := S32x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S32x1x1024.size a
  hwx0_2 : ∀ i : grid0.Coords, EltTy.bits .f32 = 32 ∨ (Rect.block (s := S32x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S32x1024x1.size a
  hwx0_3 : ∀ i : grid0.Coords, EltTy.bits .i32 = 32 ∨ (Rect.block (s := S32x1024x1) S1x1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S32x1x1024.size a
  hwx0_4 : ∀ i : grid0.Coords, EltTy.bits .f32 = 32 ∨ (Rect.block (s := S32x1x1024) S1x1x1024.size (cc0_transform_4 i) (hinb0_4 i)).WholeWords (EltTy.packing .f32)

variable [Facts₀]

def scatter_S128x128_S1_S128_0_0_0_0 : ScatterDims S128x128 S1 S128 where
  updateWindowDims := [0]
  insertedWindowDims := [0]
  scatterDimsToOperandDims := [0]
  indexVectorDim := 0
  wf := scatter_S128x128_S1_S128_0_0_0_0_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def gather_S51_S32x1023x1_S32x1023_n_0_n_n_0_2_1 : GatherDims S51 S32x1023x1 S32x1023 where
  offsetDims := []
  collapsedSliceDims := [0]
  operandBatchingDims := []
  startIndicesBatchingDims := []
  startIndexMap := [0]
  indexVectorDim := 2
  sliceSizes := ![1]
  wf := gather_S51_S32x1023x1_S32x1023_n_0_n_n_0_2_1_wf
def gather_S51_S32x1024x1_S32x1024_n_0_n_n_0_2_1 : GatherDims S51 S32x1024x1 S32x1024 where
  offsetDims := []
  collapsedSliceDims := [0]
  operandBatchingDims := []
  startIndicesBatchingDims := []
  startIndexMap := [0]
  indexVectorDim := 2
  sliceSizes := ![1]
  wf := gather_S51_S32x1024x1_S32x1024_n_0_n_n_0_2_1_wf

abbrev win0_0 : Pipeline.Window sig grid0 :=
  Pipeline.Window.ofSpec (Memref.whole main_v12) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024 : Shape := ⟨2, ![32, 1024]⟩
abbrev S51x51 : Shape := ⟨2, ![51, 51]⟩
abbrev S1 : Shape := ⟨1, ![1]⟩
abbrev S51 : Shape := ⟨1, ![51]⟩
abbrev S_ : Shape := ⟨0, ![]⟩
abbrev S1024x1024 : Shape := ⟨2, ![1024, 1024]⟩
abbrev S32x1024x1 : Shape := ⟨3, ![32, 1024, 1]⟩
abbrev S32x1x1024 : Shape := ⟨3, ![32, 1, 1024]⟩
abbrev S32x1024x1024 : Shape := ⟨3, ![32, 1024, 1024]⟩
abbrev S1x1024x1024 : Shape := ⟨3, ![1, 1024, 1024]⟩
abbrev S32x1023x1024 : Shape := ⟨3, ![32, 1023, 1024]⟩
abbrev S1x1x1 : Shape := ⟨3, ![1, 1, 1]⟩
abbrev S32x1023 : Shape := ⟨2, ![32, 1023]⟩
abbrev S32x1023x1 : Shape := ⟨3, ![32, 1023, 1]⟩
abbrev S32x1023x1024x1 : Shape := ⟨4, ![32, 1023, 1024, 1]⟩
abbrev S32x1023x1024x2 : Shape := ⟨4, ![32, 1023, 1024, 2]⟩
abbrev S1023x1024 : Shape := ⟨2, ![1023, 1024]⟩
abbrev S1x1023x1024 : Shape := ⟨3, ![1, 1023, 1024]⟩
abbrev S32 : Shape := ⟨1, ![32]⟩
abbrev S50 : Shape := ⟨1, ![50]⟩
abbrev S32x1 : Shape := ⟨2, ![32, 1]⟩
abbrev S1x1 : Shape := ⟨2, ![1, 1]⟩
abbrev S50x51 : Shape := ⟨2, ![50, 51]⟩

abbrev nBuf : Space → Nat
  | .hbm => 190
  | .vmem => 0
  | .smem => 0
  | _ => 0

abbrev hbmTy0_0 (i : Nat) : BufTy := match i % 128 with
  | 0 => ⟨S32x1024, .i32⟩
  | 1 => ⟨S32x1024, .f32⟩
  | 2 => ⟨S51x51, .f32⟩
  | 3 => ⟨S1, .f32⟩
  | 4 => ⟨S51, .f32⟩
  | 5 => ⟨S_, .f32⟩
  | 6 => ⟨S51, .f32⟩
  | 7 => ⟨S51, .f32⟩
  | 8 => ⟨S51, .f32⟩
  | 9 => ⟨S51, .f32⟩
  | 10 => ⟨S51, .i1⟩
  | 11 => ⟨S51, .f32⟩
  | 12 => ⟨S51, .f32⟩
  | 13 => ⟨S51, .f32⟩
  | 14 => ⟨S51, .f32⟩
  | 15 => ⟨S51, .f32⟩
  | 16 => ⟨S51, .f32⟩
  | 17 => ⟨S51, .f32⟩
  | 18 => ⟨S51, .f32⟩
  | 19 => ⟨S_, .f32⟩
  | 20 => ⟨S51x51, .f32⟩
  | 21 => ⟨S51x51, .f32⟩
  | 22 => ⟨S51x51, .f32⟩
  | 23 => ⟨S51x51, .f32⟩
  | 24 => ⟨S51x51, .i1⟩
  | 25 => ⟨S51x51, .f32⟩
  | 26 => ⟨S51x51, .f32⟩
  | 27 => ⟨S51x51, .f32⟩
  | 28 => ⟨S51x51, .f32⟩
  | 29 => ⟨S51x51, .f32⟩
  | 30 => ⟨S51x51, .f32⟩
  | 31 => ⟨S51x51, .f32⟩
  | 32 => ⟨S51x51, .f32⟩
  | 33 => ⟨S_, .f32⟩
  | 34 => ⟨S1, .f32⟩
  | 35 => ⟨S1, .f32⟩
  | 36 => ⟨S1, .f32⟩
  | 37 => ⟨S1, .f32⟩
  | 38 => ⟨S1, .i1⟩
  | 39 => ⟨S1, .f32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S_, .i1⟩
  | 48 => ⟨S1024x1024, .i1⟩
  | 49 => ⟨S1024x1024, .i32⟩
  | 50 => ⟨S_, .i32⟩
  | 51 => ⟨S1024x1024, .i32⟩
  | 52 => ⟨S1024x1024, .i32⟩
  | 53 => ⟨S1024x1024, .i32⟩
  | 54 => ⟨S1024x1024, .i1⟩
  | 55 => ⟨S_, .i1⟩
  | 56 => ⟨S1024x1024, .i1⟩
  | 57 => ⟨S1024x1024, .i1⟩
  | 58 => ⟨S_, .i32⟩
  | 59 => ⟨S32x1024, .i32⟩
  | 60 => ⟨S32x1024, .i1⟩
  | 61 => ⟨S32x1024x1, .f32⟩
  | 62 => ⟨S32x1x1024, .f32⟩
  | 63 => ⟨S32x1024x1024, .f32⟩
  | 64 => ⟨S32x1024x1024, .f32⟩
  | 65 => ⟨S32x1024x1024, .f32⟩
  | 66 => ⟨S1x1024x1024, .i1⟩
  | 67 => ⟨S32x1024x1, .i1⟩
  | 68 => ⟨S32x1024x1024, .i1⟩
  | 69 => ⟨S32x1024x1024, .i1⟩
  | 70 => ⟨S32x1024x1024, .i1⟩
  | 71 => ⟨S32x1x1024, .i1⟩
  | 72 => ⟨S32x1024x1024, .i1⟩
  | 73 => ⟨S32x1024x1024, .i1⟩
  | 74 => ⟨S_, .f32⟩
  | 75 => ⟨S_, .f32⟩
  | 76 => ⟨S32x1024x1024, .f32⟩
  | 77 => ⟨S32x1024x1024, .f32⟩
  | 78 => ⟨S32x1023x1024, .f32⟩
  | 79 => ⟨S1, .f32⟩
  | 80 => ⟨S1x1x1, .f32⟩
  | 81 => ⟨S32x1023x1024, .f32⟩
  | 82 => ⟨S32x1023x1024, .f32⟩
  | 83 => ⟨S32x1023x1024, .f32⟩
  | 84 => ⟨S1x1x1, .f32⟩
  | 85 => ⟨S32x1023x1024, .f32⟩
  | 86 => ⟨S32x1023x1024, .f32⟩
  | 87 => ⟨S32x1023, .i32⟩
  | 88 => ⟨S32x1023x1, .i32⟩
  | 89 => ⟨S32x1x1024, .i32⟩
  | 90 => ⟨S_, .i32⟩
  | 91 => ⟨S32x1023x1, .i32⟩
  | 92 => ⟨S32x1023x1, .i1⟩
  | 93 => ⟨S_, .i32⟩
  | 94 => ⟨S32x1023x1, .i32⟩
  | 95 => ⟨S32x1023x1, .i32⟩
  | 96 => ⟨S32x1023x1, .i32⟩
  | 97 => ⟨S_, .i32⟩
  | 98 => ⟨S32x1x1024, .i32⟩
  | 99 => ⟨S32x1x1024, .i1⟩
  | 100 => ⟨S_, .i32⟩
  | 101 => ⟨S32x1x1024, .i32⟩
  | 102 => ⟨S32x1x1024, .i32⟩
  | 103 => ⟨S32x1x1024, .i32⟩
  | 104 => ⟨S32x1023x1024, .i32⟩
  | 105 => ⟨S32x1023x1024, .i32⟩
  | 106 => ⟨S32x1023x1024x1, .i32⟩
  | 107 => ⟨S32x1023x1024x1, .i32⟩
  | 108 => ⟨S32x1023x1024x2, .i32⟩
  | 109 => ⟨S32x1023x1024, .f32⟩
  | 110 => ⟨S32x1023x1024, .f32⟩
  | 111 => ⟨S1023x1024, .i1⟩
  | 112 => ⟨S1x1023x1024, .i1⟩
  | 113 => ⟨S32x1023, .i1⟩
  | 114 => ⟨S32x1023x1, .i1⟩
  | 115 => ⟨S32x1023x1024, .i1⟩
  | 116 => ⟨S32x1023x1024, .i1⟩
  | 117 => ⟨S32x1023x1024, .i1⟩
  | 118 => ⟨S32x1x1024, .i1⟩
  | 119 => ⟨S32x1023x1024, .i1⟩
  | 120 => ⟨S32x1023x1024, .i1⟩
  | 121 => ⟨S_, .f32⟩
  | 122 => ⟨S_, .f32⟩
  | 123 => ⟨S32x1023x1024, .f32⟩
  | 124 => ⟨S32x1023x1024, .f32⟩
  | 125 => ⟨S_, .f32⟩
  | 126 => ⟨S32x1023, .f32⟩
  | 127 => ⟨S32x1023, .i32⟩
  | _ => ⟨S32x1024, .i32⟩

abbrev hbmTy0_1 (i : Nat) : BufTy := match i % 128 with
  | 0 => ⟨S_, .i32⟩
  | 1 => ⟨S32x1023, .i32⟩
  | 2 => ⟨S32x1023, .i1⟩
  | 3 => ⟨S_, .i32⟩
  | 4 => ⟨S32x1023, .i32⟩
  | 5 => ⟨S32x1023, .i32⟩
  | 6 => ⟨S32x1023, .i32⟩
  | 7 => ⟨S32x1023x1, .i32⟩
  | 8 => ⟨S32x1023, .f32⟩
  | 9 => ⟨S32x1023, .f32⟩
  | 10 => ⟨S32x1023, .i1⟩
  | 11 => ⟨S_, .f32⟩
  | 12 => ⟨S_, .f32⟩
  | 13 => ⟨S32x1023, .f32⟩
  | 14 => ⟨S32x1023, .f32⟩
  | 15 => ⟨S_, .f32⟩
  | 16 => ⟨S32x1023, .f32⟩
  | 17 => ⟨S32x1023, .f32⟩
  | 18 => ⟨S_, .f32⟩
  | 19 => ⟨S32, .f32⟩
  | 20 => ⟨S50, .f32⟩
  | 21 => ⟨S_, .f32⟩
  | 22 => ⟨S_, .f32⟩
  | 23 => ⟨S32, .f32⟩
  | 24 => ⟨S32, .f32⟩
  | 25 => ⟨S1, .f32⟩
  | 26 => ⟨S32x1, .f32⟩
  | 27 => ⟨S32x1024, .f32⟩
  | 28 => ⟨S32x1024, .f32⟩
  | 29 => ⟨S1x1, .f32⟩
  | 30 => ⟨S32x1024, .f32⟩
  | 31 => ⟨S32x1024, .f32⟩
  | 32 => ⟨S32x1024, .f32⟩
  | 33 => ⟨S_, .f32⟩
  | 34 => ⟨S32x1024, .f32⟩
  | 35 => ⟨S32x1024, .f32⟩
  | 36 => ⟨S50x51, .f32⟩
  | 37 => ⟨S_, .f32⟩
  | 38 => ⟨S51, .f32⟩
  | 39 => ⟨S_, .i32⟩
  | 40 => ⟨S32x1024, .i32⟩
  | 41 => ⟨S32x1024, .i1⟩
  | 42 => ⟨S_, .i32⟩
  | 43 => ⟨S32x1024, .i32⟩
  | 44 => ⟨S32x1024, .i32⟩
  | 45 => ⟨S32x1024, .i32⟩
  | 46 => ⟨S32x1024x1, .i32⟩
  | 47 => ⟨S32x1024, .f32⟩
  | 48 => ⟨S32x1024, .f32⟩
  | 49 => ⟨S_, .f32⟩
  | 50 => ⟨S_, .f32⟩
  | 51 => ⟨S32x1024, .f32⟩
  | 52 => ⟨S32x1024, .f32⟩
  | 53 => ⟨S_, .f32⟩
  | 54 => ⟨S32, .f32⟩
  | 55 => ⟨S32, .f32⟩
  | 56 => ⟨S_, .f32⟩
  | 57 => ⟨S_, .f32⟩
  | 58 => ⟨S32x1023, .f32⟩
  | 59 => ⟨S_, .f32⟩
  | 60 => ⟨S_, .f32⟩
  | 61 => ⟨S_, .f32⟩
  | _ => ⟨S32x1024, .i32⟩

abbrev hbmTy (i : Nat) : BufTy := match i / 128 with
  | 0 => hbmTy0_0 i
  | 1 => hbmTy0_1 i
  | _ => ⟨S32x1024, .i32⟩

abbrev bufTy : (tb : Table) → Fin (tcTables nBuf tb) → BufTy
  | .hbm, ⟨i, _⟩ => hbmTy i
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_call1_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_v1 : Ref sig .tc := ⟨.hbm, 32, rfl⟩
abbrev main_call2_cst : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_v2 : Ref sig .tc := ⟨.hbm, 46, rfl⟩
abbrev main_c : Ref sig .tc := ⟨.hbm, 47, rfl⟩
abbrev main_v3 : Ref sig .tc := ⟨.hbm, 48, rfl⟩
abbrev main_call3_v0 : Ref sig .tc := ⟨.hbm, 49, rfl⟩
abbrev main_call3_c : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_c_0 : Ref sig .tc := ⟨.hbm, 55, rfl⟩
abbrev main_call3_v5 : Ref sig .tc := ⟨.hbm, 56, rfl⟩
abbrev main_v4 : Ref sig .tc := ⟨.hbm, 57, rfl⟩
abbrev main_c_0 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst : Ref sig .tc := ⟨.hbm, 74, rfl⟩
abbrev main_call4_v0 : Ref sig .tc := ⟨.hbm, 75, rfl⟩
abbrev main_call4_v1 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_c_1 : Ref sig .tc := ⟨.hbm, 90, rfl⟩
abbrev main_v33 : Ref sig .tc := ⟨.hbm, 91, rfl⟩
abbrev main_v34 : Ref sig .tc := ⟨.hbm, 92, rfl⟩
abbrev main_c_2 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_c_3 : Ref sig .tc := ⟨.hbm, 97, rfl⟩
abbrev main_v38 : Ref sig .tc := ⟨.hbm, 98, rfl⟩
abbrev main_v39 : Ref sig .tc := ⟨.hbm, 99, rfl⟩
abbrev main_c_4 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_cst_5 : Ref sig .tc := ⟨.hbm, 121, rfl⟩
abbrev main_call5_v0 : Ref sig .tc := ⟨.hbm, 122, rfl⟩
abbrev main_call5_v1 : Ref sig .tc := ⟨.hbm, 123, rfl⟩
abbrev main_v60 : Ref sig .tc := ⟨.hbm, 124, rfl⟩
abbrev main_cst_6 : Ref sig .tc := ⟨.hbm, 125, rfl⟩
abbrev main_v61 : Ref sig .tc := ⟨.hbm, 126, rfl⟩
abbrev main_v62 : Ref sig .tc := ⟨.hbm, 127, rfl⟩
abbrev main_c_7 : Ref sig .tc := ⟨.hbm, 128, rfl⟩
abbrev main_v63 : Ref sig .tc := ⟨.hbm, 129, rfl⟩
abbrev main_v64 : Ref sig .tc := ⟨.hbm, 130, rfl⟩
abbrev main_c_8 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_cst_9 : Ref sig .tc := ⟨.hbm, 139, rfl⟩
abbrev main_call6_v0 : Ref sig .tc := ⟨.hbm, 140, rfl⟩
abbrev main_call6_v1 : Ref sig .tc := ⟨.hbm, 141, rfl⟩
abbrev main_v72 : Ref sig .tc := ⟨.hbm, 142, rfl⟩
abbrev main_cst_10 : Ref sig .tc := ⟨.hbm, 143, rfl⟩
abbrev main_v73 : Ref sig .tc := ⟨.hbm, 144, rfl⟩
abbrev main_v74 : Ref sig .tc := ⟨.hbm, 145, rfl⟩
abbrev main_cst_11 : Ref sig .tc := ⟨.hbm, 146, rfl⟩
abbrev main_v75 : Ref sig .tc := ⟨.hbm, 147, rfl⟩
abbrev main_v76 : Ref sig .tc := ⟨.hbm, 148, rfl⟩
abbrev main_cst_12 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_13 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_14 : Ref sig .tc := ⟨.hbm, 165, rfl⟩
abbrev main_v91 : Ref sig .tc := ⟨.hbm, 166, rfl⟩
abbrev main_c_15 : Ref sig .tc := ⟨.hbm, 167, rfl⟩
abbrev main_v92 : Ref sig .tc := ⟨.hbm, 168, rfl⟩
abbrev main_v93 : Ref sig .tc := ⟨.hbm, 169, rfl⟩
abbrev main_c_16 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_cst_17 : Ref sig .tc := ⟨.hbm, 177, rfl⟩
abbrev main_call7_v0 : Ref sig .tc := ⟨.hbm, 178, rfl⟩
abbrev main_call7_v1 : Ref sig .tc := ⟨.hbm, 179, rfl⟩
abbrev main_v100 : Ref sig .tc := ⟨.hbm, 180, rfl⟩
abbrev main_cst_18 : Ref sig .tc := ⟨.hbm, 181, rfl⟩
abbrev main_v101 : Ref sig .tc := ⟨.hbm, 182, rfl⟩
abbrev main_v102 : Ref sig .tc := ⟨.hbm, 183, rfl⟩
abbrev main_cst_19 : Ref sig .tc := ⟨.hbm, 184, rfl⟩
abbrev main_v103 : Ref sig .tc := ⟨.hbm, 185, rfl⟩
abbrev main_v104 : Ref sig .tc := ⟨.hbm, 186, rfl⟩
abbrev main_cst_20 : Ref sig .tc := ⟨.hbm, 187, rfl⟩
abbrev main_v105 : Ref sig .tc := ⟨.hbm, 188, rfl⟩
abbrev main_v106 : Ref sig .tc := ⟨.hbm, 189, rfl⟩

abbrev nD : Nat := 1
abbrev τ : Topo := Topo.v7x

variable {F : FTy → Type} [FloatOps F]

class Facts₀ : Prop where
  bcast_S_S51 : S_.BroadcastsInDim S51 (![] : Fin 0 → Fin S51.rank)
  bcast_S_S51x51 : S_.BroadcastsInDim S51x51 (![] : Fin 0 → Fin S51x51.rank)
  bcast_S_S1 : S_.BroadcastsInDim S1 (![] : Fin 0 → Fin S1.rank)
  bcast_S_S1024x1024 : S_.BroadcastsInDim S1024x1024 (![] : Fin 0 → Fin S1024x1024.rank)
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S32x1024x1024 : S_.BroadcastsInDim S32x1024x1024 (![] : Fin 0 → Fin S32x1024x1024.rank)
  slices_S32x1024x1024_S32x1023x1024_0_1_0 : S32x1024x1024.Slices ![0, 1, 0] S32x1023x1024
  bcast_S1_S1x1x1_2 : S1.BroadcastsInDim S1x1x1 (![2] : Fin 1 → Fin S1x1x1.rank)
  bcast_S1x1x1_S32x1023x1024_0_1_2 : S1x1x1.BroadcastsInDim S32x1023x1024 (![0, 1, 2] : Fin 3 → Fin S32x1023x1024.rank)
  slices_S32x1024_S32x1023_0_1 : S32x1024.Slices ![0, 1] S32x1023
  bcast_S32x1023_S32x1023x1_0_1 : S32x1023.BroadcastsInDim S32x1023x1 (![0, 1] : Fin 2 → Fin S32x1023x1.rank)
  bcast_S_S32x1023x1 : S_.BroadcastsInDim S32x1023x1 (![] : Fin 0 → Fin S32x1023x1.rank)
  bcast_S_S32x1x1024 : S_.BroadcastsInDim S32x1x1024 (![] : Fin 0 → Fin S32x1x1024.rank)
  bcast_S32x1023x1_S32x1023x1024_0_1_2 : S32x1023x1.BroadcastsInDim S32x1023x1024 (![0, 1, 2] : Fin 3 → Fin S32x1023x1024.rank)
  bcast_S32x1x1024_S32x1023x1024_0_1_2 : S32x1x1024.BroadcastsInDim S32x1023x1024 (![0, 1, 2] : Fin 3 → Fin S32x1023x1024.rank)
  bcast_S32x1023x1024_S32x1023x1024x1_0_1_2 : S32x1023x1024.BroadcastsInDim S32x1023x1024x1 (![0, 1, 2] : Fin 3 → Fin S32x1023x1024x1.rank)
  concatenates_S32x1023x1024x1_S32x1023x1024x1_S32x1023x1024x2_d3 : Shape.Concatenates [S32x1023x1024x1, S32x1023x1024x1] S32x1023x1024x2 3
  slices_S1024x1024_S1023x1024_1_0 : S1024x1024.Slices ![1, 0] S1023x1024
  bcast_S1023x1024_S1x1023x1024_1_2 : S1023x1024.BroadcastsInDim S1x1023x1024 (![1, 2] : Fin 2 → Fin S1x1023x1024.rank)
  bcast_S1x1023x1024_S32x1023x1024_0_1_2 : S1x1023x1024.BroadcastsInDim S32x1023x1024 (![0, 1, 2] : Fin 3 → Fin S32x1023x1024.rank)
  bcast_S_S32x1023x1024 : S_.BroadcastsInDim S32x1023x1024 (![] : Fin 0 → Fin S32x1023x1024.rank)
  reducesTo_S32x1023x1024_S32x1023_d2 : S32x1023x1024.ReducesTo [2] S32x1023
  h_S_ : 0 < S_.numel
  bcast_S_S32x1023 : S_.BroadcastsInDim S32x1023 (![] : Fin 0 → Fin S32x1023.rank)
  reducesTo_S32x1024_S32_d1 : S32x1024.ReducesTo [1] S32
  slices_S51_S50_1 : S51.Slices ![1] S50
  reducesTo_S50_S_d0 : S50.ReducesTo [0] S_
  bcast_S_S32 : S_.BroadcastsInDim S32 (![] : Fin 0 → Fin S32.rank)
  bcast_S32_S32x1_0 : S32.BroadcastsInDim S32x1 (![0] : Fin 1 → Fin S32x1.rank)
  bcast_S32x1_S32x1024_0_1 : S32x1.BroadcastsInDim S32x1024 (![0, 1] : Fin 2 → Fin S32x1024.rank)
  bcast_S1_S1x1_1 : S1.BroadcastsInDim S1x1 (![1] : Fin 1 → Fin S1x1.rank)
  bcast_S1x1_S32x1024_0_1 : S1x1.BroadcastsInDim S32x1024 (![0, 1] : Fin 2 → Fin S32x1024.rank)
  slices_S51x51_S50x51_1_0 : S51x51.Slices ![1, 0] S50x51
  reducesTo_S50x51_S51_d0 : S50x51.ReducesTo [0] S51
  reducesTo_S32_S_d0 : S32.ReducesTo [0] S_
  reducesTo_S32x1023_S_d0_1 : S32x1023.ReducesTo [0, 1] S_
  gather_S51x51_S32x1023x1024x2_S32x1023x1024_n_01_n_n_01_3_11_wf : GatherDims.WF S51x51 S32x1023x1024x2 S32x1023x1024 [] [0, 1] [] [0, 1] [] 3 ![1, 1]
  gather_S51_S32x1023x1_S32x1023_n_0_n_n_0_2_1_wf : GatherDims.WF S51 S32x1023x1 S32x1023 [] [0] [] [0] [] 2 ![1]
  gather_S51_S32x1024x1_S32x1024_n_0_n_n_0_2_1_wf : GatherDims.WF S51 S32x1024x1 S32x1024 [] [0] [] [0] [] 2 ![1]

variable [Facts₀]

def gather_S51x51_S32x1023x1024x2_S32x1023x1024_n_01_n_n_01_3_11 : GatherDims S51x51 S32x1023x1024x2 S32x1023x1024 where
  offsetDims := []
  collapsedSliceDims := [0, 1]
  operandBatchingDims := []
  startIndicesBatchingDims := []
  startIndexMap := [0, 1]
  indexVectorDim := 3
  sliceSizes := ![1, 1]
  wf := gather_S51x51_S32x1023x1024x2_S32x1023x1024_n_01_n_n_01_3_11_wf
def gather_S51_S32x1023x1_S32x1023_n_0_n_n_0_2_1 : GatherDims S51 S32x1023x1 S32x1023 where
  offsetDims := []
  collapsedSliceDims := [0]
  operandBatchingDims := []
  startIndicesBatchingDims := []
  startIndexMap := [0]
  indexVectorDim := 2
  sliceSizes := ![1]
  wf := gather_S51_S32x1023x1_S32x1023_n_0_n_n_0_2_1_wf
def gather_S51_S32x1024x1_S32x1024_n_0_n_n_0_2_1 : GatherDims S51 S32x1024x1 S32x1024 where
  offsetDims := []
  collapsedSliceDims := [0]
  operandBatchingDims := []
  startIndicesBatchingDims := []
  startIndexMap := [0]
  indexVectorDim := 2
  sliceSizes := ![1]
  wf := gather_S51_S32x1024x1_S32x1024_n_0_n_n_0_2_1_wf

class Facts : Prop extends Facts₀ where

variable [Facts]
-- ==== Proof.FrameK.lean ====
import proofs.«414441_j14216341750039_3_alg».proof.Proof.Gen.Kernel.Launch
import proofs.«414441_j14216341750039_3_alg».proof.Proof.Gen.Kernel.Skeleton
import proofs.«414441_j14216341750039_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The frame of the kernel program

The program's `@main` is one pipelined region between two runs of host operations.  This module
proves that it runs to completion and describes the final memory: every array the region stages
holds what the pipeline's proof data compute, every other buffer what the host operations after the
region leave, and in particular the five argument arrays end as they were launched.

The region's body reads its four input blocks, computes one payload from them and stores it over
the whole output block, so after the body the output's staging buffer is a closed function
(`out4`) of the four input blocks.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The six runs of host operations before the region, in order. -/
abbrev preOps : List (List (HloOp τ sig (Elt F))) := [hostOps0, hostOps0_1, hostOps0_2, hostOps0_3, hostOps0_4, hostOps0_5]
/-- The five runs of host operations after it, in order. -/
abbrev tailOps : List (List (HloOp τ sig (Elt F))) := [hostOps1, hostOps1_1, hostOps1_2, hostOps1_3, hostOps1_4]

/-- A core's buffer contents when the region is entered: the launch memory after the operations before the region. -/
abbrev V0 (c : Dev nD) : Valuation τ sig (Elt F) := StableHlo.after (List.flatten (preOps (F := F))) (fun b => m (c, b))
/-- The same, read at a TensorCore reference. -/
abbrev V (c : Dev nD) (b : Ref sig .tc) : Buf (Elt F) ((c : Thread nD τ).loc b) := V0 m c (Proc.devRef .tc b)

/-! ### Each host operation allocates nothing and writes one buffer outside a protected list

Every host operation here writes exactly one buffer, its result.  `Tame L op` records that `op` allocates nothing and that
its result is none of the references in `L`; so a reference of `L` keeps its contents across `op`. -/

/-- The argument arrays. -/
abbrev argL : List (Ref sig .tc) := [main_arg0, main_arg1, main_arg2, main_arg3, main_arg4]
/-- The argument arrays and the five arrays the region stages. -/
abbrev keepL : List (Ref sig .tc) := [main_arg0, main_arg1, main_arg2, main_arg3, main_arg4, main_v12, main_v15, main_v16, main_v17, main_v18]

/-- `op` allocates nothing, and writes exactly one buffer, which is not in `L`. -/
abbrev Tame (L : List (Ref sig .tc)) (op : HloOp τ sig (Elt F)) : Prop :=
  op.fresh = ∅ ∧ ∃ y : Ref sig .tc, op.writes = {Proc.devRef .tc y} ∧ y ∉ L

/-- A tame operation writes no reference of its list. -/
theorem Tame.keeps {L : List (Ref sig .tc)} {op : HloOp τ sig (Elt F)} (h : Tame L op) {b : Ref sig .tc} (hb : b ∈ L) :
    Proc.devRef (τ := τ) .tc b ∉ op.writes := by
  obtain ⟨-, y, hy, hyL⟩ := h
  rw [hy, Finset.mem_singleton]
  intro e
  exact hyL (Proc.devRef_injective _ e ▸ hb)

local macro "tame1" : term => `(⟨rfl, _, rfl, by decide⟩)
theorem hostOps0_tame : (hostOps0 : List (HloOp τ sig (Elt F))).Forall (Tame argL) :=
  ⟨tame1, tame1, tame1, tame1, tame1, tame1, tame1, tame1, tame1, tame1, tame1, tame1, tame1, tame1⟩
theorem hostOps0_1_tame : (hostOps0_1 : List (HloOp τ sig (Elt F))).Forall (Tame argL) :=
  ⟨tame1, tame1, tame1, tame1, tame1, tame1, tame1, tame1, tame1, tame1, tame1, tame1, tame1, tame1⟩
theorem hostOps0_2_tame : (hostOps0_2 : List (HloOp τ sig (Elt F))).Forall (Tame argL) :=
  ⟨tame1, tame1, tame1, tame1, tame1, tame1, tame1, tame1, tame1, tame1, tame1, tame1, tame1, tame1⟩
theorem hostOps0_3_tame : (hostOps0_3 : List (HloOp τ sig (Elt F))).Forall (Tame argL) :=
  ⟨tame1, tame1⟩
theorem hostOps0_4_tame : (hostOps0_4 : List (HloOp τ sig (Elt F))).Forall (Tame argL) :=
  ⟨tame1, tame1⟩
theorem hostOps0_5_tame : (hostOps0_5 : List (HloOp τ sig (Elt F))).Forall (Tame argL) :=
  ⟨tame1, tame1, tame1, tame1, tame1, tame1, tame1, tame1, tame1, tame1, tame1, tame1, tame1, tame1, tame1, tame1, tame1⟩
theorem hostOps1_tame : (hostOps1 : List (HloOp τ sig (Elt F))).Forall (Tame keepL) :=
  ⟨tame1, tame1, tame1, tame1, tame1, tame1, tame1, tame1, tame1, tame1, tame1, tame1, tame1, tame1, tame1, tame1, tame1, tame1⟩
theorem hostOps1_1_tame : (hostOps1_1 : List (HloOp τ sig (Elt F))).Forall (Tame keepL) :=
  ⟨tame1, tame1, tame1⟩
theorem hostOps1_2_tame : (hostOps1_2 : List (HloOp τ sig (Elt F))).Forall (Tame keepL) :=
  ⟨tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1⟩
theorem hostOps1_3_tame : (hostOps1_3 : List (HloOp τ sig (Elt F))).Forall (Tame keepL) :=
  ⟨tame1, tame1, tame1⟩
theorem hostOps1_4_tame : (hostOps1_4 : List (HloOp τ sig (Elt F))).Forall (Tame keepL) :=
  ⟨tame1, tame1, tame1, tame1, tame1, tame1, tame1, tame1, tame1⟩

/-- Every operation before the region is tame for the argument arrays. -/
theorem pre_tame : ∀ ops ∈ (preOps : List (List (HloOp τ sig (Elt F)))), ∀ op ∈ ops, Tame argL op := by
  intro ops hops
  simp only [List.mem_cons, List.mem_nil_iff, or_false] at hops
  rcases hops with rfl | rfl | rfl | rfl | rfl | rfl
  · exact List.forall_iff_forall_mem.mp hostOps0_tame
  · exact List.forall_iff_forall_mem.mp hostOps0_1_tame
  · exact List.forall_iff_forall_mem.mp hostOps0_2_tame
  · exact List.forall_iff_forall_mem.mp hostOps0_3_tame
  · exact List.forall_iff_forall_mem.mp hostOps0_4_tame
  · exact List.forall_iff_forall_mem.mp hostOps0_5_tame

/-- Every operation after the region is tame for the argument arrays and the staged arrays. -/
theorem tail_tame : ∀ ops ∈ (tailOps : List (List (HloOp τ sig (Elt F)))), ∀ op ∈ ops, Tame keepL op := by
  intro ops hops
  simp only [List.mem_cons, List.mem_nil_iff, or_false] at hops
  rcases hops with rfl | rfl | rfl | rfl | rfl
  · exact List.forall_iff_forall_mem.mp hostOps1_tame
  · exact List.forall_iff_forall_mem.mp hostOps1_1_tame
  · exact List.forall_iff_forall_mem.mp hostOps1_2_tame
  · exact List.forall_iff_forall_mem.mp hostOps1_3_tame
  · exact List.forall_iff_forall_mem.mp hostOps1_4_tame

/-- Every operation after the region touches TensorCore references only. -/
theorem tail_tc : ∀ ops ∈ (tailOps : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl
  · exact List.forall_iff_forall_mem.mp hostOps1_sub
  · exact List.forall_iff_forall_mem.mp hostOps1_1_sub
  · exact List.forall_iff_forall_mem.mp hostOps1_2_sub
  · exact List.forall_iff_forall_mem.mp hostOps1_3_sub
  · exact List.forall_iff_forall_mem.mp hostOps1_4_sub

/-! ## @main around the region -/

/-- `@main` is the operations before the region, the region, and the operations after it; so running it reduces to
    running the region from the contents `V` and continuing with the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub, hostOps0_3_sub, hostOps0_4_sub, hostOps0_5_sub⟩)
    (List.forall_iff_forall_mem.mpr fun ops hops => List.forall_iff_forall_mem.mpr fun op hop => (pre_tame ops hops op hop).1)
    main_chain

/-- The operations after the region touch only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

/-- They allocate nothing. -/
theorem sfx_fresh : ∀ ops ∈ (tailOps : List (List (HloOp τ sig (Elt F)))), ∀ op ∈ ops, op.fresh = ∅ :=
  fun ops hops op hop => (tail_tame ops hops op hop).1

/-- Each array the region stages is one of the protected references. -/
theorem arr_mem_keepL : ∀ w, Pipeline.arrRef spec0 w ∈ keepL := by decide

/-- And they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_tame ops hops op hop).keeps (arr_mem_keepL w)

/-! ## The argument arrays are untouched -/

/-- A reference no operation before the region may write is found by the region as launched. -/
theorem V_of_mem (c : Dev nD) {b : Ref sig .tc} (hb : b ∈ argL) : V m c b = m ((c : Thread nD τ).loc b) :=
  StableHlo.after_of_forall_not_mem (b := Proc.devRef .tc b) _ _ fun op hop => by
    obtain ⟨ops, hops, hop'⟩ := List.mem_flatten.mp hop
    exact (pre_tame ops hops op hop').keeps hb
theorem V_main_arg0 (c : Dev nD) : V m c main_arg0 = m ((c : Thread nD τ).loc main_arg0) := V_of_mem m c (by decide)
theorem V_main_arg1 (c : Dev nD) : V m c main_arg1 = m ((c : Thread nD τ).loc main_arg1) := V_of_mem m c (by decide)
theorem V_main_arg2 (c : Dev nD) : V m c main_arg2 = m ((c : Thread nD τ).loc main_arg2) := V_of_mem m c (by decide)
theorem V_main_arg3 (c : Dev nD) : V m c main_arg3 = m ((c : Thread nD τ).loc main_arg3) := V_of_mem m c (by decide)
theorem V_main_arg4 (c : Dev nD) : V m c main_arg4 = m ((c : Thread nD τ).loc main_arg4) := V_of_mem m c (by decide)

/-- A reference no operation around the region may write, and which is no array of the pipeline, ends as launched, whatever the proof data. -/
theorem W_of_mem (dats : (p : Fin 1) → (c : Dev nD) → Dat τ (Elt F) Unit ℕ (UR sig nD τ) ℕ (cfgs p) c) (c : Dev nD)
    {b : Ref sig .tc} (hb : b ∈ argL) (hk : b ∈ keepL) (hne : ∀ w, Pipeline.arrRef spec0 w ≠ b) :
    Pipeline.afterTail₀ cfgs dats 0 (V0 m) (tailOps (F := F)) c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact (tail_tame ops hops op hop').keeps hk),
    Pipeline.withArrays_of_ne _ c (V0 m c) _ b hne]
  exact V_of_mem m c hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether or not the pipeline fetched it there
    (an unfetched point has the block index of the point before, so the buffer still holds this point's block): for any
    proof data whose array is the region-entry contents and whose body leaves the block in place.  One statement per
    input window; none is cut and none is ever idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The rectangle of the body's one store: the whole output block. -/
abbrev rOut : Rect S1x1x1024 := Rect.unit (s := S1x1x1024) ![0, 0, 0] S1x1x1024.size inb_S1x1x1024_S1x1x1024_0_0_0

/-- The output window's staging buffer after the body, from the four input blocks: its one store, of the payload computed
    from the blocks, laid over the whole buffer. -/
def out4 (x0 : Vec F S128x128 .f32) (x1 : Vec F S1x1024x1 .f32) (x2 : Vec F S1x1x1024 .f32) (x3 : Vec F S1x1024x1 .i32) : Vec F S1x1x1024 .f32 :=
  View.canon [⟨rOut, k0_pay1 x0 x1 x2 x3⟩]

/-- The store covers the buffer. -/
theorem coverOut (p0 : Vec F S1x1x1024 .f32) (y : S1x1x1024.Idx) :
    ∃ pc ∈ ([⟨rOut, p0⟩] : List (View.Piece (Elt F) S1x1x1024 .f32)), y ∈ pc.1.set :=
  ⟨_, List.mem_singleton_self _, View.mem_set_unit_zero (S := S1x1x1024) (by funext a; fin_cases a <;> rfl) inb_S1x1x1024_S1x1x1024_0_0_0 y⟩

/-! ## The body's triple -/

set_option maxHeartbeats 1000000 in
/-- The kernel body on whole staging memrefs — the four inputs' at read contents `x0 … x3`, the output's at anything — runs to
    the continuation holding the inputs' as they were and the output's at `out4` of the inputs.  The body loads the output
    buffer once before storing over it; that load's value is never used. -/
theorem sound_kernel (c : Dev nD) (E : Set ℕ) (i : grid0.Coords)
    (arg1 : Memref sig .tc .vmem S128x128 .f32) (harg1 : arg1.IsWhole) (arg2 : Memref sig .tc .vmem S1x1024x1 .f32) (harg2 : arg2.IsWhole)
    (arg3 : Memref sig .tc .vmem S1x1x1024 .f32) (harg3 : arg3.IsWhole) (arg4 : Memref sig .tc .vmem S1x1024x1 .i32) (harg4 : arg4.IsWhole)
    (arg5 : Memref sig .tc .vmem S1x1x1024 .f32) (harg5 : arg5.IsWhole)
    (x0 : Vec F S128x128 .f32) (x1 : Vec F S1x1024x1 .f32) (x2 : Vec F S1x1x1024 .f32) (x3 : Vec F S1x1024x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__hp_kernel i arg1 harg1 arg2 harg2 arg3 harg3 arg4 harg4 arg5 harg5) K := by
  simp only [cc0__hp_kernel_eq_skeleton]; unfold cc0__hp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  have e0 : View.readAt (Elt F) arg1.view (Rect.unit ![0, 0] S128x128.size inb_S128x128_S128x128_0_0).toLoadRect f0 = View.read (Elt F) arg1.view f0 :=
    View.ld_unit_zero (S := S128x128) (by funext a; fin_cases a <;> rfl) inb_S128x128_S128x128_0_0 _
  have e1 : View.readAt (Elt F) arg2.view (Rect.unit ![0, 0, 0] S1x1024x1.size inb_S1x1024x1_S1x1024x1_0_0_0).toLoadRect f1 = View.read (Elt F) arg2.view f1 :=
    View.ld_unit_zero (S := S1x1024x1) (by funext a; fin_cases a <;> rfl) inb_S1x1024x1_S1x1024x1_0_0_0 _
  have e2 : View.readAt (Elt F) arg3.view (Rect.unit ![0, 0, 0] S1x1x1024.size inb_S1x1x1024_S1x1x1024_0_0_0).toLoadRect f2 = View.read (Elt F) arg3.view f2 :=
    View.ld_unit_zero (S := S1x1x1024) (by funext a; fin_cases a <;> rfl) inb_S1x1x1024_S1x1x1024_0_0_0 _
  have e3 : View.readAt (Elt F) arg4.view (Rect.unit ![0, 0, 0] S1x1024x1.size inb_S1x1024x1_S1x1024x1_0_0_0).toLoadRect f3 = View.read (Elt F) arg4.view f3 :=
    View.ld_unit_zero (S := S1x1024x1) (by funext a; fin_cases a <;> rfl) inb_S1x1024x1_S1x1024x1_0_0_0 _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverOut _), e0, e1, e2, e3]
  rfl

/-! ## The pipeline's proof data -/

/-- The proof data of the pipeline on core `c`: the arrays as the region finds them; after the body at point `t` each
    input's buffer still at its block and the output's at `out4` of the four input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨_ + 5, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`: the invariant, the core's debt, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of `@main` on
    the TensorCores terminates, and every final state has every array of the pipeline at what the library computes from
    the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

theorem W_main_arg0 (c : Dev nD) : Pipeline.afterTail₀ cfgs (dats m) 0 (V0 m) (tailOps (F := F)) c main_arg0 = m ((c : Thread nD τ).loc main_arg0) :=
  W_of_mem m (dats m) c (by decide) (by decide) (by decide)
theorem W_main_arg1 (c : Dev nD) : Pipeline.afterTail₀ cfgs (dats m) 0 (V0 m) (tailOps (F := F)) c main_arg1 = m ((c : Thread nD τ).loc main_arg1) :=
  W_of_mem m (dats m) c (by decide) (by decide) (by decide)
theorem W_main_arg2 (c : Dev nD) : Pipeline.afterTail₀ cfgs (dats m) 0 (V0 m) (tailOps (F := F)) c main_arg2 = m ((c : Thread nD τ).loc main_arg2) :=
  W_of_mem m (dats m) c (by decide) (by decide) (by decide)
theorem W_main_arg3 (c : Dev nD) : Pipeline.afterTail₀ cfgs (dats m) 0 (V0 m) (tailOps (F := F)) c main_arg3 = m ((c : Thread nD τ).loc main_arg3) :=
  W_of_mem m (dats m) c (by decide) (by decide) (by decide)
theorem W_main_arg4 (c : Dev nD) : Pipeline.afterTail₀ cfgs (dats m) 0 (V0 m) (tailOps (F := F)) c main_arg4 = m ((c : Thread nD τ).loc main_arg4) :=
  W_of_mem m (dats m) c (by decide) (by decide) (by decide)

/-- THE FRAME: `@main` runs to completion and its five argument arrays end as launched.  No window stages an argument
    array, so each is among the buffers the final state has as the operations after the region leave them, and none of
    those operations, nor any before the region, writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c)⟩) (run_main m ρ)

/-- info: 'Cert.Kernel.Fr.frame' depends on axioms: [propext, Classical.choice, Quot.sound] -/
#guard_msgs in #print axioms frame

end Cert.Kernel.Fr

end
-- ==== Proof.FrameKI.lean ====
import proofs.«414441_j14216341750039_3_alg».proof.Proof.Gen.KernelIdeal.Launch
import proofs.«414441_j14216341750039_3_alg».proof.Proof.Gen.KernelIdeal.Skeleton
import proofs.«414441_j14216341750039_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The frame of the kernel program

The program's `@main` is one pipelined region between two runs of host operations.  This module
proves that it runs to completion and describes the final memory: every array the region stages
holds what the pipeline's proof data compute, every other buffer what the host operations after the
region leave, and in particular the five argument arrays end as they were launched.

The region's body reads its four input blocks, computes one payload from them and stores it over
the whole output block, so after the body the output's staging buffer is a closed function
(`out4`) of the four input blocks.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- The six runs of host operations before the region, in order. -/
abbrev preOps : List (List (HloOp τ sig (Elt F))) := [hostOps0, hostOps0_1, hostOps0_2, hostOps0_3, hostOps0_4, hostOps0_5]
/-- The five runs of host operations after it, in order. -/
abbrev tailOps : List (List (HloOp τ sig (Elt F))) := [hostOps1, hostOps1_1, hostOps1_2, hostOps1_3, hostOps1_4]

/-- A core's buffer contents when the region is entered: the launch memory after the operations before the region. -/
abbrev V0 (c : Dev nD) : Valuation τ sig (Elt F) := StableHlo.after (List.flatten (preOps (F := F))) (fun b => m (c, b))
/-- The same, read at a TensorCore reference. -/
abbrev V (c : Dev nD) (b : Ref sig .tc) : Buf (Elt F) ((c : Thread nD τ).loc b) := V0 m c (Proc.devRef .tc b)

/-! ### Each host operation allocates nothing and writes one buffer outside a protected list

Every host operation here writes exactly one buffer, its result.  `Tame L op` records that `op` allocates nothing and that
its result is none of the references in `L`; so a reference of `L` keeps its contents across `op`. -/

/-- The argument arrays. -/
abbrev argL : List (Ref sig .tc) := [main_arg0, main_arg1, main_arg2, main_arg3, main_arg4]
/-- The argument arrays and the five arrays the region stages. -/
abbrev keepL : List (Ref sig .tc) := [main_arg0, main_arg1, main_arg2, main_arg3, main_arg4, main_v12, main_v15, main_v16, main_v17, main_v18]

/-- `op` allocates nothing, and writes exactly one buffer, which is not in `L`. -/
abbrev Tame (L : List (Ref sig .tc)) (op : HloOp τ sig (Elt F)) : Prop :=
  op.fresh = ∅ ∧ ∃ y : Ref sig .tc, op.writes = {Proc.devRef .tc y} ∧ y ∉ L

/-- A tame operation writes no reference of its list. -/
theorem Tame.keeps {L : List (Ref sig .tc)} {op : HloOp τ sig (Elt F)} (h : Tame L op) {b : Ref sig .tc} (hb : b ∈ L) :
    Proc.devRef (τ := τ) .tc b ∉ op.writes := by
  obtain ⟨-, y, hy, hyL⟩ := h
  rw [hy, Finset.mem_singleton]
  intro e
  exact hyL (Proc.devRef_injective _ e ▸ hb)

local macro "tame1" : term => `(⟨rfl, _, rfl, by decide⟩)
theorem hostOps0_tame : (hostOps0 : List (HloOp τ sig (Elt F))).Forall (Tame argL) :=
  ⟨tame1, tame1, tame1, tame1, tame1, tame1, tame1, tame1, tame1, tame1, tame1, tame1, tame1, tame1⟩
theorem hostOps0_1_tame : (hostOps0_1 : List (HloOp τ sig (Elt F))).Forall (Tame argL) :=
  ⟨tame1, tame1, tame1, tame1, tame1, tame1, tame1, tame1, tame1, tame1, tame1, tame1, tame1, tame1⟩
theorem hostOps0_2_tame : (hostOps0_2 : List (HloOp τ sig (Elt F))).Forall (Tame argL) :=
  ⟨tame1, tame1, tame1, tame1, tame1, tame1, tame1, tame1, tame1, tame1, tame1, tame1, tame1, tame1⟩
theorem hostOps0_3_tame : (hostOps0_3 : List (HloOp τ sig (Elt F))).Forall (Tame argL) :=
  ⟨tame1, tame1⟩
theorem hostOps0_4_tame : (hostOps0_4 : List (HloOp τ sig (Elt F))).Forall (Tame argL) :=
  ⟨tame1, tame1⟩
theorem hostOps0_5_tame : (hostOps0_5 : List (HloOp τ sig (Elt F))).Forall (Tame argL) :=
  ⟨tame1, tame1, tame1, tame1, tame1, tame1, tame1, tame1, tame1, tame1, tame1, tame1, tame1, tame1, tame1, tame1, tame1⟩
theorem hostOps1_tame : (hostOps1 : List (HloOp τ sig (Elt F))).Forall (Tame keepL) :=
  ⟨tame1, tame1, tame1, tame1, tame1, tame1, tame1, tame1, tame1, tame1, tame1, tame1, tame1, tame1, tame1, tame1, tame1, tame1⟩
theorem hostOps1_1_tame : (hostOps1_1 : List (HloOp τ sig (Elt F))).Forall (Tame keepL) :=
  ⟨tame1, tame1, tame1⟩
theorem hostOps1_2_tame : (hostOps1_2 : List (HloOp τ sig (Elt F))).Forall (Tame keepL) :=
  ⟨tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1, tame1⟩
theorem hostOps1_3_tame : (hostOps1_3 : List (HloOp τ sig (Elt F))).Forall (Tame keepL) :=
  ⟨tame1, tame1, tame1⟩
theorem hostOps1_4_tame : (hostOps1_4 : List (HloOp τ sig (Elt F))).Forall (Tame keepL) :=
  ⟨tame1, tame1, tame1, tame1, tame1, tame1, tame1, tame1, tame1⟩

/-- Every operation before the region is tame for the argument arrays. -/
theorem pre_tame : ∀ ops ∈ (preOps : List (List (HloOp τ sig (Elt F)))), ∀ op ∈ ops, Tame argL op := by
  intro ops hops
  simp only [List.mem_cons, List.mem_nil_iff, or_false] at hops
  rcases hops with rfl | rfl | rfl | rfl | rfl | rfl
  · exact List.forall_iff_forall_mem.mp hostOps0_tame
  · exact List.forall_iff_forall_mem.mp hostOps0_1_tame
  · exact List.forall_iff_forall_mem.mp hostOps0_2_tame
  · exact List.forall_iff_forall_mem.mp hostOps0_3_tame
  · exact List.forall_iff_forall_mem.mp hostOps0_4_tame
  · exact List.forall_iff_forall_mem.mp hostOps0_5_tame

/-- Every operation after the region is tame for the argument arrays and the staged arrays. -/
theorem tail_tame : ∀ ops ∈ (tailOps : List (List (HloOp τ sig (Elt F)))), ∀ op ∈ ops, Tame keepL op := by
  intro ops hops
  simp only [List.mem_cons, List.mem_nil_iff, or_false] at hops
  rcases hops with rfl | rfl | rfl | rfl | rfl
  · exact List.forall_iff_forall_mem.mp hostOps1_tame
  · exact List.forall_iff_forall_mem.mp hostOps1_1_tame
  · exact List.forall_iff_forall_mem.mp hostOps1_2_tame
  · exact List.forall_iff_forall_mem.mp hostOps1_3_tame
  · exact List.forall_iff_forall_mem.mp hostOps1_4_tame

/-- Every operation after the region touches TensorCore references only. -/
theorem tail_tc : ∀ ops ∈ (tailOps : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl
  · exact List.forall_iff_forall_mem.mp hostOps1_sub
  · exact List.forall_iff_forall_mem.mp hostOps1_1_sub
  · exact List.forall_iff_forall_mem.mp hostOps1_2_sub
  · exact List.forall_iff_forall_mem.mp hostOps1_3_sub
  · exact List.forall_iff_forall_mem.mp hostOps1_4_sub

/-! ## @main around the region -/

/-- `@main` is the operations before the region, the region, and the operations after it; so running it reduces to
    running the region from the contents `V` and continuing with the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main preOps tailOps
    (by simp only [List.Forall]; exact ⟨hostOps0_sub, hostOps0_1_sub, hostOps0_2_sub, hostOps0_3_sub, hostOps0_4_sub, hostOps0_5_sub⟩)
    (List.forall_iff_forall_mem.mpr fun ops hops => List.forall_iff_forall_mem.mpr fun op hop => (pre_tame ops hops op hop).1)
    main_chain

/-- The operations after the region touch only the pipeline's arrays and the buffers that bypass the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

/-- They allocate nothing. -/
theorem sfx_fresh : ∀ ops ∈ (tailOps : List (List (HloOp τ sig (Elt F)))), ∀ op ∈ ops, op.fresh = ∅ :=
  fun ops hops op hop => (tail_tame ops hops op hop).1

/-- Each array the region stages is one of the protected references. -/
theorem arr_mem_keepL : ∀ w, Pipeline.arrRef spec0 w ∈ keepL := by decide

/-- And they write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => (tail_tame ops hops op hop).keeps (arr_mem_keepL w)

/-! ## The argument arrays are untouched -/

/-- A reference no operation before the region may write is found by the region as launched. -/
theorem V_of_mem (c : Dev nD) {b : Ref sig .tc} (hb : b ∈ argL) : V m c b = m ((c : Thread nD τ).loc b) :=
  StableHlo.after_of_forall_not_mem (b := Proc.devRef .tc b) _ _ fun op hop => by
    obtain ⟨ops, hops, hop'⟩ := List.mem_flatten.mp hop
    exact (pre_tame ops hops op hop').keeps hb
theorem V_main_arg0 (c : Dev nD) : V m c main_arg0 = m ((c : Thread nD τ).loc main_arg0) := V_of_mem m c (by decide)
theorem V_main_arg1 (c : Dev nD) : V m c main_arg1 = m ((c : Thread nD τ).loc main_arg1) := V_of_mem m c (by decide)
theorem V_main_arg2 (c : Dev nD) : V m c main_arg2 = m ((c : Thread nD τ).loc main_arg2) := V_of_mem m c (by decide)
theorem V_main_arg3 (c : Dev nD) : V m c main_arg3 = m ((c : Thread nD τ).loc main_arg3) := V_of_mem m c (by decide)
theorem V_main_arg4 (c : Dev nD) : V m c main_arg4 = m ((c : Thread nD τ).loc main_arg4) := V_of_mem m c (by decide)

/-- A reference no operation around the region may write, and which is no array of the pipeline, ends as launched, whatever the proof data. -/
theorem W_of_mem (dats : (p : Fin 1) → (c : Dev nD) → Dat τ (Elt F) Unit ℕ (UR sig nD τ) ℕ (cfgs p) c) (c : Dev nD)
    {b : Ref sig .tc} (hb : b ∈ argL) (hk : b ∈ keepL) (hne : ∀ w, Pipeline.arrRef spec0 w ≠ b) :
    Pipeline.afterTail₀ cfgs dats 0 (V0 m) (tailOps (F := F)) c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact (tail_tame ops hops op hop').keeps hk),
    Pipeline.withArrays_of_ne _ c (V0 m c) _ b hne]
  exact V_of_mem m c hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether or not the pipeline fetched it there
    (an unfetched point has the block index of the point before, so the buffer still holds this point's block): for any
    proof data whose array is the region-entry contents and whose body leaves the block in place.  One statement per
    input window; none is cut and none is ever idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The rectangle of the body's one store: the whole output block. -/
abbrev rOut : Rect S1x1x1024 := Rect.unit (s := S1x1x1024) ![0, 0, 0] S1x1x1024.size inb_S1x1x1024_S1x1x1024_0_0_0

/-- The output window's staging buffer after the body, from the four input blocks: its one store, of the payload computed
    from the blocks, laid over the whole buffer. -/
def out4 (x0 : Vec F S128x128 .f32) (x1 : Vec F S1x1024x1 .f32) (x2 : Vec F S1x1x1024 .f32) (x3 : Vec F S1x1024x1 .i32) : Vec F S1x1x1024 .f32 :=
  View.canon [⟨rOut, k0_pay1 x0 x1 x2 x3⟩]

/-- The store covers the buffer. -/
theorem coverOut (p0 : Vec F S1x1x1024 .f32) (y : S1x1x1024.Idx) :
    ∃ pc ∈ ([⟨rOut, p0⟩] : List (View.Piece (Elt F) S1x1x1024 .f32)), y ∈ pc.1.set :=
  ⟨_, List.mem_singleton_self _, View.mem_set_unit_zero (S := S1x1x1024) (by funext a; fin_cases a <;> rfl) inb_S1x1x1024_S1x1x1024_0_0_0 y⟩

/-! ## The body's triple -/

set_option maxHeartbeats 1000000 in
/-- The kernel body on whole staging memrefs — the four inputs' at read contents `x0 … x3`, the output's at anything — runs to
    the continuation holding the inputs' as they were and the output's at `out4` of the inputs.  The body loads the output
    buffer once before storing over it; that load's value is never used. -/
theorem sound_kernel (c : Dev nD) (E : Set ℕ) (i : grid0.Coords)
    (arg1 : Memref sig .tc .vmem S128x128 .f32) (harg1 : arg1.IsWhole) (arg2 : Memref sig .tc .vmem S1x1024x1 .f32) (harg2 : arg2.IsWhole)
    (arg3 : Memref sig .tc .vmem S1x1x1024 .f32) (harg3 : arg3.IsWhole) (arg4 : Memref sig .tc .vmem S1x1024x1 .i32) (harg4 : arg4.IsWhole)
    (arg5 : Memref sig .tc .vmem S1x1x1024 .f32) (harg5 : arg5.IsWhole)
    (x0 : Vec F S128x128 .f32) (x1 : Vec F S1x1024x1 .f32) (x2 : Vec F S1x1x1024 .f32) (x3 : Vec F S1x1024x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__hp_kernel i arg1 harg1 arg2 harg2 arg3 harg3 arg4 harg4 arg5 harg5) K := by
  simp only [cc0__hp_kernel_eq_skeleton]; unfold cc0__hp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  have e0 : View.readAt (Elt F) arg1.view (Rect.unit ![0, 0] S128x128.size inb_S128x128_S128x128_0_0).toLoadRect f0 = View.read (Elt F) arg1.view f0 :=
    View.ld_unit_zero (S := S128x128) (by funext a; fin_cases a <;> rfl) inb_S128x128_S128x128_0_0 _
  have e1 : View.readAt (Elt F) arg2.view (Rect.unit ![0, 0, 0] S1x1024x1.size inb_S1x1024x1_S1x1024x1_0_0_0).toLoadRect f1 = View.read (Elt F) arg2.view f1 :=
    View.ld_unit_zero (S := S1x1024x1) (by funext a; fin_cases a <;> rfl) inb_S1x1024x1_S1x1024x1_0_0_0 _
  have e2 : View.readAt (Elt F) arg3.view (Rect.unit ![0, 0, 0] S1x1x1024.size inb_S1x1x1024_S1x1x1024_0_0_0).toLoadRect f2 = View.read (Elt F) arg3.view f2 :=
    View.ld_unit_zero (S := S1x1x1024) (by funext a; fin_cases a <;> rfl) inb_S1x1x1024_S1x1x1024_0_0_0 _
  have e3 : View.readAt (Elt F) arg4.view (Rect.unit ![0, 0, 0] S1x1024x1.size inb_S1x1024x1_S1x1024x1_0_0_0).toLoadRect f3 = View.read (Elt F) arg4.view f3 :=
    View.ld_unit_zero (S := S1x1024x1) (by funext a; fin_cases a <;> rfl) inb_S1x1024x1_S1x1024x1_0_0_0 _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (coverOut _), e0, e1, e2, e3]
  rfl

/-! ## The pipeline's proof data -/

/-- The proof data of the pipeline on core `c`: the arrays as the region finds them; after the body at point `t` each
    input's buffer still at its block and the output's at `out4` of the four input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨_ + 5, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d

/-! ## The body obligation, at a generic point -/

/-- What the body is called with at point `t`: the invariant, the core's debt, and each window's current staging buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of `@main` on
    the TensorCores terminates, and every final state has every array of the pipeline at what the library computes from
    the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

theorem W_main_arg0 (c : Dev nD) : Pipeline.afterTail₀ cfgs (dats m) 0 (V0 m) (tailOps (F := F)) c main_arg0 = m ((c : Thread nD τ).loc main_arg0) :=
  W_of_mem m (dats m) c (by decide) (by decide) (by decide)
theorem W_main_arg1 (c : Dev nD) : Pipeline.afterTail₀ cfgs (dats m) 0 (V0 m) (tailOps (F := F)) c main_arg1 = m ((c : Thread nD τ).loc main_arg1) :=
  W_of_mem m (dats m) c (by decide) (by decide) (by decide)
theorem W_main_arg2 (c : Dev nD) : Pipeline.afterTail₀ cfgs (dats m) 0 (V0 m) (tailOps (F := F)) c main_arg2 = m ((c : Thread nD τ).loc main_arg2) :=
  W_of_mem m (dats m) c (by decide) (by decide) (by decide)
theorem W_main_arg3 (c : Dev nD) : Pipeline.afterTail₀ cfgs (dats m) 0 (V0 m) (tailOps (F := F)) c main_arg3 = m ((c : Thread nD τ).loc main_arg3) :=
  W_of_mem m (dats m) c (by decide) (by decide) (by decide)
theorem W_main_arg4 (c : Dev nD) : Pipeline.afterTail₀ cfgs (dats m) 0 (V0 m) (tailOps (F := F)) c main_arg4 = m ((c : Thread nD τ).loc main_arg4) :=
  W_of_mem m (dats m) c (by decide) (by decide) (by decide)

/-- THE FRAME: `@main` runs to completion and its five argument arrays end as launched.  No window stages an argument
    array, so each is among the buffers the final state has as the operations after the region leave them, and none of
    those operations, nor any before the region, writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c),
     ((h c).2 main_arg4 (Pipeline.mem_restRefs_of main_arg4 (by decide) (by decide))).trans (W_main_arg4 m c)⟩) (run_main m ρ)

/-- info: 'Cert.KernelIdeal.Fr.frame' depends on axioms: [propext, Classical.choice, Quot.sound] -/
#guard_msgs in #print axioms frame

end Cert.KernelIdeal.Fr

end
-- ==== Proof.KTail.lean ====
/-
  What the kernel's program does after its one region, as a function of what the region left.

  Writing ag for the per-event excitation sums (batch × events 1 … 1023), the program ends with
      nll = Σ_b ( max_t[b] · Σ_{k ≥ 1} mhat[k] + Σ_l [type[b,l] ≠ 0] · colsum[type[b,l]] · (1 − exp (−ω · (max_t[b] − time[b,l]))) )
            − Σ_{b, l ≥ 1} log (max ([type[b,l] = 0] ? 1 : mhat[type[b,l]] + ag[b,l]) 1e-10),
  the host operations printed after the region. `nllOf` is that chain over named inputs: the type words x0, the times
  x1, mhat = softplus mu, Ahat = softplus alpha, nω = −ω broadcast over batch × events, and ag; `tail_after` says the
  operations after the region compute exactly it, from whatever the buffers hold when they start.
-/
import proofs.«414441_j14216341750039_3_alg».proof.Proof.Gen.KernelIdeal.Launch
import Idealize.ShloMosaic.Lib.StableHlo.Run
import Idealize.ShloMosaic.PureOps.Ideal

noncomputable section

namespace Cert.KernelIdeal.KTail

open Cert.KernelIdeal Cert.KernelIdeal.Gen Idealize.ShloMosaic Idealize.ShloMosaic.TcCoe Idealize.SL.Sem Idealize.ShloMosaic.StableHlo

/-- The negative log-likelihood from the excitation sums `ag` and the program's other ingredients. -/
def nllOf (x0 : IVec S32x1024 32) (x1 : FVec Ideal S32x1024 .f32) (mh : FVec Ideal S51 .f32) (Ah : FVec Ideal S51x51 .f32)
    (nω : FVec Ideal S32x1024 .f32) (ag : FVec Ideal S32x1023 .f32) : FVec Ideal S_ .f32 :=
  subf
    (Host.reduceAdd
      (addf
        (mulf
          (Host.reduce FloatOps.maximumf x1 (constant S_ .f32 4286578688#32) reducesTo_S32x1024_S32_d1 h_S_)
          (broadcastInDim S32 ![] bcast_S_S32
            (Host.reduceAdd (extractStridedSlice S50 ![1] mh slices_S51_S50_1) (constant S_ .f32 0#32) reducesTo_S50_S_d0 h_S_)))
        (Host.reduceAdd
          (select
            (cmpi .eq x0 (broadcastInDim S32x1024 ![] bcast_S_S32x1024 (constantI S_ 32 0#32)))
            (broadcastInDim S32x1024 ![] bcast_S_S32x1024 (constant S_ .f32 0#32))
            (mulf
              (Host.gather gather_S51_S32x1024x1_S32x1024_n_0_n_n_0_2_1
                (Host.reduceAdd (extractStridedSlice S50x51 ![1, 0] Ah slices_S51x51_S50x51_1_0) (constant S_ .f32 0#32)
                  reducesTo_S50x51_S51_d0 h_S_)
                (broadcastInDim S32x1024x1 ![0, 1] bcast_S32x1024_S32x1024x1_0_1
                  (select (cmpi .slt x0 (broadcastInDim S32x1024 ![] bcast_S_S32x1024 (constantI S_ 32 0#32)))
                    (addi x0 (broadcastInDim S32x1024 ![] bcast_S_S32x1024 (constantI S_ 32 51#32))) x0)))
              (subf (broadcastInDim S32x1024 ![] bcast_S_S32x1024 (constant S_ .f32 1065353216#32))
                (Host.exp
                  (mulf nω
                    (subf
                      (broadcastInDim S32x1024 ![0, 1] bcast_S32x1_S32x1024_0_1
                        (broadcastInDim S32x1 ![0] bcast_S32_S32x1_0
                          (Host.reduce FloatOps.maximumf x1 (constant S_ .f32 4286578688#32) reducesTo_S32x1024_S32_d1 h_S_)))
                      x1))))))
          (constant S_ .f32 0#32) reducesTo_S32x1024_S32_d1 h_S_))
      (constant S_ .f32 0#32) reducesTo_S32_S_d0 h_S_)
    (Host.reduceAdd
      (Host.log
        (maximumf
          (select
            (extractStridedSlice S32x1023 ![0, 1]
              (cmpi .eq x0 (broadcastInDim S32x1024 ![] bcast_S_S32x1024 (constantI S_ 32 0#32))) slices_S32x1024_S32x1023_0_1)
            (broadcastInDim S32x1023 ![] bcast_S_S32x1023 (constant S_ .f32 1065353216#32))
            (addf
              (Host.gather gather_S51_S32x1023x1_S32x1023_n_0_n_n_0_2_1 mh
                (broadcastInDim S32x1023x1 ![0, 1] bcast_S32x1023_S32x1023x1_0_1
                  (select
                    (cmpi .slt (extractStridedSlice S32x1023 ![0, 1] x0 slices_S32x1024_S32x1023_0_1)
                      (broadcastInDim S32x1023 ![] bcast_S_S32x1023 (constantI S_ 32 0#32)))
                    (addi (extractStridedSlice S32x1023 ![0, 1] x0 slices_S32x1024_S32x1023_0_1)
                      (broadcastInDim S32x1023 ![] bcast_S_S32x1023 (constantI S_ 32 51#32)))
                    (extractStridedSlice S32x1023 ![0, 1] x0 slices_S32x1024_S32x1023_0_1))))
              ag))
          (broadcastInDim S32x1023 ![] bcast_S_S32x1023 (constant S_ .f32 786163455#32))))
      (constant S_ .f32 0#32) reducesTo_S32x1023_S_d0_1 h_S_)

set_option maxHeartbeats 4000000 in
set_option maxRecDepth 100000 in
/-- The host operations after the region, from any buffer contents `W`: the result buffer ends at `nllOf` of the
    type words, the times, mhat, Ahat, the scalar ω negated and broadcast, and the region's output array with its
    first event column dropped. -/
theorem tail_after (W : Valuation τ sig (Elt Ideal)) :
    StableHlo.after (List.flatten [hostOps1 (F := Ideal), hostOps1_1, hostOps1_2, hostOps1_3, hostOps1_4]) W (Proc.devRef .tc main_v66)
      = nllOf (W (Proc.devRef .tc main_arg0)) (W (Proc.devRef .tc main_arg1)) (W (Proc.devRef .tc main_v0)) (W (Proc.devRef .tc main_v1))
          (broadcastInDim S32x1024 ![] bcast_S_S32x1024 (Host.negf (W (Proc.devRef .tc main_v3))))
          (shapeCast S32x1023 (extractStridedSlice S32x1x1023 ![0, 0, 1] (W (Proc.devRef .tc main_v18)) slices_S32x1x1024_S32x1x1023_0_0_1)
            shapeCasts_S32x1x1023_S32x1023) := by
  simp only [hostOps1, hostOps1_1, hostOps1_2, hostOps1_3, hostOps1_4, List.flatten_cons, List.flatten_nil, List.append_nil,
    List.cons_append, List.nil_append]
  after_results_simp
  simp only [TRef.ofBuf, TRef.toBuf, cast_eq, id]
  rfl

end Cert.KernelIdeal.KTail

end
-- ==== Proof.Spec.lean ====
/-
  The mathematics of the certificate, with no program in sight.

  One batch row of a Hawkes-process likelihood: events l = 0 … 1023 with types tw l (words, 0 = padding) and
  times tm l. The excitation received by event i from the strictly earlier events j < i is
      Σ_{j < i, both types ≠ 0}  A (type i) (type j) · (ω · exp (−ω · (tm i − tm j))).
  The reference computes exactly this sum, term by term (`refRaw`).  The kernel computes it through two matrix
  products against the one-hot table of the types: with oh l u = [type l = u] over a width of 128,
      Σ_t (Σ_u oh i u · a u t) · (Σ_j km i j · oh j t),      km i j = [j < i] · exp (min (s j − s i) 0),
  where a = ω · (A, zero-padded to 128 × 128, its row 0 and column 0 zeroed) and s = ω · tm (`kernelRaw`).
  The two agree when every type lies in 0 … 50, the times never decrease along the row and ω ≥ 0: the one-hot
  sums collapse, the zeroed row and column stand for the two padding tests, and for j < i the clamp
  min (ω·tm j − ω·tm i) 0 is the exponent −ω·(tm i − tm j) itself (`kernelRaw_eq_refRaw`).
-/
import Idealize.ShloMosaic.PureOps.Ideal
import Idealize.ShloMosaic.PureOps.Ideal.Laws

noncomputable section

open scoped BigOperators

namespace Hawkes

open Idealize.ShloMosaic

/-- An entry of the one-hot table: 1 where the word is the column's number, else 0. -/
def ohw (w : BitVec 32) (u : ℕ) : EReal := if w = BitVec.ofNat 32 u then 1 else 0

/-- The kernel's row sum, over whatever its four blocks hold: `a` the 128 × 128 table, `sc` / `sr` the scaled times
    as a column and as a row, `tw` the type words. -/
def kernelRaw (a : Fin 128 → Fin 128 → EReal) (sc sr : Fin 1024 → EReal) (tw : Fin 1024 → BitVec 32) (i : Fin 1024) : EReal :=
  ∑ t : Fin 128, (∑ u : Fin 128, ohw (tw i) u.val * a u t)
    * (∑ j : Fin 1024, (if i.val ≤ j.val then 0 else Ideal.exp (min (sr j - sc i) 0)) * ohw (tw j) t.val)

/-- The 51 × 51 table padded with zeros to 128 × 128, its row 0 and its column 0 set to zero. -/
def padA (A : Fin 51 → Fin 51 → EReal) (u t : Fin 128) : EReal :=
  if u.val = 0 ∨ t.val = 0 then 0 else if h : u.val < 51 ∧ t.val < 51 then A ⟨u.val, h.1⟩ ⟨t.val, h.2⟩ else 0

/-- A type word as a row or column number of the 51 × 51 table (words are 0 … 50 under the precondition). -/
def tyIx (w : BitVec 32) : Fin 51 := ⟨w.toNat % 51, Nat.mod_lt _ (by decide)⟩

/-- The reference's row sum: term j is dropped when j is not strictly earlier than i or either event is padding. -/
def refRaw (A : Fin 51 → Fin 51 → EReal) (ω : EReal) (tw : Fin 1024 → BitVec 32) (tm : Fin 1024 → EReal) (i : Fin 1024) : EReal :=
  ∑ j : Fin 1024, if i.val ≤ j.val ∨ tw i = 0#32 ∨ tw j = 0#32 then 0
    else A (tyIx (tw i)) (tyIx (tw j)) * (ω * Ideal.exp (-ω * (tm i - tm j)))

/-- softplus as both programs spell it, at one entry: max x 0 + log (1 + exp (−|x|)). -/
def softplus (x : EReal) : EReal := max x 0 + Ideal.log1p (Ideal.exp (-(max x (-x))))

/-- The exponential of a (coerced) real number is the coerced real exponential. -/
private theorem exp_coe (x : ℝ) : Ideal.exp (x : EReal) = ((Real.exp x : ℝ) : EReal) := rfl

/-- The logarithm of a (coerced) positive real number is the coerced real logarithm. -/
private theorem log_coe_pos {x : ℝ} (hx : 0 < x) : Ideal.log (x : EReal) = ((Real.log x : ℝ) : EReal) := by
  show (if x ≤ 0 then (⊥ : EReal) else ((Real.log x : ℝ) : EReal)) = _
  rw [if_neg (not_le.mpr hx)]

/-- The larger of two coerced reals is the coerced larger one. -/
private theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- softplus of a real number is a real number, and not negative. -/
theorem softplus_real (r : ℝ) : ∃ w : ℝ, 0 ≤ w ∧ softplus (r : EReal) = (w : EReal) := by
  have hpos : 0 < Real.exp (-(max r (-r))) := Real.exp_pos _
  refine ⟨max r 0 + Real.log (1 + Real.exp (-(max r (-r)))), ?_, ?_⟩
  · have h1 : 0 ≤ Real.log (1 + Real.exp (-(max r (-r)))) := Real.log_nonneg (by linarith)
    have h2 : 0 ≤ max r 0 := le_max_right _ _
    linarith
  · unfold softplus Ideal.log1p
    rw [← EReal.coe_neg, coe_max', ← EReal.coe_neg, exp_coe, ← EReal.coe_one, ← EReal.coe_add,
      log_coe_pos (by linarith), ← EReal.coe_zero, coe_max', ← EReal.coe_add]

/-- The smaller of two coerced reals is the coerced smaller one. -/
private theorem coe_min' (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

/-- A finite sum of coerced reals is the coerced real sum. -/
private theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- For a column number below 128 the one-hot entry tests the word's value. -/
private theorem ohw_eq (w : BitVec 32) (u : ℕ) (hu : u < 128) :
    ohw w u = if w.toNat = u then 1 else 0 := by
  unfold ohw
  have h : (w = BitVec.ofNat 32 u) ↔ w.toNat = u := by
    constructor
    · intro h
      rw [h, BitVec.toNat_ofNat]
      exact Nat.mod_eq_of_lt (by omega)
    · intro h
      apply BitVec.eq_of_toNat_eq
      rw [BitVec.toNat_ofNat, h]
      exact (Nat.mod_eq_of_lt (by omega)).symm
  simp only [h]

/-- The one-hot entry as a coerced real. -/
private theorem ohw_coe (w : BitVec 32) (u : ℕ) (hu : u < 128) :
    ohw w u = (((if w.toNat = u then 1 else 0) : ℝ) : EReal) := by
  rw [ohw_eq w u hu]
  split_ifs <;> simp

/-- A sum against a one-hot row picks out one term. -/
private theorem onehot_sum_left (w : BitVec 32) (hw : w.toNat < 128) (f : Fin 128 → EReal) :
    ∑ u : Fin 128, ohw w u.val * f u = f ⟨w.toNat, hw⟩ := by
  rw [Finset.sum_eq_single (⟨w.toNat, hw⟩ : Fin 128)]
  · rw [ohw_eq w _ hw, if_pos rfl, one_mul]
  · intro u _ hne
    rw [ohw_eq w _ u.isLt, if_neg, zero_mul]
    intro h
    exact hne (Fin.ext h.symm)
  · intro h
    exact absurd (Finset.mem_univ _) h

/-- The padded table over the reals. -/
private def padR (a : Fin 51 → Fin 51 → ℝ) (u t : Fin 128) : ℝ :=
  if u.val = 0 ∨ t.val = 0 then 0 else if h : u.val < 51 ∧ t.val < 51 then a ⟨u.val, h.1⟩ ⟨t.val, h.2⟩ else 0

/-- Padding a table of coerced reals gives the coerced padded real table. -/
private theorem padA_coe (a : Fin 51 → Fin 51 → ℝ) (u t : Fin 128) :
    padA (fun u t => ((a u t : ℝ) : EReal)) u t = ((padR a u t : ℝ) : EReal) := by
  unfold padA padR
  split_ifs <;> simp

/-- The decay factor of the kernel as a coerced real. -/
private theorem decay_coe (w x y : ℝ) :
    Ideal.exp (min ((w : EReal) * (x : EReal) - (w : EReal) * (y : EReal)) 0)
      = ((Real.exp (min (w * x - w * y) 0) : ℝ) : EReal) := by
  rw [← EReal.coe_mul, ← EReal.coe_mul, ← EReal.coe_sub, ← EReal.coe_zero, coe_min', exp_coe]

/-- The decay factor of the reference as a coerced real. -/
private theorem decay_ref_coe (w x y : ℝ) :
    Ideal.exp (-(w : EReal) * ((x : EReal) - (y : EReal)))
      = ((Real.exp (-w * (x - y)) : ℝ) : EReal) := by
  rw [← EReal.coe_neg, ← EReal.coe_sub, ← EReal.coe_mul, exp_coe]

/-- The identity over the reals: swap the two sums, collapse the one-hot sum over columns, and compare term by term. -/
private theorem real_side (a : Fin 51 → Fin 51 → ℝ) (w : ℝ) (hw : 0 ≤ w) (tw : Fin 1024 → BitVec 32)
    (τ : Fin 1024 → ℝ) (htw : ∀ l, (tw l).toNat < 51)
    (hmono : ∀ l l' : Fin 1024, l.val ≤ l'.val → τ l ≤ τ l') (i : Fin 1024) (hi : (tw i).toNat < 128) :
    (∑ t : Fin 128, (w * padR a ⟨(tw i).toNat, hi⟩ t)
        * ∑ j : Fin 1024, (if i.val ≤ j.val then 0 else Real.exp (min (w * τ j - w * τ i) 0))
            * (if (tw j).toNat = t.val then (1 : ℝ) else 0))
      = ∑ j : Fin 1024, if i.val ≤ j.val ∨ tw i = 0#32 ∨ tw j = 0#32 then 0
          else a (tyIx (tw i)) (tyIx (tw j)) * (w * Real.exp (-w * (τ i - τ j))) := by
  simp only [Finset.mul_sum]
  rw [Finset.sum_comm]
  refine Finset.sum_congr rfl fun j _ => ?_
  have hj : (tw j).toNat < 128 := by have := htw j; omega
  rw [Finset.sum_eq_single (⟨(tw j).toNat, hj⟩ : Fin 128)]
  · have h1 : (tw j).toNat = (⟨(tw j).toNat, hj⟩ : Fin 128).val := rfl
    rw [if_pos h1, mul_one]
    by_cases hij : i.val ≤ j.val
    · rw [if_pos hij, mul_zero, if_pos (Or.inl hij)]
    · rw [if_neg hij]
      have hle : τ j ≤ τ i := hmono j i (by omega)
      have hnn : 0 ≤ w * (τ i - τ j) := mul_nonneg hw (sub_nonneg.mpr hle)
      have hmin : min (w * τ j - w * τ i) 0 = -w * (τ i - τ j) := by
        rw [min_eq_left (by nlinarith)]
        ring
      have hz : ∀ l, tw l = 0#32 ↔ (tw l).toNat = 0 := by
        intro l
        constructor
        · intro h
          rw [h]
          rfl
        · intro h
          apply BitVec.eq_of_toNat_eq
          rw [h]
          rfl
      by_cases hzz : tw i = 0#32 ∨ tw j = 0#32
      · rw [if_pos (Or.inr hzz)]
        have : padR a ⟨(tw i).toNat, hi⟩ ⟨(tw j).toNat, hj⟩ = 0 := by
          unfold padR
          rw [if_pos]
          rcases hzz with h | h
          · exact Or.inl ((hz i).mp h)
          · exact Or.inr ((hz j).mp h)
        rw [this, mul_zero, zero_mul]
      · have hzz' : ¬ (i.val ≤ j.val ∨ tw i = 0#32 ∨ tw j = 0#32) := by tauto
        rw [if_neg hzz']
        have hni : ¬ (tw i).toNat = 0 := fun h => hzz (Or.inl ((hz i).mpr h))
        have hnj : ¬ (tw j).toNat = 0 := fun h => hzz (Or.inr ((hz j).mpr h))
        have hpad : padR a ⟨(tw i).toNat, hi⟩ ⟨(tw j).toNat, hj⟩ = a (tyIx (tw i)) (tyIx (tw j)) := by
          unfold padR
          rw [if_neg (by tauto), dif_pos ⟨htw i, htw j⟩]
          congr 1
          · exact Fin.ext (Nat.mod_eq_of_lt (htw i)).symm
          · exact Fin.ext (Nat.mod_eq_of_lt (htw j)).symm
        rw [hpad, hmin]
        ring
  · intro t _ hne
    have h1 : ¬ (tw j).toNat = t.val := fun h => hne (Fin.ext h.symm)
    rw [if_neg h1, mul_zero, mul_zero]
  · intro h
    exact absurd (Finset.mem_univ _) h

/-- The kernel's two one-hot matrix products compute the reference's masked sum. -/
theorem kernelRaw_eq_refRaw (A : Fin 51 → Fin 51 → EReal) (ω : EReal) (tw : Fin 1024 → BitVec 32) (tm : Fin 1024 → EReal)
    (hA : ∀ u t, ∃ r : ℝ, A u t = (r : EReal)) (hω : ∃ w : ℝ, 0 ≤ w ∧ ω = (w : EReal))
    (htw : ∀ l, (tw l).toNat < 51) (htm : ∀ l, ∃ r : ℝ, tm l = (r : EReal))
    (hmono : ∀ l l' : Fin 1024, l.val ≤ l'.val → tm l ≤ tm l') (i : Fin 1024) :
    kernelRaw (fun u t => ω * padA A u t) (fun l => ω * tm l) (fun l => ω * tm l) tw i = refRaw A ω tw tm i := by
  choose a ha using hA
  obtain ⟨w, hw0, rfl⟩ := hω
  choose τ hτ using htm
  have hA' : A = fun u t => ((a u t : ℝ) : EReal) := funext fun u => funext fun t => ha u t
  have htm' : tm = fun l => ((τ l : ℝ) : EReal) := funext hτ
  subst hA' htm'
  have hτmono : ∀ l l' : Fin 1024, l.val ≤ l'.val → τ l ≤ τ l' := fun l l' h =>
    EReal.coe_le_coe_iff.mp (hmono l l' h)
  have hi : (tw i).toNat < 128 := by have := htw i; omega
  -- the kernel's value is the coerced real double sum
  have hL : kernelRaw (fun u t => (w : EReal) * padA (fun u t => ((a u t : ℝ) : EReal)) u t)
        (fun l => (w : EReal) * ((τ l : ℝ) : EReal)) (fun l => (w : EReal) * ((τ l : ℝ) : EReal)) tw i
      = ((∑ t : Fin 128, (w * padR a ⟨(tw i).toNat, hi⟩ t)
          * ∑ j : Fin 1024, (if i.val ≤ j.val then 0 else Real.exp (min (w * τ j - w * τ i) 0))
              * (if (tw j).toNat = t.val then (1 : ℝ) else 0) : ℝ) : EReal) := by
    simp only [kernelRaw]
    rw [← coe_sum]
    refine Finset.sum_congr rfl fun t _ => ?_
    rw [onehot_sum_left (tw i) hi, padA_coe, EReal.coe_mul, EReal.coe_mul, ← coe_sum]
    congr 1
    refine Finset.sum_congr rfl fun j _ => ?_
    rw [EReal.coe_mul, ohw_coe (tw j) t.val t.isLt]
    congr 1
    by_cases hij : i.val ≤ j.val
    · rw [if_pos hij, if_pos hij, EReal.coe_zero]
    · rw [if_neg hij, if_neg hij, decay_coe]
  -- the reference's value is the coerced real sum
  have hR : refRaw (fun u t => ((a u t : ℝ) : EReal)) (w : EReal) tw (fun l => ((τ l : ℝ) : EReal)) i
      = ((∑ j : Fin 1024, if i.val ≤ j.val ∨ tw i = 0#32 ∨ tw j = 0#32 then 0
          else a (tyIx (tw i)) (tyIx (tw j)) * (w * Real.exp (-w * (τ i - τ j))) : ℝ) : EReal) := by
    simp only [refRaw]
    rw [← coe_sum]
    refine Finset.sum_congr rfl fun j _ => ?_
    by_cases h : i.val ≤ j.val ∨ tw i = 0#32 ∨ tw j = 0#32
    · rw [if_pos h, if_pos h, EReal.coe_zero]
    · rw [if_neg h, if_neg h, decay_ref_coe, EReal.coe_mul, EReal.coe_mul]
  rw [hL, hR, real_side a w hw0 tw τ htw hτmono i hi]

end Hawkes

end
-- ==== Proof.SoftAt.lean ====
/-
  softplus as both programs spell it on the host, read at one entry.

  jax prints softplus x as  select (d ≠ d) (x + 0) (max x 0 + log1p (exp (−|d|)))  with d = x − 0: the first branch is
  the not-a-number guard, which never fires on the extended reals (d ≠ d is false), and x − 0 = x; what is left is
  max x 0 + log (1 + exp (−|x|)) at the entry.
-/
import proofs.«414441_j14216341750039_3_alg».proof.Proof.Spec
import Idealize.ShloMosaic.Lib.ValueIdx
import Idealize.ShloMosaic.Lib.Pipeline.Value
import Idealize.ShloMosaic.PureOps.Ideal.Laws

noncomputable section

namespace Hawkes

open Idealize.ShloMosaic Idealize.ShloMosaic.ValueIdx

/-- The scalar zero broadcast to any shape is zero at every entry. -/
theorem zero_bcast_apply {s : Shape} (hb : (⟨0, ![]⟩ : Shape).BroadcastsInDim s (![] : Fin 0 → Fin s.rank)) (i : s.Idx) :
    broadcastInDim s ![] hb (constant (F := Ideal) ⟨0, ![]⟩ .f32 0x00000000#32) i = (0 : EReal) := by
  rw [broadcastInDim_apply _ hb _ i ix0 (fun a => a.elim0)]
  exact Ideal.ofBits_zero_f32

/-- The printed softplus chain at an entry is `softplus` of the entry. -/
theorem softplus_chain_apply {s : Shape} (hb : (⟨0, ![]⟩ : Shape).BroadcastsInDim s (![] : Fin 0 → Fin s.rank))
    (x : FVec Ideal s .f32) (i : s.Idx) :
    select (cmpf .une (subf x (broadcastInDim s ![] hb (constant (F := Ideal) ⟨0, ![]⟩ .f32 0x00000000#32)))
                      (subf x (broadcastInDim s ![] hb (constant (F := Ideal) ⟨0, ![]⟩ .f32 0x00000000#32))))
        (addf x (broadcastInDim s ![] hb (constant (F := Ideal) ⟨0, ![]⟩ .f32 0x00000000#32)))
        (addf (maximumf x (broadcastInDim s ![] hb (constant (F := Ideal) ⟨0, ![]⟩ .f32 0x00000000#32)))
          (Host.log1p (Host.exp (Host.negf (Host.absf
            (subf x (broadcastInDim s ![] hb (constant (F := Ideal) ⟨0, ![]⟩ .f32 0x00000000#32)))))))) i
      = softplus (x i) := by
  have hz := zero_bcast_apply hb i
  rw [select_apply, cmpf_apply, Ideal.cmpf_def]
  have hne : Ideal.cmp .une (subf x (broadcastInDim s ![] hb (constant (F := Ideal) ⟨0, ![]⟩ .f32 0x00000000#32)) i)
      (subf x (broadcastInDim s ![] hb (constant (F := Ideal) ⟨0, ![]⟩ .f32 0x00000000#32)) i) = 0#1 := by
    simp [Ideal.cmp]
  rw [hne, select_zero, addf_apply, maximumf_apply, hz]
  show max (x i) 0 + FloatOps.hostUnary .log1p (FloatOps.hostUnary .exp (FloatOps.hostNegf (FloatOps.hostAbsf
      (subf x (broadcastInDim s ![] hb (constant (F := Ideal) ⟨0, ![]⟩ .f32 0x00000000#32)) i)))) = _
  rw [subf_apply, hz, sub_zero]
  rfl

end Hawkes

end
-- ==== Proof.PayAt.lean ====
import proofs.«414441_j14216341750039_3_alg».proof.Proof.Spec
import proofs.«414441_j14216341750039_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.Pay

open Cert.KernelIdeal Cert.KernelIdeal.Gen Idealize.ShloMosaic Idealize.ShloMosaic.ValueIdx

/-! ## Layout operations of the body, read at an index given by coordinates -/

section Layout
variable {α : Type}

/-- A `[1, 1024, 1]` column block viewed `[1024, 1]` reads `(0, p, q)` at `(p, q)`. -/
theorem cast_col (x : S1x1024x1.Idx → α) (h : S1x1024x1.ShapeCasts S1024x1) (p : Fin 1024) (q : Fin 1) :
    shapeCast S1024x1 x h (ix2 p q) = x (ix3 (0 : Fin 1) p q) :=
  shapeCast_1ab_ab_apply x h p q

/-- A `[1, 1, 1024]` row block viewed `[1, 1024]` reads `(0, u, l)` at `(u, l)`. -/
theorem cast_row (x : S1x1x1024.Idx → α) (h : S1x1x1024.ShapeCasts S1x1024) (u : Fin 1) (l : Fin 1024) :
    shapeCast S1x1024 x h (ix2 u l) = x (ix3 (0 : Fin 1) u l) :=
  shapeCast_1ab_ab_apply x h u l

/-- A `[1, 1024]` row stored as a `[1, 1, 1024]` block reads `(u, l)` at `(w, u, l)`. -/
theorem cast_out (x : S1x1024.Idx → α) (h : S1x1024.ShapeCasts S1x1x1024) (w u : Fin 1) (l : Fin 1024) :
    shapeCast S1x1x1024 x h (ix3 w u l) = x (ix2 u l) :=
  shapeCast_ab_1ab_apply x h w u l

/-- A length-1024 vector viewed as a `[1024, 1]` column reads `p` at `(p, q)`. -/
theorem cast_keep (x : S1024.Idx → α) (h : S1024.ShapeCasts S1024x1) (p : Fin 1024) (q : Fin 1) :
    shapeCast S1024x1 x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- The column `[1024, 1]` transposed to the row `[1, 1024]` reads `(l, u)` at `(u, l)`. -/
theorem transpose_col (x : S1024x1.Idx → α) (h : S1024x1.Transposes [1, 0] S1x1024) (u : Fin 1) (l : Fin 1024) :
    transpose S1x1024 [1, 0] x h (ix2 u l) = x (ix2 l u) :=
  transpose_ix2_apply x h u l

/-- A `[1024, 1]` column broadcast along 128 lanes reads its row's one entry. -/
theorem bcast_col_128 (v : S1024x1.Idx → α) (h : S1024x1.Broadcasts S1024x128) (p : Fin 1024) (c : Fin 128) :
    broadcastTo S1024x128 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A `[1024, 1]` column broadcast along 1024 lanes reads its row's one entry. -/
theorem bcast_col_1024 (v : S1024x1.Idx → α) (h : S1024x1.Broadcasts S1024x1024) (p : Fin 1024) (c : Fin 1024) :
    broadcastTo S1024x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- A `[1, 1024]` row broadcast over 1024 rows reads the row at the column. -/
theorem bcast_row_1024 (v : S1x1024.Idx → α) (h : S1x1024.Broadcasts S1024x1024) (p : Fin 1024) (c : Fin 1024) :
    broadcastTo S1024x1024 v h (ix2 p c) = v (ix2 (0 : Fin 1) c) :=
  broadcastTo_1b_ab_apply v h p c

end Layout

/-- The lane counter of the `[1024, 128]` table reads the lane. -/
theorem iota_lane (h : S1024x128.Iotas .tc 32 [1]) (p : Fin 1024) (c : Fin 128) :
    iota .tc S1024x128 32 [1] h (ix2 p c) = BitVec.ofNat 32 c.val :=
  iota_single_apply .tc S1024x128 32 1 h (ix2 p c)

/-- The row counter of a `[1024, 1]` column reads the row. -/
theorem iota_rowc (h : S1024x1.Iotas .tc 32 [0]) (p : Fin 1024) (q : Fin 1) :
    iota .tc S1024x1 32 [0] h (ix2 p q) = BitVec.ofNat 32 p.val :=
  iota_single_apply .tc S1024x1 32 0 h (ix2 p q)

/-- The column counter of a `[1, 1024]` row reads the column. -/
theorem iota_colr (h : S1x1024.Iotas .tc 32 [1]) (u : Fin 1) (c : Fin 1024) :
    iota .tc S1x1024 32 [1] h (ix2 u c) = BitVec.ofNat 32 c.val :=
  iota_single_apply .tc S1x1024 32 1 h (ix2 u c)

/-! ## Words -/

/-- A widened one-bit word converted to a float is 1 for the bit 1 and 0 for the bit 0. -/
theorem sitofp_bit (b : BitVec 1) :
    FloatOps.sitofp (F := Ideal) .f32 (b.setWidth 32) = if b = 1#1 then (1 : EReal) else 0 := by
  rcases BitVec.eq_zero_or_eq_one b with rfl | rfl
  · show (((BitVec.setWidth 32 0#1).toInt : ℝ) : EReal) = _
    simp
  · show (((BitVec.setWidth 32 1#1).toInt : ℝ) : EReal) = _
    simp

/-- Two counters below 1024 compare signed as the naturals they count. -/
theorem sge_counter (j i : Fin 1024) :
    IntOp.cmpi .sge (BitVec.ofNat 32 j.val) (BitVec.ofNat 32 i.val) = 1#1 ↔ i.val ≤ j.val := by
  have hj : (BitVec.ofNat 32 j.val).toNat = j.val := by
    rw [BitVec.toNat_ofNat]; exact Nat.mod_eq_of_lt (by have := j.isLt; omega)
  have hi : (BitVec.ofNat 32 i.val).toNat = i.val := by
    rw [BitVec.toNat_ofNat]; exact Nat.mod_eq_of_lt (by have := i.isLt; omega)
  rw [StableHlo.Predicate.sge_iff_toNat (by rw [hj]; have := j.isLt; omega) (by rw [hi]; have := i.isLt; omega), hj, hi]

/-! ## The one-hot table of the type column -/

/-- Row `p`, lane `c` holds 1 when row `p`'s type word is `c`, else 0. -/
def oh (tc : Vec Ideal S1x1024x1 .i32) : FVec Ideal S1024x128 .f32 :=
  sitofp .f32 (extui 32 (cmpi .eq
    (broadcastTo S1024x128 (shapeCast S1024x1 tc shapeCasts_S1x1024x1_S1024x1) broadcasts_S1024x1_S1024x128)
    (iota .tc S1024x128 32 [1] iota_S1024x128_d1_w32)) natLt_1_32)

theorem oh_apply (tc : Vec Ideal S1x1024x1 .i32) (p : Fin 1024) (c : Fin 128) :
    oh tc (ix2 p c) = Hawkes.ohw (tc (ix3 (0 : Fin 1) p (0 : Fin 1))) c.val := by
  show FloatOps.sitofp (F := Ideal) .f32 ((IntOp.cmpi .eq
    (broadcastTo S1024x128 (shapeCast S1024x1 tc shapeCasts_S1x1024x1_S1024x1) broadcasts_S1024x1_S1024x128 (ix2 p c))
    (iota .tc S1024x128 32 [1] iota_S1024x128_d1_w32 (ix2 p c))).setWidth 32) = _
  rw [bcast_col_128, cast_col, iota_lane, sitofp_bit]
  unfold Hawkes.ohw
  simp only [StableHlo.Predicate.cmpi_eq_iff]

/-! ## The two matrix products, read at an index -/

theorem lhs_a_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem lhs_a_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_a_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_a_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- The product of a `[1024, 128]` and a `[128, 128]` matrix into a zero accumulator, at `(p, t)`. -/
theorem matmul_a_apply (x : FVec Ideal S1024x128 .f32) (y : FVec Ideal S128x128 .f32) (p : Fin 1024) (t : Fin 128) :
    matmul dot_S1024x128_S128x128_S1024x128_1_0_0_1_n_n none x y (constant (F := Ideal) S1024x128 .f32 0x00000000#32) (ix2 p t)
      = ∑ u : Fin 128, x (ix2 p u) * y (ix2 u t) := by
  simp only [matmul]
  rw [Ideal.matmul_constant_zero_apply,
    ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p t)
      ((contrEquiv1 dot_S1024x128_S128x128_S1024x128_1_0_0_1_n_n 128 rfl rfl).symm k) = ix2 p k :=
    funext fun a => Fin.ext (by
      match a with
      | ⟨0, _⟩ => exact lhs_a_0 _ _
      | ⟨1, _⟩ => exact (lhs_a_1 _ _).trans hk)
  have er : dot_S1024x128_S128x128_S1024x128_1_0_0_1_n_n.rhsIdx (ix2 p t)
      ((contrEquiv1 dot_S1024x128_S128x128_S1024x128_1_0_0_1_n_n 128 rfl rfl).symm k) = ix2 k t :=
    funext fun a => Fin.ext (by
      match a with
      | ⟨0, _⟩ => exact (rhs_a_0 _ _).trans hk
      | ⟨1, _⟩ => exact rhs_a_1 _ _)
  rw [el, er]

theorem lhs_k_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs_k_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_k_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_k_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The product of a `[1024, 1024]` and a `[1024, 128]` matrix into a zero accumulator, at `(p, t)`. -/
theorem matmul_k_apply (x : FVec Ideal S1024x1024 .f32) (y : FVec Ideal S1024x128 .f32) (p : Fin 1024) (t : Fin 128) :
    matmul dot_S1024x1024_S1024x128_S1024x128_1_0_0_1_n_n none x y (constant (F := Ideal) S1024x128 .f32 0x00000000#32) (ix2 p t)
      = ∑ j : Fin 1024, x (ix2 p j) * y (ix2 j t) := by
  simp only [matmul]
  rw [Ideal.matmul_constant_zero_apply,
    ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p t)
      ((contrEquiv1 dot_S1024x1024_S1024x128_S1024x128_1_0_0_1_n_n 1024 rfl rfl).symm k) = ix2 p k :=
    funext fun a => Fin.ext (by
      match a with
      | ⟨0, _⟩ => exact lhs_k_0 _ _
      | ⟨1, _⟩ => exact (lhs_k_1 _ _).trans hk)
  have er : dot_S1024x1024_S1024x128_S1024x128_1_0_0_1_n_n.rhsIdx (ix2 p t)
      ((contrEquiv1 dot_S1024x1024_S1024x128_S1024x128_1_0_0_1_n_n 1024 rfl rfl).symm k) = ix2 k t :=
    funext fun a => Fin.ext (by
      match a with
      | ⟨0, _⟩ => exact (rhs_k_0 _ _).trans hk
      | ⟨1, _⟩ => exact rhs_k_1 _ _)
  rw [el, er]

/-! ## The decay matrix -/

/-- Entry `(i, j)`: 0 where event `j` is not strictly earlier than event `i`, else the exponential of the clamped
    difference of the scaled times. -/
def km (sc : Vec Ideal S1x1024x1 .f32) (sr : Vec Ideal S1x1x1024 .f32) : FVec Ideal S1024x1024 .f32 :=
  select
    (cmpi .sge (broadcastTo S1024x1024 (iota .tc S1x1024 32 [1] iota_S1x1024_d1_w32) broadcasts_S1x1024_S1024x1024)
      (broadcastTo S1024x1024 (iota .tc S1024x1 32 [0] iota_S1024x1_d0_w32) broadcasts_S1024x1_S1024x1024))
    (broadcast S1024x1024 (Scalar.ofBits (F := Ideal) .f32 0x00000000#32))
    (exp (minimumf
      (subf (broadcastTo S1024x1024 (shapeCast S1x1024 sr shapeCasts_S1x1x1024_S1x1024) broadcasts_S1x1024_S1024x1024)
        (broadcastTo S1024x1024 (shapeCast S1024x1 sc shapeCasts_S1x1024x1_S1024x1) broadcasts_S1024x1_S1024x1024))
      (broadcast S1024x1024 (Scalar.ofBits (F := Ideal) .f32 0x00000000#32))))

theorem km_apply (sc : Vec Ideal S1x1024x1 .f32) (sr : Vec Ideal S1x1x1024 .f32) (i j : Fin 1024) :
    km sc sr (ix2 i j)
      = if i.val ≤ j.val then 0
        else Ideal.exp (min (sr (ix3 (0 : Fin 1) (0 : Fin 1) j) - sc (ix3 (0 : Fin 1) i (0 : Fin 1))) 0) := by
  show Scalar.select
      (IntOp.cmpi .sge
        (broadcastTo S1024x1024 (iota .tc S1x1024 32 [1] iota_S1x1024_d1_w32) broadcasts_S1x1024_S1024x1024 (ix2 i j))
        (broadcastTo S1024x1024 (iota .tc S1024x1 32 [0] iota_S1024x1_d0_w32) broadcasts_S1024x1_S1024x1024 (ix2 i j)))
      (Ideal.ofBits .f32 0x00000000#32)
      (Ideal.exp (min
        (broadcastTo S1024x1024 (shapeCast S1x1024 sr shapeCasts_S1x1x1024_S1x1024) broadcasts_S1x1024_S1024x1024 (ix2 i j)
          - broadcastTo S1024x1024 (shapeCast S1024x1 sc shapeCasts_S1x1024x1_S1024x1) broadcasts_S1024x1_S1024x1024 (ix2 i j))
        (Ideal.ofBits .f32 0x00000000#32))) = _
  rw [bcast_row_1024, bcast_col_1024, iota_colr, iota_rowc, bcast_row_1024, bcast_col_1024, cast_row, cast_col,
    Ideal.ofBits_zero_f32]
  by_cases hij : i.val ≤ j.val
  · rw [(sge_counter j i).mpr hij, select_one, if_pos hij]
  · rw [eq_zero_of_ne_one (fun h => hij ((sge_counter j i).mp h)), select_zero, if_neg hij]

/-! ## The lane sum and the payload -/

/-- The sum over the 128 lanes of a `[1024, 128]` table, at row `p`. -/
theorem lane_sum (src : FVec Ideal S1024x128 .f32) (h : S1024x128.Reduces [1] S1024) (hφ : FKind.Formats .f32)
    (hacc : (0x00000000#32 : BitVec 32) = 0x00000000#32) (p : Fin 1024) :
    multiReduction .add [1] S1024 src 0x00000000#32 h hφ hacc (ix1 p) = ∑ t : Fin 128, src (ix2 p t) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The elementwise product of the two matrix products. -/
def prod (a : Vec Ideal S128x128 .f32) (sc : Vec Ideal S1x1024x1 .f32) (sr : Vec Ideal S1x1x1024 .f32)
    (tc : Vec Ideal S1x1024x1 .i32) : FVec Ideal S1024x128 .f32 :=
  mulf
    (matmul dot_S1024x128_S128x128_S1024x128_1_0_0_1_n_n none (oh tc)
      (shapeCast S128x128 a shapeCasts_S128x128_S128x128 : FVec Ideal S128x128 .f32)
      (constant (F := Ideal) S1024x128 .f32 0x00000000#32))
    (matmul dot_S1024x1024_S1024x128_S1024x128_1_0_0_1_n_n none (km sc sr) (oh tc)
      (constant (F := Ideal) S1024x128 .f32 0x00000000#32))

theorem prod_apply (a : Vec Ideal S128x128 .f32) (sc : Vec Ideal S1x1024x1 .f32) (sr : Vec Ideal S1x1x1024 .f32)
    (tc : Vec Ideal S1x1024x1 .i32) (i : Fin 1024) (t : Fin 128) :
    prod a sc sr tc (ix2 i t)
      = (∑ u : Fin 128, Hawkes.ohw (tc (ix3 (0 : Fin 1) i (0 : Fin 1))) u.val * a (ix2 u t))
        * (∑ j : Fin 1024,
            (if i.val ≤ j.val then 0
              else Ideal.exp (min (sr (ix3 (0 : Fin 1) (0 : Fin 1) j) - sc (ix3 (0 : Fin 1) i (0 : Fin 1))) 0))
            * Hawkes.ohw (tc (ix3 (0 : Fin 1) j (0 : Fin 1))) t.val) := by
  unfold prod
  rw [mulf_apply, matmul_a_apply, matmul_k_apply, shapeCast_self]
  refine congrArg₂ (· * ·) (Finset.sum_congr rfl fun u _ => ?_) (Finset.sum_congr rfl fun j _ => ?_)
  · rw [oh_apply]
  · rw [km_apply, oh_apply]

/-- The payload is the lane sum of that product, reshaped to the stored row. -/
theorem pay_eq (a : Vec Ideal S128x128 .f32) (sc : Vec Ideal S1x1024x1 .f32) (sr : Vec Ideal S1x1x1024 .f32)
    (tc : Vec Ideal S1x1024x1 .i32) :
    k0_pay1 (F := Ideal) a sc sr tc
      = shapeCast S1x1x1024
          (transpose S1x1024 [1, 0]
            (shapeCast S1024x1
              (multiReduction .add [1] S1024 (prod a sc sr tc) 0x00000000#32 reduces_S1024x128_S1024 (.inl rfl) rfl)
              shapeCasts_S1024_S1024x1)
            transposes_S1024x1_p1_0_S1x1024)
          shapeCasts_S1x1024_S1x1x1024 := rfl

theorem pay_apply (a : Vec Ideal S128x128 .f32) (sc : Vec Ideal S1x1024x1 .f32) (sr : Vec Ideal S1x1x1024 .f32)
    (tc : Vec Ideal S1x1024x1 .i32) (i : Fin 1024) :
    k0_pay1 (F := Ideal) a sc sr tc (ix3 (0 : Fin 1) (0 : Fin 1) i)
      = Hawkes.kernelRaw (fun u t => a (ix2 u t)) (fun l => sc (ix3 (0 : Fin 1) l (0 : Fin 1)))
          (fun l => sr (ix3 (0 : Fin 1) (0 : Fin 1) l)) (fun l => tc (ix3 (0 : Fin 1) l (0 : Fin 1))) i := by
  rw [pay_eq, cast_out, transpose_col, cast_keep, lane_sum]
  unfold Hawkes.kernelRaw
  exact Finset.sum_congr rfl fun t _ => prod_apply a sc sr tc i t

end Cert.KernelIdeal.Pay

end
-- ==== Proof.KVal.lean ====
import proofs.«414441_j14216341750039_3_alg».proof.Proof.FrameKI
import proofs.«414441_j14216341750039_3_alg».proof.Proof.Spec
import proofs.«414441_j14216341750039_3_alg».proof.Proof.SoftAt
import proofs.«414441_j14216341750039_3_alg».proof.Proof.PayAt
import Idealize.ShloMosaic.Lib.Pipeline.Value
import Idealize.ShloMosaic.Lib.ValueIdx
import Idealize.ShloMosaic.Lib.ValueLayout
import Idealize.ShloMosaic.Lib.StableHlo.Run

/-!
# The kernel's output array, read at an index

After the run the array the region writes holds, at row `b` and position `i`, the kernel's row sum
(`Hawkes.kernelRaw`) of the 128 × 128 table `ω · padA A`, the scaled times `ω · tm` of row `b` (as the
column and as the row operand) and the type words of row `b`.  Two halves: every point of the grid
writes back its block of ONE whole-array function of the four arrays the region reads (the payload
of row `b`'s blocks), and the blocks tile the array; and the four arrays the region reads are, entry
by entry, what the host operations before the region computed from the arguments.
-/

noncomputable section

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (c : Dev nD)

/-! ## From the blocks to the array -/

theorem zeros3 : (![0, 0, 0] : Fin 3 → Nat) = fun _ => 0 := funext fun a => by fin_cases a <;> rfl

/-- The whole-array function every point writes its block of: at `(b, 0, i)` the payload of the table and of row `b` of
    the three batched arrays, read at `(0, 0, i)`. -/
def G (a : S128x128.Idx → EReal) (sc : S32x1024x1.Idx → EReal) (sr : S32x1x1024.Idx → EReal) (tw : S32x1024x1.Idx → BitVec 32) :
    S32x1x1024.Idx → EReal := fun y =>
  k0_pay1 (F := Ideal) a (fun j => sc (ix3 (y 0) (j 1) (j 2))) (fun j => sr (ix3 (y 0) (j 1) (j 2))) (fun j => tw (ix3 (y 0) (j 1) (j 2)))
    (ix3 (0 : Fin 1) (0 : Fin 1) (y 2))

/-- The printed index maps over the grid: the table's block never moves; the four batched windows are at row `t`. -/
theorem idx_facts : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The payload depends only on its blocks and its index. -/
theorem pay_congr {X0 Y0 : Vec Ideal S128x128 .f32} {X1 Y1 : Vec Ideal S1x1024x1 .f32} {X2 Y2 : Vec Ideal S1x1x1024 .f32}
    {X3 Y3 : Vec Ideal S1x1024x1 .i32} {j j' : S1x1x1024.Idx} (h0 : X0 = Y0) (h1 : X1 = Y1) (h2 : X2 = Y2) (h3 : X3 = Y3) (hj : j = j') :
    k0_pay1 (F := Ideal) X0 X1 X2 X3 j = k0_pay1 (F := Ideal) Y0 Y1 Y2 Y3 j' := by
  subst h0 h1 h2 h3 hj; rfl

/-- WHAT POINT `t` WRITES BACK is block `t` of `G` of the four arrays as the region finds them. -/
theorem flushed_eq (t : Fin cfg0.N) :
    (Fr.dats m 0 c).flushed 4 t = ((cfg0.win 4).blk t).view.read (Elt Ideal)
      (G (Fr.V m c main_v12) (Fr.V m c main_v15) (Fr.V m c main_v16) (Fr.V m c main_v17)) := by
  show (cfg0.win 4).cut (grid0.coords t) ((Fr.dats m 0 c).after 4 t) = _
  rw [Fr.after4]
  unfold Fr.out4
  rw [View.canon_unit_zero zeros3]
  obtain ⟨a0, a1, b0, b1, b2, c0, c1, c2, d0, d1, d2, e0, e1, e2⟩ := idx_facts t
  funext j
  show k0_pay1 (F := Ideal) (Fr.iblk m c 0 t) (Fr.iblk m c 1 t) (Fr.iblk m c 2 t) (Fr.iblk m c 3 t) j
    = G (Fr.V m c main_v12) (Fr.V m c main_v15) (Fr.V m c main_v16) (Fr.V m c main_v17) (((cfg0.win 4).blk t).view.emb j)
  unfold G
  have hj0 : (j 0).val < 1 := (j 0).isLt
  have hj1 : (j 1).val < 1 := (j 1).isLt
  refine pay_congr ?_ ?_ ?_ ?_ ?_
  · funext x
    show Fr.V m c main_v12 (((cfg0.win 0).blk t).view.emb x) = Fr.V m c main_v12 x
    refine congrArg _ (funext fun a => Fin.ext ?_)
    match a with
    | ⟨0, _⟩ => show win0_0.index t (0 : Fin 2) * 128 + 1 * (x 0).val = (x 0).val; omega
    | ⟨1, _⟩ => show win0_0.index t (1 : Fin 2) * 128 + 1 * (x 1).val = (x 1).val; omega
  · funext x
    show Fr.V m c main_v15 (((cfg0.win 1).blk t).view.emb x) = Fr.V m c main_v15 _
    have hx0 : (x 0).val < 1 := (x 0).isLt
    refine congrArg _ (funext fun a => Fin.ext ?_)
    match a with
    | ⟨0, _⟩ => show win0_1.index t (0 : Fin 3) * 1 + 1 * (x 0).val = win0_4.index t (0 : Fin 3) * 1 + 1 * (j 0).val; omega
    | ⟨1, _⟩ => show win0_1.index t (1 : Fin 3) * 1024 + 1 * (x 1).val = (x 1).val; omega
    | ⟨2, _⟩ => show win0_1.index t (2 : Fin 3) * 1 + 1 * (x 2).val = (x 2).val; omega
  · funext x
    show Fr.V m c main_v16 (((cfg0.win 2).blk t).view.emb x) = Fr.V m c main_v16 _
    have hx0 : (x 0).val < 1 := (x 0).isLt
    refine congrArg _ (funext fun a => Fin.ext ?_)
    match a with
    | ⟨0, _⟩ => show win0_2.index t (0 : Fin 3) * 1 + 1 * (x 0).val = win0_4.index t (0 : Fin 3) * 1 + 1 * (j 0).val; omega
    | ⟨1, _⟩ => show win0_2.index t (1 : Fin 3) * 1 + 1 * (x 1).val = (x 1).val; omega
    | ⟨2, _⟩ => show win0_2.index t (2 : Fin 3) * 1024 + 1 * (x 2).val = (x 2).val; omega
  · funext x
    show Fr.V m c main_v17 (((cfg0.win 3).blk t).view.emb x) = Fr.V m c main_v17 _
    have hx0 : (x 0).val < 1 := (x 0).isLt
    refine congrArg _ (funext fun a => Fin.ext ?_)
    match a with
    | ⟨0, _⟩ => show win0_3.index t (0 : Fin 3) * 1 + 1 * (x 0).val = win0_4.index t (0 : Fin 3) * 1 + 1 * (j 0).val; omega
    | ⟨1, _⟩ => show win0_3.index t (1 : Fin 3) * 1024 + 1 * (x 1).val = (x 1).val; omega
    | ⟨2, _⟩ => show win0_3.index t (2 : Fin 3) * 1 + 1 * (x 2).val = (x 2).val; omega
  · funext a
    refine Fin.ext ?_
    match a with
    | ⟨0, _⟩ => show (j 0).val = 0; omega
    | ⟨1, _⟩ => show (j 1).val = 0; omega
    | ⟨2, _⟩ => show (j 2).val = win0_4.index t (2 : Fin 3) * 1024 + 1 * (j 2).val; omega

/-- An index of the array is in point `t`'s block iff each coordinate is in the block's range on its axis. -/
theorem mem_blk (t : Fin cfg0.N) (i : S32x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v18).slice (win0_4.rect t)).set ↔ _
  rw [View.set_slice_whole, Rect.mem_set_unit]
  exact Iff.rfl

/-- The blocks tile the array: row `b` is point `b`'s. -/
theorem cover (i : S32x1x1024.Idx) : ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 1024 := (i 2).isLt
  refine ⟨⟨(i 0).val, h0⟩, flush0_4 _, ?_⟩
  obtain ⟨a0, a1, b0, b1, b2, c0, c1, c2, d0, d1, d2, e0', e1, e2⟩ := idx_facts ⟨(i 0).val, h0⟩
  have e0 : win0_4.index ⟨(i 0).val, h0⟩ (0 : Fin 3) = (i 0).val := e0'
  rw [mem_blk]
  intro a
  match a with
  | ⟨0, _⟩ => show win0_4.index ⟨(i 0).val, h0⟩ (0 : Fin 3) * 1 ≤ (i 0).val ∧ (i 0).val < win0_4.index ⟨(i 0).val, h0⟩ (0 : Fin 3) * 1 + 1; rw [e0]; omega
  | ⟨1, _⟩ => show win0_4.index ⟨(i 0).val, h0⟩ (1 : Fin 3) * 1 ≤ (i 1).val ∧ (i 1).val < win0_4.index ⟨(i 0).val, h0⟩ (1 : Fin 3) * 1 + 1; rw [e1]; omega
  | ⟨2, _⟩ => show win0_4.index ⟨(i 0).val, h0⟩ (2 : Fin 3) * 1024 ≤ (i 2).val ∧ (i 2).val < win0_4.index ⟨(i 0).val, h0⟩ (2 : Fin 3) * 1024 + 1024; rw [e2]; omega

/-- THE ARRAY after the run: `G` of the four arrays the region reads. -/
theorem final : (Fr.dats m 0 c).arrAt 4 cfg0.N
    = G (Fr.V m c main_v12) (Fr.V m c main_v15) (Fr.V m c main_v16) (Fr.V m c main_v17) :=
  (Fr.dats m 0 c).arrAt_eq_of_cover 4 _ (fun t _ => flushed_eq m c t) cover

/-! ## The arrays the region reads, as the host operations before it leave them -/

/-- The scalar zero broadcast to a shape. -/
abbrev zb (s : Shape) (hb : S_.BroadcastsInDim s (![] : Fin 0 → Fin s.rank)) : FVec Ideal s .f32 :=
  broadcastInDim s ![] hb (constant (F := Ideal) S_ .f32 0x00000000#32)

/-- softplus as the host spells it, on a whole vector. -/
abbrev spv {s : Shape} (hb : S_.BroadcastsInDim s (![] : Fin 0 → Fin s.rank)) (x : FVec Ideal s .f32) : FVec Ideal s .f32 :=
  select (cmpf .une (subf x (zb s hb)) (subf x (zb s hb))) (addf x (zb s hb))
    (addf (maximumf x (zb s hb)) (Host.log1p (Host.exp (Host.negf (Host.absf (subf x (zb s hb)))))))

/-- The decay rate: softplus of the one-element argument, as a scalar. -/
abbrev omV (x3 : FVec Ideal S1 .f32) : FVec Ideal S_ .f32 := fun i => shapeCast S_ (spv bcast_S_S1 x3) shapeCasts_S1_S_ i

/-- The zero word broadcast to the one-element index vector, and the zero row of updates. -/
abbrev zIdx : IVec S1 32 := broadcastInDim S1 ![] bcast_S_S1 (constantI S_ 32 0#32)
abbrev zUpd : FVec Ideal S128 .f32 := broadcastInDim S128 ![] bcast_S_S128 (constant (F := Ideal) S_ .f32 0x00000000#32)

/-- The table: softplus of the 51 × 51 argument padded to 128 × 128, its row 0 and column 0 overwritten with zeros, scaled by the rate. -/
abbrev tabV (x3 : FVec Ideal S1 .f32) (x2 : FVec Ideal S51x51 .f32) : FVec Ideal S128x128 .f32 :=
  mulf (broadcastInDim S128x128 ![] bcast_S_S128x128 (omV x3))
    (Host.scatter scatter_S128x128_S1_S128_0_1_1_0 (fun _ b => b)
      (Host.scatter scatter_S128x128_S1_S128_0_0_0_0 (fun _ b => b)
        (pad S128x128 ![0, 0] ![77, 77] ![0, 0] (spv bcast_S_S51x51 x2) (sitofp (F := Ideal) .f32 (constantI S_ 32 0#32)) pads_S51x51_S128x128_0770_0770 h_S_)
        zIdx zUpd)
      zIdx zUpd)

/-- The times scaled by the rate. -/
abbrev scaledV (x3 : FVec Ideal S1 .f32) (x1 : FVec Ideal S32x1024 .f32) : FVec Ideal S32x1024 .f32 :=
  mulf (broadcastInDim S32x1024 ![] bcast_S_S32x1024 (omV x3)) x1
/-- … as columns, … -/
abbrev colV (x3 : FVec Ideal S1 .f32) (x1 : FVec Ideal S32x1024 .f32) : FVec Ideal S32x1024x1 .f32 :=
  fun i => shapeCast S32x1024x1 (scaledV x3 x1) shapeCasts_S32x1024_S32x1024x1 i
/-- … and as rows. -/
abbrev rowV (x3 : FVec Ideal S1 .f32) (x1 : FVec Ideal S32x1024 .f32) : FVec Ideal S32x1x1024 .f32 :=
  fun i => shapeCast S32x1x1024 (scaledV x3 x1) shapeCasts_S32x1024_S32x1x1024 i
/-- The type words as columns. -/
abbrev twV (x0 : IVec S32x1024 32) : IVec S32x1024x1 32 :=
  fun i => shapeCast S32x1024x1 x0 shapeCasts_S32x1024_S32x1024x1 i

set_option maxHeartbeats 4000000 in
set_option maxRecDepth 100000 in
/-- The four arrays the region reads, after the host operations before it from any contents `W`. -/
theorem pre_arrays (W : Valuation τ sig (Elt Ideal)) :
    StableHlo.after (List.flatten [hostOps0 (F := Ideal), hostOps0_1, hostOps0_2, hostOps0_3, hostOps0_4, hostOps0_5]) W (Proc.devRef .tc main_v12)
        = tabV (W (Proc.devRef .tc main_arg3)) (W (Proc.devRef .tc main_arg2))
    ∧ StableHlo.after (List.flatten [hostOps0 (F := Ideal), hostOps0_1, hostOps0_2, hostOps0_3, hostOps0_4, hostOps0_5]) W (Proc.devRef .tc main_v15)
        = colV (W (Proc.devRef .tc main_arg3)) (W (Proc.devRef .tc main_arg1))
    ∧ StableHlo.after (List.flatten [hostOps0 (F := Ideal), hostOps0_1, hostOps0_2, hostOps0_3, hostOps0_4, hostOps0_5]) W (Proc.devRef .tc main_v16)
        = rowV (W (Proc.devRef .tc main_arg3)) (W (Proc.devRef .tc main_arg1))
    ∧ StableHlo.after (List.flatten [hostOps0 (F := Ideal), hostOps0_1, hostOps0_2, hostOps0_3, hostOps0_4, hostOps0_5]) W (Proc.devRef .tc main_v17)
        = twV (W (Proc.devRef .tc main_arg0)) := by
  simp only [hostOps0, hostOps0_1, hostOps0_2, hostOps0_3, hostOps0_4, hostOps0_5, List.flatten_cons, List.flatten_nil, List.append_nil, List.cons_append, List.nil_append]
  refine ⟨?_, ?_, ?_, ?_⟩
  all_goals after_results_simp
  all_goals (try simp only [TRef.ofBuf, TRef.toBuf, cast_eq, id])
  all_goals rfl

/-! ## Those arrays read at an index -/

/-- The rate at its one index: softplus of the argument's one entry. -/
theorem omV_apply (x3 : FVec Ideal S1 .f32) (i : S_.Idx) : omV x3 i = Hawkes.softplus (x3 (ix1 (0 : Fin 1))) := by
  show shapeCast S_ (spv bcast_S_S1 x3) shapeCasts_S1_S_ i = _
  rw [shapeCast_apply (spv bcast_S_S1 x3) shapeCasts_S1_S_ i (ix1 (0 : Fin 1)) (by
    have h1 := (S1.rowMajor (ix1 (0 : Fin 1))).isLt
    have h2 := (S_.rowMajor i).isLt
    have e1 : S1.numel = 1 := by decide
    have e2 : S_.numel = 1 := by decide
    omega)]
  exact Hawkes.softplus_chain_apply bcast_S_S1 x3 (ix1 (0 : Fin 1))

/-- The rate broadcast to any shape reads the rate everywhere. -/
theorem om_bcast_apply {s : Shape} (hb : S_.BroadcastsInDim s (![] : Fin 0 → Fin s.rank)) (x3 : FVec Ideal S1 .f32) (j : s.Idx) :
    broadcastInDim s ![] hb (omV x3) j = Hawkes.softplus (x3 (ix1 (0 : Fin 1))) := by
  rw [broadcastInDim_apply _ hb _ j ix0 (fun a => a.elim0)]
  exact omV_apply x3 ix0

/-- The scaled times at `(b, l)`. -/
theorem scaledV_apply (x3 : FVec Ideal S1 .f32) (x1 : FVec Ideal S32x1024 .f32) (b : Fin 32) (l : Fin 1024) :
    scaledV x3 x1 (ix2 b l) = Hawkes.softplus (x3 (ix1 (0 : Fin 1))) * x1 (ix2 b l) := by
  show mulf (broadcastInDim S32x1024 ![] bcast_S_S32x1024 (omV x3)) x1 (ix2 b l) = _
  rw [mulf_apply, om_bcast_apply]

/-- The column operand at `(b, l, 0)`. -/
theorem colV_apply (x3 : FVec Ideal S1 .f32) (x1 : FVec Ideal S32x1024 .f32) (b : Fin 32) (l : Fin 1024) :
    colV x3 x1 (ix3 b l (0 : Fin 1)) = Hawkes.softplus (x3 (ix1 (0 : Fin 1))) * x1 (ix2 b l) := by
  show shapeCast S32x1024x1 (scaledV x3 x1) shapeCasts_S32x1024_S32x1024x1 (ix3 b l (0 : Fin 1)) = _
  rw [shapeCast_apply (scaledV x3 x1) shapeCasts_S32x1024_S32x1024x1 (ix3 b l (0 : Fin 1)) (ix2 b l) (by
    rw [Shape.rowMajor_val_two, Shape.rowMajor_val_three]
    show b.val * 1024 + l.val = (b.val * 1024 + l.val) * 1 + 0
    omega)]
  exact scaledV_apply x3 x1 b l

/-- The row operand at `(b, 0, l)`. -/
theorem rowV_apply (x3 : FVec Ideal S1 .f32) (x1 : FVec Ideal S32x1024 .f32) (b : Fin 32) (l : Fin 1024) :
    rowV x3 x1 (ix3 b (0 : Fin 1) l) = Hawkes.softplus (x3 (ix1 (0 : Fin 1))) * x1 (ix2 b l) := by
  show shapeCast S32x1x1024 (scaledV x3 x1) shapeCasts_S32x1024_S32x1x1024 (ix3 b (0 : Fin 1) l) = _
  rw [shapeCast_apply (scaledV x3 x1) shapeCasts_S32x1024_S32x1x1024 (ix3 b (0 : Fin 1) l) (ix2 b l) (by
    rw [Shape.rowMajor_val_two, Shape.rowMajor_val_three]
    show b.val * 1024 + l.val = (b.val * 1 + 0) * 1024 + l.val
    omega)]
  exact scaledV_apply x3 x1 b l

/-- The type words at `(b, l, 0)`. -/
theorem twV_apply (x0 : IVec S32x1024 32) (b : Fin 32) (l : Fin 1024) : twV x0 (ix3 b l (0 : Fin 1)) = x0 (ix2 b l) := by
  show shapeCast S32x1024x1 x0 shapeCasts_S32x1024_S32x1024x1 (ix3 b l (0 : Fin 1)) = _
  exact shapeCast_apply x0 shapeCasts_S32x1024_S32x1024x1 (ix3 b l (0 : Fin 1)) (ix2 b l) (by
    rw [Shape.rowMajor_val_two, Shape.rowMajor_val_three]
    show b.val * 1024 + l.val = (b.val * 1024 + l.val) * 1 + 0
    omega)

/-! ## A scatter of one constant over its update window

Each of the two scatters writes the same value (zero) at every index its one update window reaches, so the result at an
index is that value if some update lands there and the operand otherwise: no two updates need telling apart. -/

section Overwrite

/-- A left fold whose step overwrites one index (when the step names one) with the constant `z`: an index some step
    names reads `z`, an index no step names reads the start. -/
theorem foldl_overwrite {ι κ α : Type} [DecidableEq ι] (g : κ → Option ι) (z : α) (step : (ι → α) → κ → (ι → α))
    (hs : ∀ r n i, g n = some i → step r n = fun i'' => if i'' = i then z else r i'')
    (hn : ∀ r n, g n = none → step r n = r) :
    ∀ (L : List κ) (x : ι → α) (i' : ι),
      ((∃ n ∈ L, g n = some i') → (L.foldl step x) i' = z) ∧ ((∀ n ∈ L, g n ≠ some i') → (L.foldl step x) i' = x i')
  | [], x, i' => ⟨fun ⟨_, h, _⟩ => absurd h List.not_mem_nil, fun _ => rfl⟩
  | n :: L, x, i' => by
    have ih := foldl_overwrite g z step hs hn L (step x n) i'
    rw [List.foldl_cons]
    constructor
    · rintro ⟨n', hn', e⟩
      by_cases hL : ∃ n'' ∈ L, g n'' = some i'
      · exact ih.1 hL
      · have hL' : ∀ n'' ∈ L, g n'' ≠ some i' := fun n'' h'' e'' => hL ⟨n'', h'', e''⟩
        rcases List.mem_cons.mp hn' with rfl | hn'
        · rw [ih.2 hL', hs x n' i' e]
          exact if_pos rfl
        · exact absurd e (hL' n' hn')
    · intro hall
      rw [ih.2 fun n'' h'' => hall n'' (List.mem_cons_of_mem _ h'')]
      cases hg : g n with
      | none => rw [hn x n hg]
      | some i =>
        rw [hs x n i hg]
        have hi : ¬ i' = i := fun e => hall n List.mem_cons_self (by rw [hg, e])
        exact if_neg hi

/-- `stablehlo.scatter` whose body returns the update, of updates that all hold `z`: `z` where some update lands, … -/
theorem scatter_const_hit {α : Type} {w : Nat} {s si u : Shape} (d : ScatterDims s si u) (x : s.Idx → α) (idx : IVec si w)
    (upd : u.Idx → α) (z : α) (hupd : ∀ j, upd j = z) (i' : s.Idx) (j : u.Idx) (hj : d.resultIdx? j idx = some i') :
    Host.scatter d (fun _ b => b) x idx upd i' = z := by
  unfold Host.scatter
  exact (foldl_overwrite (fun n => d.resultIdx? (u.rowMajor.symm n) idx) z _ (fun r n i h => by simp only [h, hupd]) (fun r n h => by simp only [h])
    (List.finRange u.numel) x i').1 ⟨u.rowMajor j, List.mem_finRange _, by rw [Equiv.symm_apply_apply]; exact hj⟩

/-- … the operand where none does. -/
theorem scatter_const_miss {α : Type} {w : Nat} {s si u : Shape} (d : ScatterDims s si u) (x : s.Idx → α) (idx : IVec si w)
    (upd : u.Idx → α) (z : α) (hupd : ∀ j, upd j = z) (i' : s.Idx) (hno : ∀ j : u.Idx, d.resultIdx? j idx ≠ some i') :
    Host.scatter d (fun _ b => b) x idx upd i' = x i' := by
  unfold Host.scatter
  exact (foldl_overwrite (fun n => d.resultIdx? (u.rowMajor.symm n) idx) z _ (fun r n i h => by simp only [h, hupd]) (fun r n h => by simp only [h])
    (List.finRange u.numel) x i').2 fun n _ => hno _

end Overwrite

/-! ## Where the two scatters' updates land -/

/-- With the start index zero, update `q` of the first scatter lands at row 0, column `q`. -/
theorem land_row (idx : IVec S1 32) (hidx : ∀ k, idx k = 0#32) (q : Fin 128) :
    scatter_S128x128_S1_S128_0_0_0_0.resultIdx? (ix1 q) idx = some (ix2 (0 : Fin 128) q) := by
  have hs : ∀ a, scatter_S128x128_S1_S128_0_0_0_0.start (ix1 q) idx a = 0 := fun a => by
    unfold ScatterDims.start; split
    · rw [hidx]; rfl
    · rfl
  have hw : ∀ a : Fin 2, scatter_S128x128_S1_S128_0_0_0_0.window (ix1 q) a = (ix2 (0 : Fin 128) q a).val := fun a => by
    match a with
    | ⟨0, _⟩ => rfl
    | ⟨1, _⟩ => rfl
  have hin : ∀ a, 0 ≤ scatter_S128x128_S1_S128_0_0_0_0.start (ix1 q) idx a + scatter_S128x128_S1_S128_0_0_0_0.window (ix1 q) a
      ∧ scatter_S128x128_S1_S128_0_0_0_0.start (ix1 q) idx a + scatter_S128x128_S1_S128_0_0_0_0.window (ix1 q) a < S128x128.size a := fun a => by
    rw [hs, hw]
    have hlt : (ix2 (0 : Fin 128) q a).val < S128x128.size a := (ix2 (0 : Fin 128) q a).isLt
    constructor <;> omega
  unfold ScatterDims.resultIdx?
  rw [dif_pos hin]
  refine congrArg some (funext fun a => Fin.ext ?_)
  show (scatter_S128x128_S1_S128_0_0_0_0.start (ix1 q) idx a + scatter_S128x128_S1_S128_0_0_0_0.window (ix1 q) a).toNat = _
  rw [hs, hw]
  omega

/-- With the start index zero, update `q` of the second scatter lands at row `q`, column 0. -/
theorem land_col (idx : IVec S1 32) (hidx : ∀ k, idx k = 0#32) (q : Fin 128) :
    scatter_S128x128_S1_S128_0_1_1_0.resultIdx? (ix1 q) idx = some (ix2 q (0 : Fin 128)) := by
  have hs : ∀ a, scatter_S128x128_S1_S128_0_1_1_0.start (ix1 q) idx a = 0 := fun a => by
    unfold ScatterDims.start; split
    · rw [hidx]; rfl
    · rfl
  have hw : ∀ a : Fin 2, scatter_S128x128_S1_S128_0_1_1_0.window (ix1 q) a = (ix2 q (0 : Fin 128) a).val := fun a => by
    match a with
    | ⟨0, _⟩ => rfl
    | ⟨1, _⟩ => rfl
  have hin : ∀ a, 0 ≤ scatter_S128x128_S1_S128_0_1_1_0.start (ix1 q) idx a + scatter_S128x128_S1_S128_0_1_1_0.window (ix1 q) a
      ∧ scatter_S128x128_S1_S128_0_1_1_0.start (ix1 q) idx a + scatter_S128x128_S1_S128_0_1_1_0.window (ix1 q) a < S128x128.size a := fun a => by
    rw [hs, hw]
    have hlt : (ix2 q (0 : Fin 128) a).val < S128x128.size a := (ix2 q (0 : Fin 128) a).isLt
    constructor <;> omega
  unfold ScatterDims.resultIdx?
  rw [dif_pos hin]
  refine congrArg some (funext fun a => Fin.ext ?_)
  show (scatter_S128x128_S1_S128_0_1_1_0.start (ix1 q) idx a + scatter_S128x128_S1_S128_0_1_1_0.window (ix1 q) a).toNat = _
  rw [hs, hw]
  omega

/-! ## The padded table at an entry -/

/-- The pad's value: the integer zero converted, which is the real zero. -/
theorem padv_apply (i : S_.Idx) : sitofp (F := Ideal) .f32 (constantI S_ 32 0#32) i = (0 : EReal) := by
  show (((0#32 : BitVec 32).toInt : ℝ) : EReal) = 0
  simp

/-- `stablehlo.pad` by 77 zeros high on both axes, read at `(u, t)`: the operand inside the 51 × 51 corner, the pad value outside. -/
theorem pad_apply (X : FVec Ideal S51x51 .f32) (v : FVec Ideal S_ .f32) (u t : Fin 128) :
    pad S128x128 ![0, 0] ![77, 77] ![0, 0] X v pads_S51x51_S128x128_0770_0770 h_S_ (ix2 u t)
      = if h : u.val < 51 ∧ t.val < 51 then X (ix2 ⟨u.val, h.1⟩ ⟨t.val, h.2⟩) else v ix0 := by
  unfold pad
  by_cases h : u.val < 51 ∧ t.val < 51
  · rw [dif_pos h]
    have hin : ∀ a : Fin S51x51.rank, (![0, 0] : Fin 2 → Nat) a ≤ ((ix2 u t) (a.cast pads_S51x51_S128x128_0770_0770.1)).val
        ∧ (((ix2 u t) (a.cast pads_S51x51_S128x128_0770_0770.1)).val - (![0, 0] : Fin 2 → Nat) a) % ((![0, 0] : Fin 2 → Nat) a + 1) = 0
        ∧ (((ix2 u t) (a.cast pads_S51x51_S128x128_0770_0770.1)).val - (![0, 0] : Fin 2 → Nat) a) / ((![0, 0] : Fin 2 → Nat) a + 1) < S51x51.size a := fun a => by
      match a with
      | ⟨0, _⟩ => exact ⟨Nat.zero_le _, by show (u.val - 0) % (0 + 1) = 0; omega, by show (u.val - 0) / (0 + 1) < 51; omega⟩
      | ⟨1, _⟩ => exact ⟨Nat.zero_le _, by show (t.val - 0) % (0 + 1) = 0; omega, by show (t.val - 0) / (0 + 1) < 51; omega⟩
    rw [dif_pos hin]
    refine congrArg X (funext fun a => Fin.ext ?_)
    match a with
    | ⟨0, _⟩ => show (u.val - 0) / (0 + 1) = u.val; omega
    | ⟨1, _⟩ => show (t.val - 0) / (0 + 1) = t.val; omega
  · rw [dif_neg h, dif_neg]
    · exact congrArg v (funext fun a => a.elim0)
    · intro hin
      have h0 : (u.val - 0) / (0 + 1) < 51 := (hin (0 : Fin 2)).2.2
      have h1 : (t.val - 0) / (0 + 1) < 51 := (hin (1 : Fin 2)).2.2
      exact h ⟨by omega, by omega⟩

/-- The zero index word and the zero updates, read anywhere. -/
theorem zIdx_apply (k : S1.Idx) : zIdx k = 0#32 := by
  show broadcastInDim S1 ![] bcast_S_S1 (constantI S_ 32 0#32) k = _
  rw [broadcastInDim_apply _ bcast_S_S1 _ k ix0 (fun a => a.elim0)]
  rfl
theorem zUpd_apply (j : S128.Idx) : zUpd j = (0 : EReal) := Hawkes.zero_bcast_apply bcast_S_S128 j

/-- THE TABLE at `(u, t)`: the rate times the padded softplus table with its row 0 and column 0 zeroed. -/
theorem tabV_apply (x3 : FVec Ideal S1 .f32) (x2 : FVec Ideal S51x51 .f32) (u t : Fin 128) :
    tabV x3 x2 (ix2 u t)
      = Hawkes.softplus (x3 (ix1 (0 : Fin 1))) * Hawkes.padA (fun u t => Hawkes.softplus (x2 (ix2 u t))) u t := by
  show mulf (broadcastInDim S128x128 ![] bcast_S_S128x128 (omV x3)) _ (ix2 u t) = _
  rw [mulf_apply, om_bcast_apply]
  congr 1
  unfold Hawkes.padA
  by_cases ht : t.val = 0
  · -- column 0: the second scatter's update at row `u` lands here
    rw [if_pos (Or.inr ht)]
    have e : ix2 u t = ix2 u (0 : Fin 128) := by
      funext a; refine Fin.ext ?_
      match a with
      | ⟨0, _⟩ => rfl
      | ⟨1, _⟩ => exact ht
    exact scatter_const_hit _ _ zIdx zUpd 0 zUpd_apply _ (ix1 u) (by rw [land_col zIdx zIdx_apply, e])
  · rw [scatter_const_miss _ _ zIdx zUpd 0 zUpd_apply _ (fun j hj => by
      obtain ⟨q, rfl⟩ : ∃ q : Fin 128, j = ix1 q := ⟨j 0, eq_ix1 j⟩
      rw [land_col zIdx zIdx_apply] at hj
      exact ht (congrArg (fun i : S128x128.Idx => (i 1).val) (Option.some.inj hj)).symm)]
    by_cases hu : u.val = 0
    · -- row 0: the first scatter's update at column `t` lands here
      rw [if_pos (Or.inl hu)]
      have e : ix2 u t = ix2 (0 : Fin 128) t := by
        funext a; refine Fin.ext ?_
        match a with
        | ⟨0, _⟩ => exact hu
        | ⟨1, _⟩ => rfl
      exact scatter_const_hit _ _ zIdx zUpd 0 zUpd_apply _ (ix1 t) (by rw [land_row zIdx zIdx_apply, e])
    · rw [if_neg (by tauto), scatter_const_miss _ _ zIdx zUpd 0 zUpd_apply _ (fun j hj => by
        obtain ⟨q, rfl⟩ : ∃ q : Fin 128, j = ix1 q := ⟨j 0, eq_ix1 j⟩
        rw [land_row zIdx zIdx_apply] at hj
        exact hu (congrArg (fun i : S128x128.Idx => (i 0).val) (Option.some.inj hj)).symm)]
      rw [pad_apply]
      by_cases h : u.val < 51 ∧ t.val < 51
      · rw [dif_pos h, dif_pos h]
        exact Hawkes.softplus_chain_apply bcast_S_S51x51 x2 _
      · rw [dif_neg h, dif_neg h]
        exact padv_apply ix0

/-! ## The arguments, and the arrays the region finds in terms of them -/

/-- The type words, the times, the raw table and the raw rate: the first four argument arrays as launched. -/
abbrev x0 : IVec S32x1024 32 := m ((c : Thread nD τ).loc main_arg0)
abbrev x1 : FVec Ideal S32x1024 .f32 := m ((c : Thread nD τ).loc main_arg1)
abbrev x2 : FVec Ideal S51x51 .f32 := m ((c : Thread nD τ).loc main_arg2)
abbrev x3 : FVec Ideal S1 .f32 := m ((c : Thread nD τ).loc main_arg3)
/-- The excitation table and the decay rate: softplus of the raw ones. -/
abbrev A (u t : Fin 51) : EReal := Hawkes.softplus (x2 m c (ix2 u t))
abbrev ω : EReal := Hawkes.softplus (x3 m c (ix1 (0 : Fin 1)))

/-- The four arrays the region reads, from the arguments. -/
theorem V_arrays :
    (Fr.V m c main_v12 : FVec Ideal S128x128 .f32) = tabV (x3 m c) (x2 m c)
    ∧ (Fr.V m c main_v15 : FVec Ideal S32x1024x1 .f32) = colV (x3 m c) (x1 m c)
    ∧ (Fr.V m c main_v16 : FVec Ideal S32x1x1024 .f32) = rowV (x3 m c) (x1 m c)
    ∧ (Fr.V m c main_v17 : IVec S32x1024x1 32) = twV (x0 m c) :=
  pre_arrays (fun b => m (c, b))

/-- The row sum depends only on its four operands. -/
theorem kernelRaw_congr {a a' : Fin 128 → Fin 128 → EReal} {sc sc' sr sr' : Fin 1024 → EReal} {tw tw' : Fin 1024 → BitVec 32}
    (ha : a = a') (hsc : sc = sc') (hsr : sr = sr') (htw : tw = tw') (i : Fin 1024) :
    Hawkes.kernelRaw a sc sr tw i = Hawkes.kernelRaw a' sc' sr' tw' i := by
  subst ha hsc hsr htw; rfl

/-- The output array at row `b`, position `i`, given what the body's payload computes at a position (`hpay`). -/
theorem out_apply_of
    (hpay : ∀ (a : Vec Ideal S128x128 .f32) (sc : Vec Ideal S1x1024x1 .f32) (sr : Vec Ideal S1x1x1024 .f32) (tc : Vec Ideal S1x1024x1 .i32) (i : Fin 1024),
      k0_pay1 (F := Ideal) a sc sr tc (ix3 (0 : Fin 1) (0 : Fin 1) i) = Hawkes.kernelRaw (fun u t => a (ix2 u t)) (fun l => sc (ix3 (0 : Fin 1) l (0 : Fin 1))) (fun l => sr (ix3 (0 : Fin 1) (0 : Fin 1) l)) (fun l => tc (ix3 (0 : Fin 1) l (0 : Fin 1))) i)
    (b : Fin 32) (i : Fin 1024) :
    (Fr.dats m 0 c).arrAt 4 cfg0.N (ix3 b (0 : Fin 1) i)
      = Hawkes.kernelRaw (fun u t => ω m c * Hawkes.padA (A m c) u t) (fun l => ω m c * x1 m c (ix2 b l)) (fun l => ω m c * x1 m c (ix2 b l))
          (fun l => x0 m c (ix2 b l)) i := by
  obtain ⟨h12, h15, h16, h17⟩ := V_arrays m c
  refine (congrFun (final m c) (ix3 b (0 : Fin 1) i)).trans ?_
  show k0_pay1 (F := Ideal) (Fr.V m c main_v12) (fun j => Fr.V m c main_v15 (ix3 b (j 1) (j 2))) (fun j => Fr.V m c main_v16 (ix3 b (j 1) (j 2)))
      (fun j => Fr.V m c main_v17 (ix3 b (j 1) (j 2))) (ix3 (0 : Fin 1) (0 : Fin 1) i) = _
  refine (hpay _ _ _ _ i).trans ?_
  refine kernelRaw_congr ?_ ?_ ?_ ?_ i
  · funext u t
    exact (congrFun h12 (ix2 u t)).trans (tabV_apply _ _ u t)
  · funext l
    exact (congrFun h15 (ix3 b l (0 : Fin 1))).trans (colV_apply _ _ b l)
  · funext l
    exact (congrFun h16 (ix3 b (0 : Fin 1) l)).trans (rowV_apply _ _ b l)
  · funext l
    exact (congrFun h17 (ix3 b l (0 : Fin 1))).trans (twV_apply _ b l)

/-- THE OUTPUT ARRAY at row `b`, position `i`: the kernel's row sum of the scaled, padded table, of row `b`'s scaled times
    (as the column and as the row operand) and of row `b`'s type words. -/
theorem out_apply (b : Fin 32) (i : Fin 1024) :
    (Fr.dats m 0 c).arrAt 4 cfg0.N (ix3 b (0 : Fin 1) i)
      = Hawkes.kernelRaw (fun u t => ω m c * Hawkes.padA (A m c) u t) (fun l => ω m c * x1 m c (ix2 b l)) (fun l => ω m c * x1 m c (ix2 b l))
          (fun l => x0 m c (ix2 b l)) i :=
  out_apply_of m c Pay.pay_apply b i

/-- info: 'Cert.KernelIdeal.KVal.out_apply' depends on axioms: [propext, Classical.choice, Quot.sound] -/
#guard_msgs in #print axioms out_apply

end Cert.KernelIdeal.KVal

end
-- ==== Proof.RefAg.lean ====
/-
  The reference's excitation sum, read at an index.

  Row (b, r) of the reference's sum is Σ_j term (b, r, j) over the 1024 events j of batch row b, for event i = r + 1:
  term = 0 where the mask holds (j not strictly earlier than i, or either event's type is the padding type 0), and
  otherwise (softplus table at (type i, type j)) · (ω · exp (−ω · (time i − time j))), ω the softplus of the rate.
  The mask is an "or" of three bits: the upper triangle (row − 1 ≥ column fails, i.e. row ≤ column), and the two
  padding tests. The time gap is itself masked by the same three bits over the full square and then cut to the rows
  1 … 1023, so off the mask it is the plain difference. The table entry is a two-index gather whose start indices are
  the two types, each passed through "add 51 if negative" (the identity on 0 … 50) and clamped into 0 … 50 (again the
  identity there).
-/
import proofs.«414441_j14216341750039_3_alg».proof.Proof.RefRead
import proofs.«414441_j14216341750039_3_alg».proof.Proof.Spec
import proofs.«414441_j14216341750039_3_alg».proof.Proof.SoftAt
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefAg

open Cert.ReferenceIdeal Cert.ReferenceIdeal.Read Idealize.ShloMosaic Idealize.ShloMosaic.ValueIdx

/-! ## The two softplus tables -/

theorem ahat_apply (x2 : (⟨S51x51, .f32⟩ : BufTy).Contents (Elt Ideal)) (u t : Fin 51) :
    val_main_v1 (F := Ideal) x2 (ix2 u t) = Hawkes.softplus (x2 (ix2 u t)) := by
  unfold val_main_v1 val_main_call1_v4 val_main_call1_v6 val_main_call1_v11 val_main_call1_v1 val_main_call1_v10
    val_main_call1_v9 val_main_call1_v8 val_main_call1_v7 val_main_call1_v3 val_main_call1_v0 val_main_call1_v2
    val_main_call1_v5 val_main_call1_cst
  exact Hawkes.softplus_chain_apply _ x2 _

theorem omega_apply (x3 : (⟨S1, .f32⟩ : BufTy).Contents (Elt Ideal)) :
    val_main_v2 (F := Ideal) x3 (ix1 (0 : Fin 1)) = Hawkes.softplus (x3 (ix1 (0 : Fin 1))) := by
  unfold val_main_v2 val_main_call2_v4 val_main_call2_v6 val_main_call2_v11 val_main_call2_v1 val_main_call2_v10
    val_main_call2_v9 val_main_call2_v8 val_main_call2_v7 val_main_call2_v3 val_main_call2_v0 val_main_call2_v2
    val_main_call2_v5 val_main_call2_cst
  exact Hawkes.softplus_chain_apply _ x3 _

/-! ## Words -/

/-- The test "word = 0" as a bit. -/
theorem cmpi_eq_zero_ite (w : BitVec 32) : IntOp.cmpi .eq w 0#32 = if w = 0#32 then 1#1 else 0#1 := by
  by_cases h : w = 0#32
  · rw [if_pos h, StableHlo.Predicate.cmpi_eq_iff]; exact h
  · rw [if_neg h]
    exact eq_zero_of_ne_one (fun e => h (StableHlo.Predicate.cmpi_eq_iff.1 e))

/-- Adding the all-ones word is subtracting one. -/
theorem addi_allOnes (x : BitVec 32) : IntOp.addi x 4294967295#32 = x - 1#32 := by
  have h : (4294967295#32 : BitVec 32) = -1#32 := by simp
  show x + 4294967295#32 = x - 1#32
  rw [h, ← BitVec.sub_eq_add_neg]

/-- The upper-triangle test as the program spells it: row − 1 ≥ column (signed) exactly when column < row. -/
theorem triu_word (i j : Nat) (hi : i < 1024) (hj : j < 1024) :
    IntOp.cmpi .sge (IntOp.addi (BitVec.ofNat 32 i) 4294967295#32) (BitVec.ofNat 32 j) = 1#1 ↔ j + 1 ≤ i := by
  rw [addi_allOnes]
  rcases Nat.eq_zero_or_pos i with h0 | hpos
  · subst h0
    have hm : (BitVec.ofNat 32 0 - 1#32).toInt = -1 := by simp
    have hj' : (BitVec.ofNat 32 j).toInt = j := StableHlo.Predicate.toInt_ofNat_small j (by omega)
    unfold IntOp.cmpi
    rw [StableHlo.Predicate.ofBool_eq_one_iff]
    show (BitVec.ofNat 32 j).sle (BitVec.ofNat 32 0 - 1#32) = true ↔ _
    rw [BitVec.sle_iff_toInt_le, hm, hj']
    omega
  · rw [StableHlo.Predicate.sub_one_ofNat i hpos (by omega)]
    unfold IntOp.cmpi
    show BitVec.ofBool ((BitVec.ofNat 32 j).sle (BitVec.ofNat 32 (i - 1))) = 1#1 ↔ _
    rw [StableHlo.Predicate.sle_ofNat_iff j (i - 1) (by omega) (by omega)]
    omega

/-- Three bits joined by "or", each given as a decided proposition. -/
theorem ori3_ite (p q r : Prop) [Decidable p] [Decidable q] [Decidable r] :
    IntOp.ori (IntOp.ori (if p then 1#1 else 0#1) (if q then 1#1 else 0#1)) (if r then 1#1 else (0#1 : BitVec 1))
      = if p ∨ q ∨ r then 1#1 else 0#1 := by
  by_cases hp : p <;> by_cases hq : q <;> by_cases hr : r <;> simp [hp, hq, hr, IntOp.ori]

/-- A select on a decided bit is the "if". -/
theorem select_ite {α : Type} (c : Prop) [Decidable c] (a b : α) :
    Scalar.select (if c then 1#1 else 0#1) a b = if c then a else b := by
  by_cases h : c
  · rw [if_pos h, if_pos h, select_one]
  · rw [if_neg h, if_neg h, select_zero]

/-- A word in 0 … 50 is not negative as a signed number. -/
theorem slt_zero_of_small (w : BitVec 32) (h : w.toNat < 51) : IntOp.cmpi .slt w 0#32 = 0#1 := by
  refine eq_zero_of_ne_one (fun e => ?_)
  have h0 : (0#32 : BitVec 32).toNat = 0 := by simp
  have := (StableHlo.Predicate.slt_iff_toNat (a := w) (b := 0#32) (by omega) (by omega)).1 e
  omega

/-- A word in 0 … 50, read signed and clamped into 0 … 50, is itself (and its own residue modulo 51). -/
theorem clamp_small (w : BitVec 32) (h : w.toNat < 51) : min w.toInt.toNat 50 = w.toNat % 51 := by
  have e := StableHlo.Predicate.toInt_eq_toNat_of_lt (a := w) (by omega)
  rw [Nat.mod_eq_of_lt h]
  omega
/-! ## The masks -/

section
variable (x0 : (⟨S32x1024, .i32⟩ : BufTy).Contents (Elt Ideal))

/-- The padding test at an event. -/
theorem pad_apply (b : Fin 32) (l : Fin 1024) :
    val_main_v6 (F := Ideal) x0 (ix2 b l) = if x0 (ix2 b l) = 0#32 then 1#1 else 0#1 := by
  rw [val_main_v6_apply, val_main_v5_apply, val_main_c_0_apply]
  exact cmpi_eq_zero_ite _

/-- The upper triangle (diagonal included) at an entry. -/
theorem triu_apply (i j : Fin 1024) :
    val_main_v4 (F := Ideal) (ix2 i j) = if i.val ≤ j.val then 1#1 else 0#1 := by
  rw [val_main_v4_apply, val_main_call3_v4_apply, val_main_call3_v2_apply, val_main_call3_v0_apply,
    val_main_call3_v1_apply, val_main_call3_c_apply, val_main_call3_v3_apply, val_main_call3_v5_apply,
    val_main_call3_c_0_apply, val_main_v3_apply, val_main_c_apply]
  show Scalar.select (IntOp.cmpi .sge (IntOp.addi (BitVec.ofNat 32 i.val) 4294967295#32) (BitVec.ofNat 32 j.val)) 0#1 1#1 = _
  by_cases h : i.val ≤ j.val
  · have hz : IntOp.cmpi .sge (IntOp.addi (BitVec.ofNat 32 i.val) 4294967295#32) (BitVec.ofNat 32 j.val) = 0#1 :=
      eq_zero_of_ne_one (fun e => by have := (triu_word i.val j.val i.isLt j.isLt).1 e; omega)
    rw [if_pos h, hz, select_zero]
  · rw [if_neg h, (triu_word i.val j.val i.isLt j.isLt).2 (by omega), select_one]

/-- The three-way mask over the full square: entry (b, i, j). -/
theorem mask19_apply (b : Fin 32) (i j : Fin 1024) :
    val_main_v19 (F := Ideal) x0 (ix3 b i j)
      = if i.val ≤ j.val ∨ x0 (ix2 b i) = 0#32 ∨ x0 (ix2 b j) = 0#32 then 1#1 else 0#1 := by
  rw [val_main_v19_apply, val_main_v16_apply, val_main_v14_apply, val_main_v12_apply, val_main_v15_apply,
    val_main_v13_apply, val_main_v18_apply, val_main_v17_apply]
  have e1 : idx_main_v12 (idx_main_v14 (ix3 b i j)) = ix2 i j := by
    funext a; match a with | ⟨0, _⟩ => rfl | ⟨1, _⟩ => rfl
  have e2 : idx_main_v13 (idx_main_v15 (ix3 b i j)) = ix2 b i := by
    funext a; match a with | ⟨0, _⟩ => rfl | ⟨1, _⟩ => rfl
  have e3 : idx_main_v17 (idx_main_v18 (ix3 b i j)) = ix2 b j := by
    funext a; match a with | ⟨0, _⟩ => rfl | ⟨1, _⟩ => rfl
  rw [e1, e2, e3, triu_apply, pad_apply, pad_apply]
  exact ori3_ite _ _ _

/-- The three-way mask over the rows 1 … 1023: entry (b, r, j) tests row r + 1. -/
theorem mask59_apply (b : Fin 32) (r : Fin 1023) (j : Fin 1024) :
    val_main_v59 (F := Ideal) x0 (ix3 b r j)
      = if r.val + 1 ≤ j.val ∨ x0 (ix2 b ⟨r.val + 1, by omega⟩) = 0#32 ∨ x0 (ix2 b j) = 0#32 then 1#1 else 0#1 := by
  rw [val_main_v59_apply, val_main_v56_apply, val_main_v54_apply, val_main_v51_apply, val_main_v50_apply,
    val_main_v55_apply, val_main_v53_apply, val_main_v52_apply, val_main_v58_apply, val_main_v57_apply]
  have e1 : idx_main_v50 (idx_main_v51 (idx_main_v54 (ix3 b r j))) = ix2 (⟨r.val + 1, by omega⟩ : Fin 1024) j := by
    funext a; match a with
    | ⟨0, _⟩ => exact Fin.ext (Nat.add_comm 1 r.val)
    | ⟨1, _⟩ => rfl
  have e2 : idx_main_v52 (idx_main_v53 (idx_main_v55 (ix3 b r j))) = ix2 b (⟨r.val + 1, by omega⟩ : Fin 1024) := by
    funext a; match a with
    | ⟨0, _⟩ => rfl
    | ⟨1, _⟩ => exact Fin.ext (Nat.add_comm 1 r.val)
  have e3 : idx_main_v57 (idx_main_v58 (ix3 b r j)) = ix2 b j := by
    funext a; match a with | ⟨0, _⟩ => rfl | ⟨1, _⟩ => rfl
  rw [e1, e2, e3, triu_apply, pad_apply, pad_apply]
  exact ori3_ite _ _ _

end

/-! ## The time gaps, the kernel and the gathered table entry -/

section
variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))

/-- The masked time gap at (b, r, j): zero where the mask holds, else time[b, r+1] − time[b, j]. -/
theorem dt_apply (b : Fin 32) (r : Fin 1023) (j : Fin 1024) :
    val_main_v21 (F := Ideal) x0 x1 (ix3 b r j)
      = if r.val + 1 ≤ j.val ∨ x0 (ix2 b ⟨r.val + 1, by omega⟩) = 0#32 ∨ x0 (ix2 b j) = 0#32 then (0 : EReal)
        else x1 (ix2 b ⟨r.val + 1, by omega⟩) - x1 (ix2 b j) := by
  rw [val_main_v21_apply, val_main_v20_apply, val_main_call4_v1_apply, val_main_call4_v0_apply, val_main_cst_apply,
    val_main_v11_apply, val_main_v9_apply, val_main_v7_apply, val_main_v10_apply, val_main_v8_apply]
  have e0 : idx_main_v21 (ix3 b r j) = ix3 b (⟨r.val + 1, by omega⟩ : Fin 1024) j := by
    funext a; match a with
    | ⟨0, _⟩ => rfl
    | ⟨1, _⟩ => exact Fin.ext (Nat.add_comm 1 r.val)
    | ⟨2, _⟩ => rfl
  rw [e0]
  have e1 : idx_main_v7 (idx_main_v9 (ix3 b (⟨r.val + 1, by omega⟩ : Fin 1024) j)) = ix2 b (⟨r.val + 1, by omega⟩ : Fin 1024) := by
    funext a; match a with | ⟨0, _⟩ => rfl | ⟨1, _⟩ => rfl
  have e2 : idx_main_v8 (idx_main_v10 (ix3 b (⟨r.val + 1, by omega⟩ : Fin 1024) j)) = ix2 b j := by
    funext a; match a with | ⟨0, _⟩ => rfl | ⟨1, _⟩ => rfl
  rw [e1, e2, mask19_apply, select_ite, Ideal.ofBits_def, Ideal.ofBits_zero_f32]
  rfl

/-- The exponential kernel at (b, r, j): ω · exp (−ω · gap), ω the softplus of the one entry of the rate input. -/
theorem kern_apply (b : Fin 32) (r : Fin 1023) (j : Fin 1024) :
    val_main_v29 (F := Ideal) x0 x1 x3 (ix3 b r j)
      = val_main_v2 (F := Ideal) x3 (ix1 (0 : Fin 1))
          * Ideal.exp (-(val_main_v2 (F := Ideal) x3 (ix1 (0 : Fin 1))) * val_main_v21 (F := Ideal) x0 x1 (ix3 b r j)) := by
  rw [val_main_v29_apply, val_main_v28_apply, val_main_v27_apply, val_main_v26_apply, val_main_v25_apply,
    val_main_v24_apply, val_main_v23_apply, val_main_v22_apply]
  have e1 : idx_main_v27 (idx_main_v28 (ix3 b r j)) = ix1 (0 : Fin 1) := by
    funext a; match a with | ⟨0, _⟩ => rfl
  have e2 : idx_main_v23 (idx_main_v24 (ix3 b r j)) = ix1 (0 : Fin 1) := by
    funext a; match a with | ⟨0, _⟩ => rfl
  rw [e1, e2]
  rfl

/-- The first start index at (b, r, j): the type of event r + 1. -/
theorem start0_apply (htw : ∀ i : S32x1024.Idx, (x0 i).toNat < 51) (b : Fin 32) (r : Fin 1023) (j : Fin 1024) :
    val_main_v47 (F := Ideal) x0 (ix4 b r j (0 : Fin 2)) = x0 (ix2 b ⟨r.val + 1, by omega⟩) := by
  unfold val_main_v47
  refine (concatenate_pair_apply_left (t := S32x1023x1024x2) (s₁ := S32x1023x1024x1) (s₂ := S32x1023x1024x1) 3
    (val_main_v45 (F := Ideal) x0) (val_main_v46 (F := Ideal) x0) _ (ix4 b r j (0 : Fin 2)) rfl (ix4 b r j (0 : Fin 1))
    (fun c => ?_)).trans ?_
  · match c with
    | ⟨0, _⟩ => rfl
    | ⟨1, _⟩ => rfl
    | ⟨2, _⟩ => rfl
    | ⟨3, _⟩ => rfl
  · rw [val_main_v45_apply, val_main_v43_apply, val_main_v37_apply, val_main_v34_apply, val_main_v31_apply,
      val_main_v30_apply, val_main_v33_apply, val_main_c_1_apply]
    have e : idx_main_v30 (idx_main_v31 (idx_main_v43 (idx_main_v45 (ix4 b r j (0 : Fin 1)))))
        = ix2 b (⟨r.val + 1, by omega⟩ : Fin 1024) := by
      funext a; match a with
      | ⟨0, _⟩ => rfl
      | ⟨1, _⟩ => exact Fin.ext (Nat.add_comm 1 r.val)
    rw [e, slt_zero_of_small _ (htw _), select_zero]

/-- The second start index at (b, r, j): the type of event j. -/
theorem start1_apply (htw : ∀ i : S32x1024.Idx, (x0 i).toNat < 51) (b : Fin 32) (r : Fin 1023) (j : Fin 1024) :
    val_main_v47 (F := Ideal) x0 (ix4 b r j (1 : Fin 2)) = x0 (ix2 b j) := by
  unfold val_main_v47
  refine (concatenate_pair_apply_right (t := S32x1023x1024x2) (s₁ := S32x1023x1024x1) (s₂ := S32x1023x1024x1) 3
    (val_main_v45 (F := Ideal) x0) (val_main_v46 (F := Ideal) x0) _ (ix4 b r j (1 : Fin 2)) rfl rfl (ix4 b r j (0 : Fin 1))
    (fun c hc => ?_) rfl).trans ?_
  · match c with
    | ⟨0, _⟩ => rfl
    | ⟨1, _⟩ => rfl
    | ⟨2, _⟩ => rfl
    | ⟨3, _⟩ => exact absurd rfl hc
  · rw [val_main_v46_apply, val_main_v44_apply, val_main_v42_apply, val_main_v39_apply, val_main_v32_apply,
      val_main_v38_apply, val_main_c_3_apply]
    have e : idx_main_v32 (idx_main_v44 (idx_main_v46 (ix4 b r j (0 : Fin 1)))) = ix2 b j := by
      funext a; match a with | ⟨0, _⟩ => rfl | ⟨1, _⟩ => rfl
    rw [e, slt_zero_of_small _ (htw _), select_zero]

end

/-! ## The gather, the term and the sum -/

section
variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))

/-- The gather's dimension numbers, under a short name. -/
private abbrev GD : GatherDims S51x51 S32x1023x1024x2 S32x1023x1024 :=
  gather_S51x51_S32x1023x1024x2_S32x1023x1024_n_01_n_n_01_3_11

/-- The start-indices index at which the gather reads component c of its start index, at result index (b, r, j). -/
theorem siIdx_apply (b : Fin 32) (r : Fin 1023) (j : Fin 1024) (c : Fin 2) (k : Fin GD.startIndexMap.length)
    (hk : k.val = c.val) : GD.siIdx (ix3 b r j) k = ix4 b r j c := by
  funext e; refine Fin.ext ?_
  match e with
  | ⟨0, _⟩ => rfl
  | ⟨1, _⟩ => rfl
  | ⟨2, _⟩ => rfl
  | ⟨3, _⟩ => exact hk

/-- The two-index gather at (b, r, j): the softplus table at (type of event r + 1, type of event j). -/
theorem gather_apply (htw : ∀ i : S32x1024.Idx, (x0 i).toNat < 51) (b : Fin 32) (r : Fin 1023) (j : Fin 1024) :
    val_main_v48 (F := Ideal) x0 x2 (ix3 b r j)
      = val_main_v1 (F := Ideal) x2
          (ix2 (Hawkes.tyIx (x0 (ix2 b ⟨r.val + 1, by omega⟩))) (Hawkes.tyIx (x0 (ix2 b j)))) := by
  unfold val_main_v48 Host.gather
  refine congrArg (val_main_v1 (F := Ideal) x2) (funext fun a => Fin.ext ?_)
  match a with
  | ⟨0, h0⟩ =>
    show GD.start (ix3 b r j) (val_main_v47 (F := Ideal) x0) ⟨0, h0⟩ + GD.batchCoord (ix3 b r j) ⟨0, h0⟩
        + GD.offCoord (ix3 b r j) ⟨0, h0⟩ = (Hawkes.tyIx (x0 (ix2 b ⟨r.val + 1, by omega⟩))).val
    rw [GatherDims.batchCoord_eq_zero GD _ _ List.not_mem_nil,
      GatherDims.offCoord_eq_zero GD (ix3 b r j) ⟨0, h0⟩ (fun h => ((GatherDims.mem_sKept GD _).mp h).1 List.mem_cons_self)]
    simp only [Nat.add_zero]
    unfold GatherDims.start
    rw [dif_pos (show (⟨0, h0⟩ : Fin S51x51.rank) ∈ GD.startIndexMap from List.mem_cons_self)]
    have hsi := siIdx_apply b r j (0 : Fin 2) ⟨List.idxOf (⟨0, h0⟩ : Fin S51x51.rank) GD.startIndexMap,
      List.idxOf_lt_length_iff.2 List.mem_cons_self⟩ rfl
    rw [hsi, start0_apply x0 htw b r j]
    exact clamp_small _ (htw _)
  | ⟨1, h1⟩ =>
    show GD.start (ix3 b r j) (val_main_v47 (F := Ideal) x0) ⟨1, h1⟩ + GD.batchCoord (ix3 b r j) ⟨1, h1⟩
        + GD.offCoord (ix3 b r j) ⟨1, h1⟩ = (Hawkes.tyIx (x0 (ix2 b j))).val
    rw [GatherDims.batchCoord_eq_zero GD _ _ List.not_mem_nil,
      GatherDims.offCoord_eq_zero GD (ix3 b r j) ⟨1, h1⟩ (fun h => ((GatherDims.mem_sKept GD _).mp h).1
        (List.mem_cons_of_mem _ List.mem_cons_self))]
    simp only [Nat.add_zero]
    unfold GatherDims.start
    rw [dif_pos (show (⟨1, h1⟩ : Fin S51x51.rank) ∈ GD.startIndexMap from List.mem_cons_of_mem _ List.mem_cons_self)]
    have hsi := siIdx_apply b r j (1 : Fin 2) ⟨List.idxOf (⟨1, h1⟩ : Fin S51x51.rank) GD.startIndexMap,
      List.idxOf_lt_length_iff.2 (List.mem_cons_of_mem _ List.mem_cons_self)⟩ rfl
    rw [hsi, start1_apply x0 htw b r j]
    exact clamp_small _ (htw _)

/-- Term j of row (b, r): zero where the mask holds, else table entry times kernel. -/
theorem term_apply (htw : ∀ i : S32x1024.Idx, (x0 i).toNat < 51) (b : Fin 32) (r : Fin 1023) (j : Fin 1024) :
    val_main_v60 (F := Ideal) x0 x1 x2 x3 (ix3 b r j)
      = if r.val + 1 ≤ j.val ∨ x0 (ix2 b ⟨r.val + 1, by omega⟩) = 0#32 ∨ x0 (ix2 b j) = 0#32 then (0 : EReal)
        else val_main_v1 (F := Ideal) x2
              (ix2 (Hawkes.tyIx (x0 (ix2 b ⟨r.val + 1, by omega⟩))) (Hawkes.tyIx (x0 (ix2 b j))))
            * (val_main_v2 (F := Ideal) x3 (ix1 (0 : Fin 1))
                * Ideal.exp (-(val_main_v2 (F := Ideal) x3 (ix1 (0 : Fin 1)))
                    * (x1 (ix2 b ⟨r.val + 1, by omega⟩) - x1 (ix2 b j)))) := by
  rw [val_main_v60_apply, mask59_apply, select_ite]
  by_cases hd : r.val + 1 ≤ j.val ∨ x0 (ix2 b ⟨r.val + 1, by omega⟩) = 0#32 ∨ x0 (ix2 b j) = 0#32
  · rw [if_pos hd, if_pos hd, val_main_call5_v1_apply, val_main_call5_v0_apply, val_main_cst_5_apply,
      Ideal.ofBits_def, Ideal.ofBits_zero_f32]
  · rw [if_neg hd, if_neg hd, val_main_v49_apply, gather_apply x0 x2 htw, kern_apply, dt_apply, if_neg hd]
    rfl

/-- THE EXCITATION SUM of row (b, r) of the reference: the masked sum over the earlier events of event r + 1. -/
theorem ag_apply (htw : ∀ i : S32x1024.Idx, (x0 i).toNat < 51) (b : Fin 32) (r : Fin 1023) :
    val_main_v61 (F := Ideal) x0 x1 x2 x3 (ix2 b r)
      = Hawkes.refRaw (fun u t => val_main_v1 (F := Ideal) x2 (ix2 u t)) (val_main_v2 (F := Ideal) x3 (ix1 (0 : Fin 1)))
          (fun l => x0 (ix2 b l)) (fun l => x1 (ix2 b l)) ⟨r.val + 1, by omega⟩ := by
  rw [val_main_v61_apply, val_main_cst_6_apply, Ideal.ofBits_def, Ideal.ofBits_zero_f32, zero_add]
  unfold Hawkes.refRaw
  refine Finset.sum_congr rfl fun j _ => ?_
  have e : idx_main_v61 (ix2 b r) j = ix3 b r j := by
    funext a; match a with | ⟨0, _⟩ => rfl | ⟨1, _⟩ => rfl | ⟨2, _⟩ => rfl
  rw [e, term_apply x0 x1 x2 x3 htw b r j]

end

end Cert.ReferenceIdeal.RefAg

end
-- ==== Proof.RTail.lean ====
/-
  The reference's last operations are the kernel program's.

  After its excitation sums (`val_main_v61`) the reference computes the negative log-likelihood by the same chain of
  host operations as the kernel's program after its region (`KTail.nllOf`): the same maximum of the times, the same
  sums of softplus mu and of the columns of softplus alpha, the same gathers by type, masks, logarithm and sums. The
  one difference in spelling is the scalar ω: the reference keeps softplus beta as a one-element vector, negates it
  and broadcasts it through shape [1, 1]; the kernel's program reshapes it to a scalar first. Entry by entry both
  are −ω (`neg_omega_bcast`).
-/
import proofs.«414441_j14216341750039_3_alg».proof.Proof.RefRead
import proofs.«414441_j14216341750039_3_alg».proof.Proof.KTail
import Idealize.ShloMosaic.Lib.ValueIdx
import Idealize.ShloMosaic.Lib.Pipeline.Value

noncomputable section

namespace Cert.ReferenceIdeal.RTail

open Cert.ReferenceIdeal Cert.ReferenceIdeal.Read Idealize.ShloMosaic Idealize.ShloMosaic.ValueIdx

/-- −ω over batch × events, as the reference broadcasts it, is the kernel program's broadcast of the negated scalar. -/
theorem neg_omega_bcast (x3 : (⟨S1, .f32⟩ : BufTy).Contents (Elt Ideal)) :
    (val_main_v85 (F := Ideal) x3 : FVec Ideal Cert.KernelIdeal.S32x1024 .f32)
      = broadcastInDim Cert.KernelIdeal.S32x1024 ![] Cert.KernelIdeal.Facts₀.bcast_S_S32x1024
          (Host.negf (F := Ideal) (φ := .f32) (shapeCast Cert.KernelIdeal.S_ (val_main_v2 (F := Ideal) x3 : FVec Ideal Cert.KernelIdeal.S1 .f32)
            Cert.KernelIdeal.Facts₀.shapeCasts_S1_S_)) := by
  funext i
  rw [val_main_v85_apply, val_main_v84_apply, val_main_v80_apply,
    broadcastInDim_apply _ Cert.KernelIdeal.Facts₀.bcast_S_S32x1024 _ i ix0 (fun a => a.elim0)]
  show FloatOps.hostNegf _ = FloatOps.hostNegf _
  rw [shapeCast_apply (val_main_v2 (F := Ideal) x3 : FVec Ideal Cert.KernelIdeal.S1 .f32) Cert.KernelIdeal.Facts₀.shapeCasts_S1_S_ ix0 (idx_main_v84 (idx_main_v85 i)) rfl]

set_option maxRecDepth 100000 in
set_option maxHeartbeats 4000000 in
/-- The reference's result is the common chain applied to its own excitation sums. -/
theorem result_eq (x0 : (⟨S32x1024, .i32⟩ : BufTy).Contents (Elt Ideal)) (x1 : (⟨S32x1024, .f32⟩ : BufTy).Contents (Elt Ideal))
    (x2 : (⟨S51x51, .f32⟩ : BufTy).Contents (Elt Ideal)) (x3 : (⟨S1, .f32⟩ : BufTy).Contents (Elt Ideal))
    (x4 : (⟨S51, .f32⟩ : BufTy).Contents (Elt Ideal)) :
    val_main_v106 (F := Ideal) x0 x1 x2 x3 x4
      = Cert.KernelIdeal.KTail.nllOf x0 x1 (val_main_v0 (F := Ideal) x4) (val_main_v1 (F := Ideal) x2) (val_main_v85 (F := Ideal) x3)
          (val_main_v61 (F := Ideal) x0 x1 x2 x3) := by
  rfl

end Cert.ReferenceIdeal.RTail

end
-- ==== Proof.PreFacts.lean ====
/-
  The precondition `finite_inputs`, read back at the ideal instance. The printed predicate is a conjunction of seven
  `all`-reductions: four "every entry has absolute value below +∞" (so every float entry is a real), two signed range
  checks on the integer input (0 ≤ x and x < 51, so each word is one of 0 … 50), and one comparison of each row of
  the time input with itself shifted by one column (so each row is nondecreasing).
-/
import proofs.«414441_j14216341750039_3_alg».proof.Pre_finite_inputs
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

variable [Cert.Pre_finite_inputs.Facts]

/-- The rank-0 shape has one index. -/
local instance : Subsingleton S_.Idx := ⟨fun a b => funext fun d => d.elim0⟩

/-! ## Scalars -/

/-- An extended real whose absolute value `max x (-x)` is strictly below the f32 pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A 32-bit word that is at least 0 and below 51 as a signed number is below 51 as an unsigned one. -/
theorem toNat_lt_of_signed (w : BitVec 32) (h0 : IntOp.cmpi .sge w 0#32 = 1#1) (h1 : IntOp.cmpi .slt w 51#32 = 1#1) :
    w.toNat < 51 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have f : (51#32 : BitVec 32).toInt = 51 := by decide
  rw [z] at h0
  rw [f] at h1
  rw [BitVec.toInt_eq_toNat_cond] at h0 h1
  have hw := w.isLt
  split at h0 <;> omega

/-- The ideal `≥` comparison that came out 1 is the order of the extended reals. -/
theorem le_of_oge (a b : EReal) (h : Ideal.cmp .oge a b = 1#1) : b ≤ a := by
  unfold Ideal.cmp at h
  rw [StableHlo.Predicate.ofBool_eq_one_iff] at h
  exact of_decide_eq_true h

/-! ## The conjunction, split into its seven element facts -/

section
variable (x0 : IVec S32x1024 32) (x1 : FVec Ideal S32x1024 .f32) (x2 : FVec Ideal S51x51 .f32) (x3 : FVec Ideal S1 .f32)
  (x4 : FVec Ideal S51 .f32) (h : Cert.Pre_finite_inputs.fn (F := Ideal) x0 x1 x2 x3 x4 = fun _ => 1#1)

include h in
private theorem split :
    (∀ i : S32x1024.Idx, Ideal.cmp .olt (max (x1 i) (-(x1 i))) (Ideal.ofBits .f32 0x7F800000#32) = 1#1)
    ∧ (∀ i : S51x51.Idx, Ideal.cmp .olt (max (x2 i) (-(x2 i))) (Ideal.ofBits .f32 0x7F800000#32) = 1#1)
    ∧ (∀ i : S1.Idx, Ideal.cmp .olt (max (x3 i) (-(x3 i))) (Ideal.ofBits .f32 0x7F800000#32) = 1#1)
    ∧ (∀ i : S51.Idx, Ideal.cmp .olt (max (x4 i) (-(x4 i))) (Ideal.ofBits .f32 0x7F800000#32) = 1#1)
    ∧ (∀ i : S32x1024.Idx, IntOp.cmpi .sge (x0 i) 0#32 = 1#1)
    ∧ (∀ i : S32x1024.Idx, IntOp.cmpi .slt (x0 i) 51#32 = 1#1)
    ∧ (∀ j : S32x1023.Idx, Ideal.cmp .oge
          (extractStridedSlice S32x1023 ![0, 1] x1 Facts.slices_S32x1024_S32x1023_0_1 j)
          (extractStridedSlice S32x1023 ![0, 0] x1 Facts.slices_S32x1024_S32x1023_0_0 j) = 1#1) := by
  have e := congrFun h ValueIdx.ix0
  dsimp only [Cert.Pre_finite_inputs.fn, Cert.Pre_finite_inputs.fn_part1] at e
  simp only [andi, IntOp.andi_eq_one] at e
  obtain ⟨⟨⟨⟨⟨⟨e1, e2⟩, e3⟩, e4⟩, e5⟩, e6⟩, e7⟩ := e
  exact ⟨fun i => Host.reduce_andi_all _ _ _ _ _ e1 i, fun i => Host.reduce_andi_all _ _ _ _ _ e2 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun j => Host.reduce_andi_all _ _ _ _ _ e7 j⟩

end

/-! ## The six facts -/

theorem time_real (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ i : S32x1024.Idx, ∃ r : ℝ, x1 i = (r : EReal) :=
  fun i => real_of_abs_lt _ ((split x0 x1 x2 x3 x4 h).1 i)

theorem alpha_real (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ i : S51x51.Idx, ∃ r : ℝ, x2 i = (r : EReal) :=
  fun i => real_of_abs_lt _ ((split x0 x1 x2 x3 x4 h).2.1 i)

theorem beta_real (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ i : S1.Idx, ∃ r : ℝ, x3 i = (r : EReal) :=
  fun i => real_of_abs_lt _ ((split x0 x1 x2 x3 x4 h).2.2.1 i)

theorem mu_real (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ i : S51.Idx, ∃ r : ℝ, x4 i = (r : EReal) :=
  fun i => real_of_abs_lt _ ((split x0 x1 x2 x3 x4 h).2.2.2.1 i)

theorem type_lt (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ i : S32x1024.Idx, (x0 i).toNat < 51 :=
  fun i => toNat_lt_of_signed _ ((split x0 x1 x2 x3 x4 h).2.2.2.2.1 i) ((split x0 x1 x2 x3 x4 h).2.2.2.2.2.1 i)

/-- Adjacent columns: time[b, k] ≤ time[b, k+1] for k + 1 < 1024. -/
theorem time_step (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1)
    (b : Fin 32) (k : Nat) (hk : k + 1 < 1024) :
    x1 (ix2 b ⟨k, by omega⟩) ≤ x1 (ix2 b ⟨k + 1, hk⟩) := by
  have e := (split x0 x1 x2 x3 x4 h).2.2.2.2.2.2 (ix2 b (⟨k, by omega⟩ : Fin 1023))
  rw [slice2_axis1_apply 1 x1 Facts.slices_S32x1024_S32x1023_0_1 b ⟨k, by omega⟩ ⟨k + 1, hk⟩ (Nat.add_comm k 1),
    slice2_axis1_apply 0 x1 Facts.slices_S32x1024_S32x1023_0_0 b ⟨k, by omega⟩ ⟨k, by omega⟩ (Nat.zero_add k).symm] at e
  exact le_of_oge _ _ e

theorem time_mono (x0 : IVec S32x1024 32) (x1 : FVec Ideal S32x1024 .f32) (x2 : FVec Ideal S51x51 .f32) (x3 : FVec Ideal S1 .f32)
    (x4 : FVec Ideal S51 .f32) (h : Cert.Pre_finite_inputs.fn (F := Ideal) x0 x1 x2 x3 x4 = fun _ => 1#1) :
    ∀ (b : Fin 32) (l : Fin 1024) (l' : Fin 1024), l.val ≤ l'.val → x1 (ix2 b l) ≤ x1 (ix2 b l') := by
  intro b l l' hll
  -- induction on the gap d = l' - l
  have key : ∀ (d : Nat) (hd : l.val + d < 1024), x1 (ix2 b l) ≤ x1 (ix2 b ⟨l.val + d, hd⟩) := by
    intro d
    induction d with
    | zero => intro hd; exact le_refl _
    | succ d ih =>
      intro hd
      exact le_trans (ih (by omega)) (time_step x0 x1 x2 x3 x4 h b (l.val + d) hd)
  have hd : l.val + (l'.val - l.val) < 1024 := by have := l'.isLt; omega
  have e := key (l'.val - l.val) hd
  have : (⟨l.val + (l'.val - l.val), hd⟩ : Fin 1024) = l' := Fin.ext (by show l.val + (l'.val - l.val) = l'.val; omega)
  rw [this] at e
  exact e

end Cert.PreFacts

end
-- ==== Proof.Bridge.lean ====
/-
  The kernel program's result is the reference's.

  The program after its region computes `KTail.nllOf` of the type words, the times, softplus mu, softplus alpha, −ω and
  the region's output array with its first event dropped (`KTail.tail_after`). Before the region the host operations
  only build softplus of the three parameter arrays and the scaled tables the region reads, so the buffers the tail
  reads hold softplus mu, softplus alpha and ω as a scalar; the region's array holds, at batch b and event i, the
  kernel's row sum (`KVal.out_apply`), which under the precondition (types in 0 … 50, times finite and never
  decreasing, alpha and beta finite) is the reference's masked sum (`Hawkes.kernelRaw_eq_refRaw`), the reference's
  `val_main_v61` at (b, i − 1) (`RefAg.ag_apply`). The reference's remaining operations are the same chain
  (`RTail.result_eq`).
-/
import proofs.«414441_j14216341750039_3_alg».proof.Proof.FrameKI
import proofs.«414441_j14216341750039_3_alg».proof.Proof.KTail
import proofs.«414441_j14216341750039_3_alg».proof.Proof.KVal
import proofs.«414441_j14216341750039_3_alg».proof.Proof.RefAg
import proofs.«414441_j14216341750039_3_alg».proof.Proof.RTail
import proofs.«414441_j14216341750039_3_alg».proof.Proof.PreFacts
import proofs.«414441_j14216341750039_3_alg».proof.Proof.Gen.Pre_finite_inputs
import Idealize.ShloMosaic.Lib.ValueIdx
import Idealize.ShloMosaic.Lib.Pipeline.Value

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v0 val_main_v1 val_main_v2 val_main_v61 val_main_v85 val_main_v106)

variable (m : (ℓ : Loc nD τ sig) → Buf (Elt Ideal) ℓ) (c : Dev nD)

/-! ## What the buffers hold when the region is entered -/

set_option maxHeartbeats 4000000 in
set_option maxRecDepth 100000 in
/-- softplus mu, as the reference names it. -/
theorem V_mhat : Fr.V m c main_v0 = val_main_v0 (F := Ideal) (m ((c : Thread nD τ).loc main_arg4)) := by
  dsimp only [Fr.V, Fr.V0, Fr.preOps]
  simp only [hostOps0, hostOps0_1, hostOps0_2, hostOps0_3, hostOps0_4, hostOps0_5, List.flatten_cons, List.flatten_nil,
    List.append_nil, List.cons_append, List.nil_append]
  after_results_simp
  simp only [TRef.ofBuf, TRef.toBuf, cast_eq, id]
  rfl

set_option maxHeartbeats 4000000 in
set_option maxRecDepth 100000 in
/-- softplus alpha, as the reference names it. -/
theorem V_ahat : Fr.V m c main_v1 = val_main_v1 (F := Ideal) (m ((c : Thread nD τ).loc main_arg2)) := by
  dsimp only [Fr.V, Fr.V0, Fr.preOps]
  simp only [hostOps0, hostOps0_1, hostOps0_2, hostOps0_3, hostOps0_4, hostOps0_5, List.flatten_cons, List.flatten_nil,
    List.append_nil, List.cons_append, List.nil_append]
  after_results_simp
  simp only [TRef.ofBuf, TRef.toBuf, cast_eq, id]
  rfl

set_option maxHeartbeats 4000000 in
set_option maxRecDepth 100000 in
/-- ω as a scalar: softplus beta, reshaped. -/
theorem V_omega : Fr.V m c main_v3
    = shapeCast S_ (val_main_v2 (F := Ideal) (m ((c : Thread nD τ).loc main_arg3))) shapeCasts_S1_S_ := by
  dsimp only [Fr.V, Fr.V0, Fr.preOps]
  simp only [hostOps0, hostOps0_1, hostOps0_2, hostOps0_3, hostOps0_4, hostOps0_5, List.flatten_cons, List.flatten_nil,
    List.append_nil, List.cons_append, List.nil_append]
  after_results_simp
  simp only [TRef.ofBuf, TRef.toBuf, cast_eq, id]
  rfl

/-! ## The region's array against the reference's sums -/

/-- Dropping the first event of each row of the region's array gives the reference's excitation sums. -/
theorem ag_eq (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    shapeCast S32x1023 (extractStridedSlice S32x1x1023 ![0, 0, 1] ((Fr.dats m 0 c).arrAt 4 cfg0.N) slices_S32x1x1024_S32x1x1023_0_0_1)
        shapeCasts_S32x1x1023_S32x1023
      = val_main_v61 (F := Ideal) (m ((c : Thread nD τ).loc main_arg0)) (m ((c : Thread nD τ).loc main_arg1))
          (m ((c : Thread nD τ).loc main_arg2)) (m ((c : Thread nD τ).loc main_arg3)) := by
  funext j
  obtain ⟨b, r, rfl⟩ : ∃ (b : Fin 32) (r : Fin 1023), j = ix2 b r := ⟨j 0, j 1, eq_ix2 j⟩
  have htw := Cert.PreFacts.type_lt _ _ _ _ _ hpre
  rw [Cert.ReferenceIdeal.RefAg.ag_apply _ _ _ _ htw b r]
  rw [shapeCast_apply _ shapeCasts_S32x1x1023_S32x1023 (ix2 b r) (ix3 b (0 : Fin 1) r)
      (by rw [Shape.rowMajor_val_three, Shape.rowMajor_val_two]; show (b.val * 1 + 0) * 1023 + r.val = b.val * 1023 + r.val; omega),
    extractStridedSlice_apply ![0, 0, 1] _ slices_S32x1x1024_S32x1x1023_0_0_1 (ix3 b (0 : Fin 1) r)
      (ix3 b (0 : Fin 1) ⟨r.val + 1, by omega⟩)
      (fun a => match a with
        | ⟨0, _⟩ => by show b.val = 0 + b.val; omega
        | ⟨1, _⟩ => by show (0 : Nat) = 0 + 0; rfl
        | ⟨2, _⟩ => by show r.val + 1 = 1 + r.val; omega)]
  rw [KVal.out_apply m c b ⟨r.val + 1, by omega⟩]
  have hA : ∀ u t : Fin 51, ∃ a : ℝ, val_main_v1 (F := Ideal) (m ((c : Thread nD τ).loc main_arg2)) (ix2 u t) = (a : EReal) := fun u t => by
    obtain ⟨a, ha⟩ := Cert.PreFacts.alpha_real _ _ _ _ _ hpre (ix2 u t)
    obtain ⟨w, _, hw⟩ := Hawkes.softplus_real a
    exact ⟨w, by rw [Cert.ReferenceIdeal.RefAg.ahat_apply, ha, hw]⟩
  have hω : ∃ w : ℝ, 0 ≤ w ∧ val_main_v2 (F := Ideal) (m ((c : Thread nD τ).loc main_arg3)) (ix1 (0 : Fin 1)) = (w : EReal) := by
    obtain ⟨a, ha⟩ := Cert.PreFacts.beta_real _ _ _ _ _ hpre (ix1 (0 : Fin 1))
    obtain ⟨w, hw0, hw⟩ := Hawkes.softplus_real a
    exact ⟨w, hw0, by rw [Cert.ReferenceIdeal.RefAg.omega_apply, ha, hw]⟩
  rw [← Hawkes.kernelRaw_eq_refRaw _ _ _ _ hA hω (fun l => htw (ix2 b l))
    (fun l => Cert.PreFacts.time_real _ _ _ _ _ hpre (ix2 b l))
    (fun l l' hl => Cert.PreFacts.time_mono _ _ _ _ _ hpre b l l' hl)]
  simp only [Cert.ReferenceIdeal.RefAg.ahat_apply, Cert.ReferenceIdeal.RefAg.omega_apply]

/-! ## The result -/

/-- The kernel program's result buffer ends at the reference's result term of the same arguments. -/
theorem result_eq (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Pipeline.afterTail₀ cfgs (Fr.dats m) 0 (Fr.V0 m) (Fr.tailOps (F := Ideal)) c main_v66
      = val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  rw [show (Fr.tailOps (F := Ideal)) = [hostOps1, hostOps1_1, hostOps1_2, hostOps1_3, hostOps1_4] from rfl, KTail.tail_after]
  have k0 := Pipeline.withArrays_of_ne (cfgs 0).spec c (Fr.V0 m c) (fun w => (Fr.dats m 0 c).arrAt w (cfgs 0).N) main_arg0
    (by decide : ∀ w, Pipeline.arrRef spec0 w ≠ main_arg0)
  have k1 := Pipeline.withArrays_of_ne (cfgs 0).spec c (Fr.V0 m c) (fun w => (Fr.dats m 0 c).arrAt w (cfgs 0).N) main_arg1
    (by decide : ∀ w, Pipeline.arrRef spec0 w ≠ main_arg1)
  have kv0 := Pipeline.withArrays_of_ne (cfgs 0).spec c (Fr.V0 m c) (fun w => (Fr.dats m 0 c).arrAt w (cfgs 0).N) main_v0
    (by decide : ∀ w, Pipeline.arrRef spec0 w ≠ main_v0)
  have kv1 := Pipeline.withArrays_of_ne (cfgs 0).spec c (Fr.V0 m c) (fun w => (Fr.dats m 0 c).arrAt w (cfgs 0).N) main_v1
    (by decide : ∀ w, Pipeline.arrRef spec0 w ≠ main_v1)
  have kv3 := Pipeline.withArrays_of_ne (cfgs 0).spec c (Fr.V0 m c) (fun w => (Fr.dats m 0 c).arrAt w (cfgs 0).N) main_v3
    (by decide : ∀ w, Pipeline.arrRef spec0 w ≠ main_v3)
  have kv18 := Pipeline.withArrays_arr (cfgs 0).spec launch0.win.arr_inj c (Fr.V0 m c) (fun w => (Fr.dats m 0 c).arrAt w (cfgs 0).N) 4
  rw [k0, k1, kv0, kv1, kv3]
  rw [show Fr.V0 m c (Proc.devRef .tc main_arg0) = m ((c : Thread nD τ).loc main_arg0) from Fr.V_main_arg0 m c,
    show Fr.V0 m c (Proc.devRef .tc main_arg1) = m ((c : Thread nD τ).loc main_arg1) from Fr.V_main_arg1 m c,
    show Fr.V0 m c (Proc.devRef .tc main_v0) = _ from V_mhat m c,
    show Fr.V0 m c (Proc.devRef .tc main_v1) = _ from V_ahat m c,
    show Fr.V0 m c (Proc.devRef .tc main_v3) = _ from V_omega m c]
  rw [show Pipeline.withArrays (cfgs 0).spec c (Fr.V0 m c) (fun w => (Fr.dats m 0 c).arrAt w (cfgs 0).N) (Proc.devRef .tc main_v18)
      = (Fr.dats m 0 c).arrAt 4 cfg0.N from kv18]
  rw [ag_eq m c hpre, ← Cert.ReferenceIdeal.RTail.neg_omega_bcast]
  exact (Cert.ReferenceIdeal.RTail.result_eq _ _ _ _ _).symm

end Cert.KernelIdeal.Bridge

end
-- ==== Proof.RefVal1.lean ====
/-
  The reference's run, first stretch (operations 1–42): softplus of mu, alpha and beta, as the stages `val_main_v0`, `val_main_v1`, `val_main_v2` of the arguments.
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 1–42: softplus of mu, alpha and beta. -/
theorem s1 (W : Valuation τ sig (Elt Ideal)) (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) :
    after (List.take 42 (ops (F := Ideal))) W (Proc.devRef .tc main_arg0) = x0
    ∧ after (List.take 42 (ops (F := Ideal))) W (Proc.devRef .tc main_arg1) = x1
    ∧ after (List.take 42 (ops (F := Ideal))) W (Proc.devRef .tc main_v0) = val_main_v0 (F := Ideal) x4
    ∧ after (List.take 42 (ops (F := Ideal))) W (Proc.devRef .tc main_v1) = val_main_v1 (F := Ideal) x2
    ∧ after (List.take 42 (ops (F := Ideal))) W (Proc.devRef .tc main_v2) = val_main_v2 (F := Ideal) x3 := by
  refine ⟨?_, ?_, ?_, ?_, ?_⟩ <;> stretch
  · exact a0
  · exact a1
  · first
      | (simp only [a0, a1, a2, a3, a4]; first | done | rfl)
      | rfl
  · first
      | (simp only [a0, a1, a2, a3, a4]; first | done | rfl)
      | rfl
  · first
      | (simp only [a0, a1, a2, a3, a4]; first | done | rfl)
      | rfl

end Cert.ReferenceIdeal.RefVal

end
-- ==== Proof.RefVal2.lean ====
/-
  The reference's run, second stretch (operations 43–56): the triangular mask j ≥ i (`val_main_v4`) and the padding mask type = 0 (`val_main_v6`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

/-! A typed reference's transport of contents is the identity at each buffer of the triangular mask (its type is the
     value's by computation). -/
theorem toBuf_main_v4 (x : (⟨S1024x1024, .i1⟩ : BufTy).Contents (Elt Ideal)) : (TRef.of (T := ⟨S1024x1024, .i1⟩) main_v4).toBuf x = x := by
  simp only [TRef.toBuf, cast_eq]
theorem ofBuf_main_v4 (x : (⟨S1024x1024, .i1⟩ : BufTy).Contents (Elt Ideal)) : (TRef.of (T := ⟨S1024x1024, .i1⟩) main_v4).ofBuf x = x := by
  simp only [TRef.ofBuf, cast_eq]
theorem toBuf_main_v3 (x : (⟨S1024x1024, .i1⟩ : BufTy).Contents (Elt Ideal)) : (TRef.of (T := ⟨S1024x1024, .i1⟩) main_v3).toBuf x = x := by
  simp only [TRef.toBuf, cast_eq]
theorem ofBuf_main_v3 (x : (⟨S1024x1024, .i1⟩ : BufTy).Contents (Elt Ideal)) : (TRef.of (T := ⟨S1024x1024, .i1⟩) main_v3).ofBuf x = x := by
  simp only [TRef.ofBuf, cast_eq]
theorem toBuf_main_call3_v4 (x : (⟨S1024x1024, .i1⟩ : BufTy).Contents (Elt Ideal)) : (TRef.of (T := ⟨S1024x1024, .i1⟩) main_call3_v4).toBuf x = x := by
  simp only [TRef.toBuf, cast_eq]
theorem ofBuf_main_call3_v4 (x : (⟨S1024x1024, .i1⟩ : BufTy).Contents (Elt Ideal)) : (TRef.of (T := ⟨S1024x1024, .i1⟩) main_call3_v4).ofBuf x = x := by
  simp only [TRef.ofBuf, cast_eq]
theorem toBuf_main_call3_v5 (x : (⟨S1024x1024, .i1⟩ : BufTy).Contents (Elt Ideal)) : (TRef.of (T := ⟨S1024x1024, .i1⟩) main_call3_v5).toBuf x = x := by
  simp only [TRef.toBuf, cast_eq]
theorem ofBuf_main_call3_v5 (x : (⟨S1024x1024, .i1⟩ : BufTy).Contents (Elt Ideal)) : (TRef.of (T := ⟨S1024x1024, .i1⟩) main_call3_v5).ofBuf x = x := by
  simp only [TRef.ofBuf, cast_eq]
theorem toBuf_main_call3_c_0 (x : (⟨S_, .i1⟩ : BufTy).Contents (Elt Ideal)) : (TRef.of (T := ⟨S_, .i1⟩) main_call3_c_0).toBuf x = x := by
  simp only [TRef.toBuf, cast_eq]
theorem ofBuf_main_call3_c_0 (x : (⟨S_, .i1⟩ : BufTy).Contents (Elt Ideal)) : (TRef.of (T := ⟨S_, .i1⟩) main_call3_c_0).ofBuf x = x := by
  simp only [TRef.ofBuf, cast_eq]
theorem toBuf_main_call3_v0 (x : (⟨S1024x1024, .i32⟩ : BufTy).Contents (Elt Ideal)) : (TRef.of (T := ⟨S1024x1024, .i32⟩) main_call3_v0).toBuf x = x := by
  simp only [TRef.toBuf, cast_eq]
theorem ofBuf_main_call3_v0 (x : (⟨S1024x1024, .i32⟩ : BufTy).Contents (Elt Ideal)) : (TRef.of (T := ⟨S1024x1024, .i32⟩) main_call3_v0).ofBuf x = x := by
  simp only [TRef.ofBuf, cast_eq]
theorem toBuf_main_call3_v1 (x : (⟨S1024x1024, .i32⟩ : BufTy).Contents (Elt Ideal)) : (TRef.of (T := ⟨S1024x1024, .i32⟩) main_call3_v1).toBuf x = x := by
  simp only [TRef.toBuf, cast_eq]
theorem ofBuf_main_call3_v1 (x : (⟨S1024x1024, .i32⟩ : BufTy).Contents (Elt Ideal)) : (TRef.of (T := ⟨S1024x1024, .i32⟩) main_call3_v1).ofBuf x = x := by
  simp only [TRef.ofBuf, cast_eq]
theorem toBuf_main_call3_v2 (x : (⟨S1024x1024, .i32⟩ : BufTy).Contents (Elt Ideal)) : (TRef.of (T := ⟨S1024x1024, .i32⟩) main_call3_v2).toBuf x = x := by
  simp only [TRef.toBuf, cast_eq]
theorem ofBuf_main_call3_v2 (x : (⟨S1024x1024, .i32⟩ : BufTy).Contents (Elt Ideal)) : (TRef.of (T := ⟨S1024x1024, .i32⟩) main_call3_v2).ofBuf x = x := by
  simp only [TRef.ofBuf, cast_eq]
theorem toBuf_main_call3_v3 (x : (⟨S1024x1024, .i32⟩ : BufTy).Contents (Elt Ideal)) : (TRef.of (T := ⟨S1024x1024, .i32⟩) main_call3_v3).toBuf x = x := by
  simp only [TRef.toBuf, cast_eq]
theorem ofBuf_main_call3_v3 (x : (⟨S1024x1024, .i32⟩ : BufTy).Contents (Elt Ideal)) : (TRef.of (T := ⟨S1024x1024, .i32⟩) main_call3_v3).ofBuf x = x := by
  simp only [TRef.ofBuf, cast_eq]
theorem toBuf_main_call3_c (x : (⟨S_, .i32⟩ : BufTy).Contents (Elt Ideal)) : (TRef.of (T := ⟨S_, .i32⟩) main_call3_c).toBuf x = x := by
  simp only [TRef.toBuf, cast_eq]
theorem ofBuf_main_call3_c (x : (⟨S_, .i32⟩ : BufTy).Contents (Elt Ideal)) : (TRef.of (T := ⟨S_, .i32⟩) main_call3_c).ofBuf x = x := by
  simp only [TRef.ofBuf, cast_eq]

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 43–56: the triangular mask j ≥ i and the padding mask type = 0. -/
theorem s2 (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) :
    after (List.take 14 (List.drop 42 (ops (F := Ideal)))) W (Proc.devRef .tc main_arg0) = x0
    ∧ after (List.take 14 (List.drop 42 (ops (F := Ideal)))) W (Proc.devRef .tc main_arg1) = x1
    ∧ after (List.take 14 (List.drop 42 (ops (F := Ideal)))) W (Proc.devRef .tc main_v0) = val_main_v0 (F := Ideal) x4
    ∧ after (List.take 14 (List.drop 42 (ops (F := Ideal)))) W (Proc.devRef .tc main_v1) = val_main_v1 (F := Ideal) x2
    ∧ after (List.take 14 (List.drop 42 (ops (F := Ideal)))) W (Proc.devRef .tc main_v2) = val_main_v2 (F := Ideal) x3
    ∧ after (List.take 14 (List.drop 42 (ops (F := Ideal)))) W (Proc.devRef .tc main_v4) = val_main_v4 (F := Ideal)
    ∧ after (List.take 14 (List.drop 42 (ops (F := Ideal)))) W (Proc.devRef .tc main_v6) = val_main_v6 (F := Ideal) x0 := by
  refine ⟨?_, ?_, ?_, ?_, ?_, ?_, ?_⟩
  · stretch; exact a0
  · stretch; exact a1
  · stretch; exact h0
  · stretch; exact h1
  · stretch; exact h2
  · simp only [ops, List.take, List.drop]
    after_results
    simp only [toBuf_main_v4, ofBuf_main_v4, toBuf_main_v3, ofBuf_main_v3, toBuf_main_call3_v4, ofBuf_main_call3_v4, toBuf_main_call3_v5, ofBuf_main_call3_v5, toBuf_main_call3_c_0, ofBuf_main_call3_c_0, toBuf_main_call3_v0, ofBuf_main_call3_v0, toBuf_main_call3_v1, ofBuf_main_call3_v1, toBuf_main_call3_v2, ofBuf_main_call3_v2, toBuf_main_call3_v3, ofBuf_main_call3_v3, toBuf_main_call3_c, ofBuf_main_call3_c]
    rfl
  · stretch
    rw [a0]
    rfl

end Cert.ReferenceIdeal.RefVal

end
-- ==== Proof.RefVal3.lean ====
/-
  The reference's run, third stretch (operations 57–74): the pairwise time gaps t_i − t_j, zeroed where masked, rows 1 … 1023 (`val_main_v21`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 57–74: the pairwise time gaps, zeroed where masked, rows 1 … 1023. -/
theorem s3 (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h4 : W (Proc.devRef .tc main_v4) = val_main_v4 (F := Ideal)) (h6 : W (Proc.devRef .tc main_v6) = val_main_v6 (F := Ideal) x0) :
    after (List.take 18 (List.drop 56 (ops (F := Ideal)))) W (Proc.devRef .tc main_arg0) = x0
    ∧ after (List.take 18 (List.drop 56 (ops (F := Ideal)))) W (Proc.devRef .tc main_arg1) = x1
    ∧ after (List.take 18 (List.drop 56 (ops (F := Ideal)))) W (Proc.devRef .tc main_v0) = val_main_v0 (F := Ideal) x4
    ∧ after (List.take 18 (List.drop 56 (ops (F := Ideal)))) W (Proc.devRef .tc main_v1) = val_main_v1 (F := Ideal) x2
    ∧ after (List.take 18 (List.drop 56 (ops (F := Ideal)))) W (Proc.devRef .tc main_v2) = val_main_v2 (F := Ideal) x3
    ∧ after (List.take 18 (List.drop 56 (ops (F := Ideal)))) W (Proc.devRef .tc main_v4) = val_main_v4 (F := Ideal)
    ∧ after (List.take 18 (List.drop 56 (ops (F := Ideal)))) W (Proc.devRef .tc main_v6) = val_main_v6 (F := Ideal) x0
    ∧ after (List.take 18 (List.drop 56 (ops (F := Ideal)))) W (Proc.devRef .tc main_v21) = val_main_v21 (F := Ideal) x0 x1 := by
  refine ⟨?_, ?_, ?_, ?_, ?_, ?_, ?_, ?_⟩ <;> stretch
  · exact a0
  · exact a1
  · exact h0
  · exact h1
  · exact h2
  · exact h4
  · exact h6
  · first
      | (simp only [a0, a1, h0, h1, h2, h4, h6]; first | done | rfl)
      | rfl

end Cert.ReferenceIdeal.RefVal

end
-- ==== Proof.RefVal4.lean ====
/-
  The reference's run, fourth stretch (operations 75–82): the decay weights ω · exp (−ω · gap) (`val_main_v29`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 75–82: the decay weights ω · exp (−ω · gap). -/
theorem s4 (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h4 : W (Proc.devRef .tc main_v4) = val_main_v4 (F := Ideal)) (h6 : W (Proc.devRef .tc main_v6) = val_main_v6 (F := Ideal) x0) (h21 : W (Proc.devRef .tc main_v21) = val_main_v21 (F := Ideal) x0 x1) :
    after (List.take 8 (List.drop 74 (ops (F := Ideal)))) W (Proc.devRef .tc main_arg0) = x0
    ∧ after (List.take 8 (List.drop 74 (ops (F := Ideal)))) W (Proc.devRef .tc main_arg1) = x1
    ∧ after (List.take 8 (List.drop 74 (ops (F := Ideal)))) W (Proc.devRef .tc main_v0) = val_main_v0 (F := Ideal) x4
    ∧ after (List.take 8 (List.drop 74 (ops (F := Ideal)))) W (Proc.devRef .tc main_v1) = val_main_v1 (F := Ideal) x2
    ∧ after (List.take 8 (List.drop 74 (ops (F := Ideal)))) W (Proc.devRef .tc main_v2) = val_main_v2 (F := Ideal) x3
    ∧ after (List.take 8 (List.drop 74 (ops (F := Ideal)))) W (Proc.devRef .tc main_v4) = val_main_v4 (F := Ideal)
    ∧ after (List.take 8 (List.drop 74 (ops (F := Ideal)))) W (Proc.devRef .tc main_v6) = val_main_v6 (F := Ideal) x0
    ∧ after (List.take 8 (List.drop 74 (ops (F := Ideal)))) W (Proc.devRef .tc main_v29) = val_main_v29 (F := Ideal) x0 x1 x3 := by
  refine ⟨?_, ?_, ?_, ?_, ?_, ?_, ?_, ?_⟩ <;> stretch
  · exact a0
  · exact a1
  · exact h0
  · exact h1
  · exact h2
  · exact h4
  · exact h6
  · first
      | (simp only [a0, a1, h0, h1, h2, h4, h6, h21]; first | done | rfl)
      | rfl

end Cert.ReferenceIdeal.RefVal

end
-- ==== Proof.RefVal5.lean ====
/-
  The reference's run, fifth stretch (operations 83–103): the two type words of a pair, wrapped when negative, broadcast over batch × rows × columns (`val_main_v45`, `val_main_v46`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 83–103: the row's and the column's type words as gather indices. -/
theorem s5a (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h4 : W (Proc.devRef .tc main_v4) = val_main_v4 (F := Ideal)) (h6 : W (Proc.devRef .tc main_v6) = val_main_v6 (F := Ideal) x0) (h29 : W (Proc.devRef .tc main_v29) = val_main_v29 (F := Ideal) x0 x1 x3) :
    after (List.take 21 (List.drop 82 (ops (F := Ideal)))) W (Proc.devRef .tc main_arg0) = x0
    ∧ after (List.take 21 (List.drop 82 (ops (F := Ideal)))) W (Proc.devRef .tc main_arg1) = x1
    ∧ after (List.take 21 (List.drop 82 (ops (F := Ideal)))) W (Proc.devRef .tc main_v0) = val_main_v0 (F := Ideal) x4
    ∧ after (List.take 21 (List.drop 82 (ops (F := Ideal)))) W (Proc.devRef .tc main_v1) = val_main_v1 (F := Ideal) x2
    ∧ after (List.take 21 (List.drop 82 (ops (F := Ideal)))) W (Proc.devRef .tc main_v2) = val_main_v2 (F := Ideal) x3
    ∧ after (List.take 21 (List.drop 82 (ops (F := Ideal)))) W (Proc.devRef .tc main_v4) = val_main_v4 (F := Ideal)
    ∧ after (List.take 21 (List.drop 82 (ops (F := Ideal)))) W (Proc.devRef .tc main_v6) = val_main_v6 (F := Ideal) x0
    ∧ after (List.take 21 (List.drop 82 (ops (F := Ideal)))) W (Proc.devRef .tc main_v29) = val_main_v29 (F := Ideal) x0 x1 x3
    ∧ after (List.take 21 (List.drop 82 (ops (F := Ideal)))) W (Proc.devRef .tc main_v45) = val_main_v45 (F := Ideal) x0
    ∧ after (List.take 21 (List.drop 82 (ops (F := Ideal)))) W (Proc.devRef .tc main_v46) = val_main_v46 (F := Ideal) x0 := by
  refine ⟨?_, ?_, ?_, ?_, ?_, ?_, ?_, ?_, ?_, ?_⟩ <;> stretch
  · exact a0
  · exact a1
  · exact h0
  · exact h1
  · exact h2
  · exact h4
  · exact h6
  · exact h29
  · first
      | (simp only [a0, a1, h0, h1, h2, h4, h6, h29]; first | done | rfl)
      | rfl
  · first
      | (simp only [a0, a1, h0, h1, h2, h4, h6, h29]; first | done | rfl)
      | rfl

end Cert.ReferenceIdeal.RefVal

end
-- ==== Proof.RefVal5b.lean ====
/-
  The reference's run, operations 104–106: the two index arrays joined, the table entries gathered by them, times the weights (`val_main_v49`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer (one rewrite per
    operation and buffer), the typed references' casts removed. -/
local macro "stretch" : tactic =>
  `(tactic| (simp only [ops, List.take, List.drop]; after_results; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 104–106: join, gather, multiply. -/
theorem s5b (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h4 : W (Proc.devRef .tc main_v4) = val_main_v4 (F := Ideal)) (h6 : W (Proc.devRef .tc main_v6) = val_main_v6 (F := Ideal) x0) (h29 : W (Proc.devRef .tc main_v29) = val_main_v29 (F := Ideal) x0 x1 x3) (h45 : W (Proc.devRef .tc main_v45) = val_main_v45 (F := Ideal) x0) (h46 : W (Proc.devRef .tc main_v46) = val_main_v46 (F := Ideal) x0) :
    after (List.take 3 (List.drop 103 (ops (F := Ideal)))) W (Proc.devRef .tc main_arg0) = x0
    ∧ after (List.take 3 (List.drop 103 (ops (F := Ideal)))) W (Proc.devRef .tc main_arg1) = x1
    ∧ after (List.take 3 (List.drop 103 (ops (F := Ideal)))) W (Proc.devRef .tc main_v0) = val_main_v0 (F := Ideal) x4
    ∧ after (List.take 3 (List.drop 103 (ops (F := Ideal)))) W (Proc.devRef .tc main_v1) = val_main_v1 (F := Ideal) x2
    ∧ after (List.take 3 (List.drop 103 (ops (F := Ideal)))) W (Proc.devRef .tc main_v2) = val_main_v2 (F := Ideal) x3
    ∧ after (List.take 3 (List.drop 103 (ops (F := Ideal)))) W (Proc.devRef .tc main_v4) = val_main_v4 (F := Ideal)
    ∧ after (List.take 3 (List.drop 103 (ops (F := Ideal)))) W (Proc.devRef .tc main_v6) = val_main_v6 (F := Ideal) x0
    ∧ after (List.take 3 (List.drop 103 (ops (F := Ideal)))) W (Proc.devRef .tc main_v49) = val_main_v49 (F := Ideal) x0 x1 x2 x3 := by
  refine ⟨?_, ?_, ?_, ?_, ?_, ?_, ?_, ?_⟩ <;> stretch
  · exact a0
  · exact a1
  · exact h0
  · exact h1
  · exact h2
  · exact h4
  · exact h6
  · rw [h1, h29, h45, h46]
    rfl

end Cert.ReferenceIdeal.RefVal

end
-- ==== Proof.RefVal6.lean ====
/-
  The reference's run, sixth stretch (operations 107–122): the masked products summed over the earlier events (`val_main_v61`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 107–122: the masked products summed over the earlier events. -/
theorem s6 (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h4 : W (Proc.devRef .tc main_v4) = val_main_v4 (F := Ideal)) (h6 : W (Proc.devRef .tc main_v6) = val_main_v6 (F := Ideal) x0) (h49 : W (Proc.devRef .tc main_v49) = val_main_v49 (F := Ideal) x0 x1 x2 x3) :
    after (List.take 16 (List.drop 106 (ops (F := Ideal)))) W (Proc.devRef .tc main_arg0) = x0
    ∧ after (List.take 16 (List.drop 106 (ops (F := Ideal)))) W (Proc.devRef .tc main_arg1) = x1
    ∧ after (List.take 16 (List.drop 106 (ops (F := Ideal)))) W (Proc.devRef .tc main_v0) = val_main_v0 (F := Ideal) x4
    ∧ after (List.take 16 (List.drop 106 (ops (F := Ideal)))) W (Proc.devRef .tc main_v1) = val_main_v1 (F := Ideal) x2
    ∧ after (List.take 16 (List.drop 106 (ops (F := Ideal)))) W (Proc.devRef .tc main_v2) = val_main_v2 (F := Ideal) x3
    ∧ after (List.take 16 (List.drop 106 (ops (F := Ideal)))) W (Proc.devRef .tc main_v6) = val_main_v6 (F := Ideal) x0
    ∧ after (List.take 16 (List.drop 106 (ops (F := Ideal)))) W (Proc.devRef .tc main_v61) = val_main_v61 (F := Ideal) x0 x1 x2 x3 := by
  refine ⟨?_, ?_, ?_, ?_, ?_, ?_, ?_⟩ <;> stretch
  · exact a0
  · exact a1
  · exact h0
  · exact h1
  · exact h2
  · exact h6
  · first
      | (simp only [a0, a1, h0, h1, h2, h4, h6, h49]; first | done | rfl)
      | rfl

end Cert.ReferenceIdeal.RefVal

end
-- ==== Proof.RefVal7.lean ====
/-
  The reference's run, last stretch (operations 123–185): the rates, the compensator and the likelihood (`val_main_v106`).
  Each buffer the stretch leaves is the named stage of the arguments, given that the buffers it reads are.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- Operations 123–185: the rates, the compensator and the likelihood. -/
theorem s7 (W : Valuation τ sig (Elt Ideal)) (a0 : W (Proc.devRef .tc main_arg0) = x0) (a1 : W (Proc.devRef .tc main_arg1) = x1) (h0 : W (Proc.devRef .tc main_v0) = val_main_v0 (F := Ideal) x4) (h1 : W (Proc.devRef .tc main_v1) = val_main_v1 (F := Ideal) x2) (h2 : W (Proc.devRef .tc main_v2) = val_main_v2 (F := Ideal) x3) (h6 : W (Proc.devRef .tc main_v6) = val_main_v6 (F := Ideal) x0) (h61 : W (Proc.devRef .tc main_v61) = val_main_v61 (F := Ideal) x0 x1 x2 x3) :
    after (List.drop 122 (ops (F := Ideal))) W (Proc.devRef .tc main_v106) = val_main_v106 (F := Ideal) x0 x1 x2 x3 x4 := by
  stretch
  · first
      | (simp only [a0, a1, h0, h1, h2, h6, h61]; first | done | rfl)
      | rfl

end Cert.ReferenceIdeal.RefVal

end
-- ==== Proof.RefValArgs.lean ====
/-
  The reference's arguments: none of its 185 host operations writes one, so each ends as launched.
-/
import proofs.«414441_j14216341750039_3_alg».proof.Proof.RefRead
import Idealize.ShloMosaic.Lib.StableHlo.Run
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- One stretch evaluated: the list made literal, each operation's result rewritten at its buffer, the typed
    references' casts removed. -/
local macro "stretch" : tactic =>
  `(tactic| (simp only [ops, List.take, List.drop]; after_results_simp; try simp only [TRef.ofBuf, TRef.toBuf, cast_eq]))

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxHeartbeats 8000000 in
set_option maxRecDepth 100000 in
/-- No operation writes argument 0. -/
theorem arg0_kept (V : Valuation τ sig (Elt Ideal)) :
    after (ops (F := Ideal)) V (Proc.devRef .tc main_arg0) = V (Proc.devRef .tc main_arg0) := by
  simp only [ops]; after_results_simp

set_option maxHeartbeats 8000000 in
set_option maxRecDepth 100000 in
/-- No operation writes argument 1. -/
theorem arg1_kept (V : Valuation τ sig (Elt Ideal)) :
    after (ops (F := Ideal)) V (Proc.devRef .tc main_arg1) = V (Proc.devRef .tc main_arg1) := by
  simp only [ops]; after_results_simp

set_option maxHeartbeats 8000000 in
set_option maxRecDepth 100000 in
/-- No operation writes argument 2. -/
theorem arg2_kept (V : Valuation τ sig (Elt Ideal)) :
    after (ops (F := Ideal)) V (Proc.devRef .tc main_arg2) = V (Proc.devRef .tc main_arg2) := by
  simp only [ops]; after_results_simp

set_option maxHeartbeats 8000000 in
set_option maxRecDepth 100000 in
/-- No operation writes argument 3. -/
theorem arg3_kept (V : Valuation τ sig (Elt Ideal)) :
    after (ops (F := Ideal)) V (Proc.devRef .tc main_arg3) = V (Proc.devRef .tc main_arg3) := by
  simp only [ops]; after_results_simp

set_option maxHeartbeats 8000000 in
set_option maxRecDepth 100000 in
/-- No operation writes argument 4. -/
theorem arg4_kept (V : Valuation τ sig (Elt Ideal)) :
    after (ops (F := Ideal)) V (Proc.devRef .tc main_arg4) = V (Proc.devRef .tc main_arg4) := by
  simp only [ops]; after_results_simp

end Cert.ReferenceIdeal.RefVal

end
-- ==== Proof.RefVal.lean ====
/-
  The reference's run, read stretch by stretch.

  The reference is a straight line of 185 host operations; its run leaves every buffer at the fold of the operations
  over the launch contents. The fold is evaluated here in eight stretches, cut where few buffers are still to be read
  (after the three softplus calls; after the triangular mask and the padding mask; after the masked time gaps; after
  the decay weights; after the two index arrays of the gather; after the gathered table entries times the weights; after the masked row sums; the remaining
  operations down to the likelihood). Each stretch takes what the buffers it reads hold, named as the stages
  `val_main_vN` of the arguments, to the stages of the buffers it leaves; chained, the result buffer ends at
  `val_main_v106` of the arguments.
-/
import proofs.«414441_j14216341750039_3_alg».proof.Proof.RefVal1
import proofs.«414441_j14216341750039_3_alg».proof.Proof.RefVal2
import proofs.«414441_j14216341750039_3_alg».proof.Proof.RefVal3
import proofs.«414441_j14216341750039_3_alg».proof.Proof.RefVal4
import proofs.«414441_j14216341750039_3_alg».proof.Proof.RefVal5
import proofs.«414441_j14216341750039_3_alg».proof.Proof.RefVal5b
import proofs.«414441_j14216341750039_3_alg».proof.Proof.RefVal6
import proofs.«414441_j14216341750039_3_alg».proof.Proof.RefVal7
import proofs.«414441_j14216341750039_3_alg».proof.Proof.RefValArgs
import Idealize.ShloMosaic.Lib.Pipeline.Frame

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- Running a line is running its first `n` operations, then the rest. -/
theorem after_split (l : List (HloOp τ sig (Elt Ideal))) (n : Nat) (W : Valuation τ sig (Elt Ideal)) :
    after l W = after (l.drop n) (after (l.take n) W) := by
  conv_lhs => rw [← List.take_append_drop n l]
  exact StableHlo.after_append _ _ _

variable (x0 : (⟨S32x1024, .i32⟩ : BufTy).Contents (Elt Ideal)) (x1 : (⟨S32x1024, .f32⟩ : BufTy).Contents (Elt Ideal))
  (x2 : (⟨S51x51, .f32⟩ : BufTy).Contents (Elt Ideal)) (x3 : (⟨S1, .f32⟩ : BufTy).Contents (Elt Ideal))
  (x4 : (⟨S51, .f32⟩ : BufTy).Contents (Elt Ideal))

set_option maxRecDepth 100000 in
/-- The whole line: from launch contents `V` the result buffer ends at `val_main_v106` of the arguments. -/
theorem result (V : Valuation τ sig (Elt Ideal)) (a0 : V (Proc.devRef .tc main_arg0) = x0) (a1 : V (Proc.devRef .tc main_arg1) = x1)
    (a2 : V (Proc.devRef .tc main_arg2) = x2) (a3 : V (Proc.devRef .tc main_arg3) = x3) (a4 : V (Proc.devRef .tc main_arg4) = x4) :
    after (ops (F := Ideal)) V (Proc.devRef .tc main_v106) = val_main_v106 (F := Ideal) x0 x1 x2 x3 x4 := by
  obtain ⟨b0, b1, h0, h1, h2⟩ := s1 x0 x1 x2 x3 x4 V a0 a1 a2 a3 a4
  rw [after_split _ 42]
  generalize after (List.take 42 (ops (F := Ideal))) V = W1 at b0 b1 h0 h1 h2 ⊢
  obtain ⟨c0, c1, i0, i1, i2, i4, i6⟩ := s2 x0 x1 x2 x3 x4 W1 b0 b1 h0 h1 h2
  rw [after_split (List.drop 42 ops) 14]
  simp only [List.drop_drop, Nat.reduceAdd]
  generalize after (List.take 14 (List.drop 42 (ops (F := Ideal)))) W1 = W2 at c0 c1 i0 i1 i2 i4 i6 ⊢
  obtain ⟨d0, d1, j0, j1, j2, j4, j6, j21⟩ := s3 x0 x1 x2 x3 x4 W2 c0 c1 i0 i1 i2 i4 i6
  rw [after_split (List.drop 56 ops) 18]
  simp only [List.drop_drop, Nat.reduceAdd]
  generalize after (List.take 18 (List.drop 56 (ops (F := Ideal)))) W2 = W3 at d0 d1 j0 j1 j2 j4 j6 j21 ⊢
  obtain ⟨e0, e1, k0, k1, k2, k4, k6, k29⟩ := s4 x0 x1 x2 x3 x4 W3 d0 d1 j0 j1 j2 j4 j6 j21
  rw [after_split (List.drop 74 ops) 8]
  simp only [List.drop_drop, Nat.reduceAdd]
  generalize after (List.take 8 (List.drop 74 (ops (F := Ideal)))) W3 = W4 at e0 e1 k0 k1 k2 k4 k6 k29 ⊢
  obtain ⟨p0, p1, q0, q1, q2, q4, q6, q29, q45, q46⟩ := s5a x0 x1 x2 x3 x4 W4 e0 e1 k0 k1 k2 k4 k6 k29
  rw [after_split (List.drop 82 ops) 21]
  simp only [List.drop_drop, Nat.reduceAdd]
  generalize after (List.take 21 (List.drop 82 (ops (F := Ideal)))) W4 = W4' at p0 p1 q0 q1 q2 q4 q6 q29 q45 q46 ⊢
  obtain ⟨f0, f1, l0, l1, l2, l4, l6, l49⟩ := s5b x0 x1 x2 x3 x4 W4' p0 p1 q0 q1 q2 q4 q6 q29 q45 q46
  rw [after_split (List.drop 103 ops) 3]
  simp only [List.drop_drop, Nat.reduceAdd]
  generalize after (List.take 3 (List.drop 103 (ops (F := Ideal)))) W4' = W5 at f0 f1 l0 l1 l2 l4 l6 l49 ⊢
  obtain ⟨g0, g1, n0, n1, n2, n6, n61⟩ := s6 x0 x1 x2 x3 x4 W5 f0 f1 l0 l1 l2 l4 l6 l49
  rw [after_split (List.drop 106 ops) 16]
  simp only [List.drop_drop, Nat.reduceAdd]
  generalize after (List.take 16 (List.drop 106 (ops (F := Ideal)))) W5 = W6 at g0 g1 n0 n1 n2 n6 n61 ⊢
  exact s7 x0 x1 x2 x3 x4 W6 g0 g1 n0 n1 n2 n6 n61

end Cert.ReferenceIdeal.RefVal

end
-- ==== Proof.lean ====
/-
  Kernel j14216341750039/3: the negative log-likelihood of a multivariate Hawkes process with exponential decay,
  32 sequences of 1024 typed events (type 0 = padding), parameters softplus (mu, alpha, beta).

  The kernel program computes, per sequence, the excitation every event receives from the strictly earlier ones by two
  matrix products against the one-hot table of the types (one 1024 × 1024 tile per grid point), with ω folded into
  the table and the times beforehand, the padding tests replaced by a zeroed row 0 and column 0 of the padded table,
  and the exponent clamped at 0; the reference computes the same sums entry by entry over a masked 32 × 1023 × 1024
  array. After the sums both programs run the same host operations (rates, compensator, logarithms, totals).
  Over the extended reals the two results are equal when the types lie in 0 … 50 (the index range of the three
  tables both programs gather from) and the event times never decrease along a sequence (for an earlier event
  j < i the clamp min (ω·t_j − ω·t_i) 0 is then the reference's exponent −ω·(t_i − t_j), as ω ≥ 0): the precondition
  states finiteness of the float inputs and these two facts.

  `frame_Kernel` / `frame_KernelIdeal`: the program's one region run through the pipeline library's frame theorem
  for a region followed by host operations, at the word-level and at the ideal instance (FrameK, FrameKI).
  `frame_ReferenceIdeal`: the reference is a straight line of host operations (the library's `run_seq`); no
  operation writes an argument. `preserves`: the ideal pass rewrote nothing. `algebraic`: the kernel program's
  result buffer ends at the reference's result term of the same arguments (Bridge.result_eq), and the reference's
  own run ends there (RefVal.result).
-/
import proofs.«414441_j14216341750039_3_alg».proof.Defs
import proofs.«414441_j14216341750039_3_alg».proof.Proof.Gen.Kernel
import proofs.«414441_j14216341750039_3_alg».proof.Proof.Gen.KernelIdeal
import proofs.«414441_j14216341750039_3_alg».proof.Proof.Gen.ReferenceIdeal
import proofs.«414441_j14216341750039_3_alg».proof.Proof.Gen.Pre_finite_inputs
import proofs.«414441_j14216341750039_3_alg».proof.Proof.FrameK
import proofs.«414441_j14216341750039_3_alg».proof.Proof.FrameKI
import proofs.«414441_j14216341750039_3_alg».proof.Proof.Bridge
import proofs.«414441_j14216341750039_3_alg».proof.Proof.RefVal
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's arguments end as launched: each is left alone by all 185 operations. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefVal.arg0_kept _),
     (h c Cert.ReferenceIdeal.main_arg1).trans (Cert.ReferenceIdeal.RefVal.arg1_kept _),
     (h c Cert.ReferenceIdeal.main_arg2).trans (Cert.ReferenceIdeal.RefVal.arg2_kept _),
     (h c Cert.ReferenceIdeal.main_arg3).trans (Cert.ReferenceIdeal.RefVal.arg3_kept _),
     (h c Cert.ReferenceIdeal.main_arg4).trans (Cert.ReferenceIdeal.RefVal.arg4_kept _)⟩)
    (Cert.ReferenceIdeal.Value.run_raw (F := Ideal) m ρ)

theorem preserves : Cert.preserves_Kernel_KernelIdeal := trivial

/-- Both programs end with the reference's result term of the (agreeing) arguments. -/
theorem algebraic : Cert.algebraic_KernelIdeal_ReferenceIdeal := by
  intro m ρ m' ρ' hpre hagree
  refine ⟨fun c => Cert.ReferenceIdeal.Read.val_main_v106 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Fr.run_main m ρ)
    refine ⟨((h c).2 Cert.KernelIdeal.main_v66 (Pipeline.mem_restRefs_of _ (by decide) (by decide))).trans
        (Cert.KernelIdeal.Bridge.result_eq m c (hpre c)), ?_, ?_, ?_, ?_, ?_⟩
    · exact ((h c).2 Cert.KernelIdeal.main_arg0 (Pipeline.mem_restRefs_of _ (by decide) (by decide))).trans (Cert.KernelIdeal.Fr.W_main_arg0 m c)
    · exact ((h c).2 Cert.KernelIdeal.main_arg1 (Pipeline.mem_restRefs_of _ (by decide) (by decide))).trans (Cert.KernelIdeal.Fr.W_main_arg1 m c)
    · exact ((h c).2 Cert.KernelIdeal.main_arg2 (Pipeline.mem_restRefs_of _ (by decide) (by decide))).trans (Cert.KernelIdeal.Fr.W_main_arg2 m c)
    · exact ((h c).2 Cert.KernelIdeal.main_arg3 (Pipeline.mem_restRefs_of _ (by decide) (by decide))).trans (Cert.KernelIdeal.Fr.W_main_arg3 m c)
    · exact ((h c).2 Cert.KernelIdeal.main_arg4 (Pipeline.mem_restRefs_of _ (by decide) (by decide))).trans (Cert.KernelIdeal.Fr.W_main_arg4 m c)
  · refine (θ_run Cert.ReferenceIdeal.defs _ _).mono (fun r h c => ?_) (Cert.ReferenceIdeal.Value.run_raw (F := Ideal) m' ρ')
    obtain ⟨e0, e1, e2, e3, e4⟩ := hagree c
    refine ⟨(h c Cert.ReferenceIdeal.main_v106).trans (Cert.ReferenceIdeal.RefVal.result _ _ _ _ _ _ e0 e1 e2 e3 e4),
      (h c Cert.ReferenceIdeal.main_arg0).trans (Cert.ReferenceIdeal.RefVal.arg0_kept _),
      (h c Cert.ReferenceIdeal.main_arg1).trans (Cert.ReferenceIdeal.RefVal.arg1_kept _),
      (h c Cert.ReferenceIdeal.main_arg2).trans (Cert.ReferenceIdeal.RefVal.arg2_kept _),
      (h c Cert.ReferenceIdeal.main_arg3).trans (Cert.ReferenceIdeal.RefVal.arg3_kept _),
      (h c Cert.ReferenceIdeal.main_arg4).trans (Cert.ReferenceIdeal.RefVal.arg4_kept _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
